-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S500x128 : Shape := ⟨2, ![500, 128]⟩
abbrev S128x128 : Shape := ⟨2, ![128, 128]⟩
abbrev S128 : Shape := ⟨1, ![128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S_ : Shape := ⟨0, ![]⟩

class Facts : Prop where
  bcast_S_S500x128 : S_.BroadcastsInDim S500x128 (![] : Fin 0 → Fin S500x128.rank)
  reducesTo_S500x128_S_d0_1 : S500x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x10 : S_.BroadcastsInDim S384x10 (![] : Fin 0 → Fin S384x10.rank)
  reducesTo_S384x10_S_d0_1 : S384x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part8 {F : FTy → Type} [FloatOps F] (main_arg0 : IVec S50000 32) (main_arg31 : FVec F S10 .f32) (main_v133 : IVec S_ 1) (main_v136 : IVec S384x10 1) : IVec S_ 1 :=
  let main_c_53 : IVec S_ 1 := constantI S_ 1 1#1
  let main_v137 : IVec S_ 1 := (fun x v => Host.reduce IntOp.andi x v reducesTo_S384x10_S_d0_1 h_S_) main_v136 main_c_53
  let main_v138 : IVec S_ 1 := andi main_v133 main_v137
  let main_v139 : FVec F S10 .f32 := Host.absf main_arg31
  let main_cst_54 : FVec F S_ .f32 := constant S_ .f32 0x7F800000#32
  let main_v140 : FVec F S10 .f32 := broadcastInDim S10 ![] bcast_S_S10 main_cst_54
  let main_v141 : IVec S10 1 := cmpf .olt main_v139 main_v140
  let main_c_55 : IVec S_ 1 := constantI S_ 1 1#1
  let main_v142 : IVec S_ 1 := (fun x v => Host.reduce IntOp.andi x v reducesTo_S10_S_d0 h_S_) main_v141 main_c_55
  let main_v143 : IVec S_ 1 := andi main_v138 main_v142
  let main_c_56 : IVec S_ 32 := constantI S_ 32 0#32
  let main_v144 : IVec S50000 32 := broadcastInDim S50000 ![] bcast_S_S50000 main_c_56
  let main_v145 : IVec S50000 1 := cmpi .sge main_arg0 main_v144
  let main_c_57 : IVec S_ 1 := constantI S_ 1 1#1
  let main_v146 : IVec S_ 1 := (fun x v => Host.reduce IntOp.andi x v reducesTo_S50000_S_d0 h_S_) main_v145 main_c_57
  let main_v147 : IVec S_ 1 := andi main_v143 main_v146
  let main_c_58 : IVec S_ 32 := constantI S_ 32 500#32
  let main_v148 : IVec S50000 32 := broadcastInDim S50000 ![] bcast_S_S50000 main_c_58
  let main_v149 : IVec S50000 1 := cmpi .slt main_arg0 main_v148
  let main_c_59 : IVec S_ 1 := constantI S_ 1 1#1
  let main_v150 : IVec S_ 1 := (fun x v => Host.reduce IntOp.andi x v reducesTo_S50000_S_d0 h_S_) main_v149 main_c_59
  let main_v151 : IVec S_ 1 := andi main_v147 main_v150
  main_v151

def fn_part7 {F : FTy → Type} [FloatOps F] (main_arg0 : IVec S50000 32) (main_arg28 : FVec F S384x384 .f32) (main_arg29 : FVec F S384 .f32) (main_arg30 : FVec F S384x10 .f32) (main_arg31 : FVec F S10 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S384x384 .f32 := Host.absf main_arg28
  let main_cst_48 : FVec F S_ .f32 := constant S_ .f32 0x7F800000#32
  let main_v125 : FVec F S384x384 .f32 := broadcastInDim S384x384 ![] bcast_S_S384x384 main_cst_48
  let main_v126 : IVec S384x384 1 := cmpf .olt main_v124 main_v125
  let main_c_49 : IVec S_ 1 := constantI S_ 1 1#1
  let main_v127 : IVec S_ 1 := (fun x v => Host.reduce IntOp.andi x v reducesTo_S384x384_S_d0_1 h_S_) main_v126 main_c_49
  let main_v128 : IVec S_ 1 := andi main_v123 main_v127
  let main_v129 : FVec F S384 .f32 := Host.absf main_arg29
  let main_cst_50 : FVec F S_ .f32 := constant S_ .f32 0x7F800000#32
  let main_v130 : FVec F S384 .f32 := broadcastInDim S384 ![] bcast_S_S384 main_cst_50
  let main_v131 : IVec S384 1 := cmpf .olt main_v129 main_v130
  let main_c_51 : IVec S_ 1 := constantI S_ 1 1#1
  let main_v132 : IVec S_ 1 := (fun x v => Host.reduce IntOp.andi x v reducesTo_S384_S_d0 h_S_) main_v131 main_c_51
  let main_v133 : IVec S_ 1 := andi main_v128 main_v132
  let main_v134 : FVec F S384x10 .f32 := Host.absf main_arg30
  let main_cst_52 : FVec F S_ .f32 := constant S_ .f32 0x7F800000#32
  let main_v135 : FVec F S384x10 .f32 := broadcastInDim S384x10 ![] bcast_S_S384x10 main_cst_52
  let main_v136 : IVec S384x10 1 := cmpf .olt main_v134 main_v135
  fn_part8 (F := F) main_arg0 main_arg31 main_v133 main_v136

def fn_part6 {F : FTy → Type} [FloatOps F] (main_arg0 : IVec S50000 32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg24
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg0 main_arg28 main_arg29 main_arg30 main_arg31 main_v118 main_v119

def fn_part5 {F : FTy → Type} [FloatOps F] (main_arg0 : IVec S50000 32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg22
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg0 main_arg24 main_arg25 main_arg26 main_arg27 main_arg28 main_arg29 main_arg30 main_arg31 main_v98 main_v101 main_c_39

def fn_part4 {F : FTy → Type} [FloatOps F] (main_arg0 : IVec S50000 32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg0 main_arg21 main_arg22 main_arg23 main_arg24 main_arg25 main_arg26 main_arg27 main_arg28 main_arg29 main_arg30 main_arg31 main_v83 main_v84 main_cst_32

def fn_part3 {F : FTy → Type} [FloatOps F] (main_arg0 : IVec S50000 32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg0 : IVec S50000 32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg0 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg0 : IVec S50000 32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : IVec S50000 32) (main_arg1 : IVec S2x800000 32) (main_arg2 : IVec S50000 32) (main_arg3 : FVec F S500x128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S384x384 .f32) (main_arg29 : FVec F S384 .f32) (main_arg30 : FVec F S384x10 .f32) (main_arg31 : FVec F S10 .f32) : IVec S_ 1 :=
  let main_v0 : FVec F S500x128 .f32 := Host.absf main_arg3
  let main_cst : FVec F S_ .f32 := constant S_ .f32 0x7F800000#32
  let main_v1 : FVec F S500x128 .f32 := broadcastInDim S500x128 ![] bcast_S_S500x128 main_cst
  let main_v2 : IVec S500x128 1 := cmpf .olt main_v0 main_v1
  let main_c : IVec S_ 1 := constantI S_ 1 1#1
  let main_v3 : IVec S_ 1 := (fun x v => Host.reduce IntOp.andi x v reducesTo_S500x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S50000 : Shape := ⟨1, ![50000]⟩
abbrev S2x800000 : Shape := ⟨2, ![2, 800000]⟩
abbrev S500x128 : Shape := ⟨2, ![500, 128]⟩
abbrev S128x128 : Shape := ⟨2, ![128, 128]⟩
abbrev S128 : Shape := ⟨1, ![128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S1x800000 : Shape := ⟨2, ![1, 800000]⟩
abbrev S800000 : Shape := ⟨1, ![800000]⟩
abbrev S50000x1 : Shape := ⟨2, ![50000, 1]⟩
abbrev S50000x128 : Shape := ⟨2, ![50000, 128]⟩
abbrev S2000x1 : Shape := ⟨2, ![2000, 1]⟩
abbrev S2000x128 : Shape := ⟨2, ![2000, 128]⟩
abbrev S2000x500 : Shape := ⟨2, ![2000, 500]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S512x384 : Shape := ⟨2, ![512, 384]⟩
abbrev S2000x512 : Shape := ⟨2, ![2000, 512]⟩
abbrev S512x128 : Shape := ⟨2, ![512, 128]⟩
abbrev S1x384 : Shape := ⟨2, ![1, 384]⟩
abbrev S512x10 : Shape := ⟨2, ![512, 10]⟩
abbrev S1x10 : Shape := ⟨2, ![1, 10]⟩

abbrev nBuf : Space → Nat
  | .hbm => 114
  | .vmem => 56
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S500x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S384x384, .f32⟩
  | .hbm, ⟨29, _⟩ => ⟨S384, .f32⟩
  | .hbm, ⟨30, _⟩ => ⟨S384x10, .f32⟩
  | .hbm, ⟨31, _⟩ => ⟨S10, .f32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S50000x1, .i32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .hbm, ⟨98, _⟩ => ⟨S50000x128, .bf16⟩
  | .hbm, ⟨99, _⟩ => ⟨S50000x128, .bf16⟩
  | .hbm, ⟨100, _⟩ => ⟨S50000x128, .bf16⟩
  | .hbm, ⟨101, _⟩ => ⟨S50000x1, .i32⟩
  | .hbm, ⟨102, _⟩ => ⟨S512x384, .f32⟩
  | .hbm, ⟨103, _⟩ => ⟨S512x384, .f32⟩
  | .hbm, ⟨104, _⟩ => ⟨S1x384, .f32⟩
  | .hbm, ⟨105, _⟩ => ⟨S512x384, .f32⟩
  | .hbm, ⟨106, _⟩ => ⟨S512x384, .f32⟩
  | .hbm, ⟨107, _⟩ => ⟨S_, .f32⟩
  | .hbm, ⟨108, _⟩ => ⟨S512x384, .f32⟩
  | .hbm, ⟨109, _⟩ => ⟨S512x384, .f32⟩
  | .hbm, ⟨110, _⟩ => ⟨S512x10, .f32⟩
  | .hbm, ⟨111, _⟩ => ⟨S1x10, .f32⟩
  | .hbm, ⟨112, _⟩ => ⟨S512x10, .f32⟩
  | .hbm, ⟨113, _⟩ => ⟨S512x10, .f32⟩
  | .local _ .vmem, ⟨0, _⟩ => ⟨S2000x1, .i32⟩
  | .local _ .vmem, ⟨1, _⟩ => ⟨S2000x1, .i32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S2000x128, .f32⟩
  | .local _ .vmem, ⟨46, _⟩ => ⟨S2000x128, .f32⟩
  | .local _ .vmem, ⟨47, _⟩ => ⟨S2000x1, .i32⟩
  | .local _ .vmem, ⟨48, _⟩ => ⟨S2000x1, .i32⟩
  | .local _ .vmem, ⟨49, _⟩ => ⟨S2000x128, .bf16⟩
  | .local _ .vmem, ⟨50, _⟩ => ⟨S2000x128, .bf16⟩
  | .local _ .vmem, ⟨51, _⟩ => ⟨S2000x128, .bf16⟩
  | .local _ .vmem, ⟨52, _⟩ => ⟨S2000x128, .bf16⟩
  | .local _ .vmem, ⟨53, _⟩ => ⟨S2000x128, .bf16⟩
  | .local _ .vmem, ⟨54, _⟩ => ⟨S2000x128, .bf16⟩
  | .local _ .vmem, ⟨55, _⟩ => ⟨S512x384, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c : Ref sig .tc := ⟨.hbm, 38, rfl⟩
abbrev main_v6 : Ref sig .tc := ⟨.hbm, 39, rfl⟩
abbrev main_v7 : Ref sig .tc := ⟨.hbm, 40, rfl⟩
abbrev main_c_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_1 : Ref sig .tc := ⟨.hbm, 58, rfl⟩
abbrev main_v23 : Ref sig .tc := ⟨.hbm, 59, rfl⟩
abbrev main_v24 : Ref sig .tc := ⟨.hbm, 60, rfl⟩
abbrev main_c_2 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_4 : Ref sig .tc := ⟨.hbm, 78, rfl⟩
abbrev main_v40 : Ref sig .tc := ⟨.hbm, 79, rfl⟩
abbrev main_v41 : Ref sig .tc := ⟨.hbm, 80, rfl⟩
abbrev main_c_5 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_6 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_call0_cst : Ref sig .tc := ⟨.hbm, 107, rfl⟩
abbrev main_call0_v0 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg10_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg10_0 : Ref sig .tc := ⟨.vmem, 45, rfl⟩
abbrev cc3_stg10_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem10_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem10_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem3_1 : DmaSem sig := 54
abbrev cc4_sem4_0 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S512x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x500_d1_w32 : S2000x500.Iotas .tc 32 [1]
  broadcasts_S2000x1_S2000x500 : S2000x1.Broadcasts S2000x500
  natLt_1_32 : 1 < 32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S512x384_S512x384_0_0 : ∀ a, (![0, 0] : Fin 2 → Nat) a + S512x384.size a ≤ S512x384.size a
  h_S512x384 : 0 < S512x384.numel
  iota_S2000x512_d1_w32 : S2000x512.Iotas .tc 32 [1]
  broadcasts_S2000x1_S2000x512 : S2000x1.Broadcasts S2000x512
  inb_S512x384_S512x128_0_0 : ∀ a, (![0, 0] : Fin 2 → Nat) a + S512x128.size a ≤ S512x384.size a
  h_S512x128 : 0 < S512x128.numel
  shapeCasts_S512x128_S512x128 : S512x128.ShapeCasts S512x128
  inb_S512x384_S512x128_0_128 : ∀ a, (![0, 128] : Fin 2 → Nat) a + S512x128.size a ≤ S512x384.size a
  inb_S512x384_S512x128_0_256 : ∀ a, (![0, 256] : Fin 2 → Nat) a + S512x128.size a ≤ S512x384.size a
  bcast_S384_S1x384_1 : S384.BroadcastsInDim S1x384 (![1] : Fin 1 → Fin S1x384.rank)
  bcast_S1x384_S512x384_0_1 : S1x384.BroadcastsInDim S512x384 (![0, 1] : Fin 2 → Fin S512x384.rank)
  bcast_S_S512x384 : S_.BroadcastsInDim S512x384 (![] : Fin 0 → Fin S512x384.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S2000x500_S500x128_S2000x128_1_0_0_1_n_n_wf : DotDims.WF S2000x500 S500x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  dot_S512x384_S384x384_S512x384_1_0_0_1_n_n_wf : DotDims.WF S512x384 S384x384 S512x384 [1] [0] [0] [1] [] []
  dot_S512x384_S384x10_S512x10_1_0_0_1_n_n_wf : DotDims.WF S512x384 S384x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .i32 = 32 ∨ (Rect.block (s := S50000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .f32 = 32 ∨ (Rect.block (s := S50000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S50000x1.size a
  hwx4_0 : ∀ i : grid4.Coords, EltTy.bits .i32 = 32 ∨ (Rect.block (s := S50000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .bf16 = 32 ∨ (Rect.block (s := S50000x128) S2000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x384.size a ≤ S512x384.size a
  hwx4_4 : ∀ i : grid4.Coords, EltTy.bits .f32 = 32 ∨ (Rect.block (s := S512x384) S512x384.size (cc4_transform_4 i) (hinb4_4 i)).WholeWords (EltTy.packing .f32)

variable [Facts₀]

def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x10_S512x10_1_0_0_1_n_n : DotDims S512x384 S384x10 S512x10 where
  lhsContracting := [1]
  rhsContracting := [0]
  lhsNonContracting := [0]
  rhsNonContracting := [1]
  lhsBatch := []
  rhsBatch := []
  wf := dot_S512x384_S384x10_S512x10_1_0_0_1_n_n_wf

abbrev win0_0 : Pipeline.Window sig grid0 :=
  Pipeline.Window.ofSpec (Memref.whole main_v4) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v22) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v38) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v39) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v39) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg20) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v54) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg26) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v55) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v56) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v60) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v59) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v61) S512x384.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000 : Shape := ⟨1, ![50000]⟩
abbrev S2x800000 : Shape := ⟨2, ![2, 800000]⟩
abbrev S500x128 : Shape := ⟨2, ![500, 128]⟩
abbrev S128x128 : Shape := ⟨2, ![128, 128]⟩
abbrev S128 : Shape := ⟨1, ![128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S_ : Shape := ⟨0, ![]⟩
abbrev S50000x1 : Shape := ⟨2, ![50000, 1]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S512x128 : Shape := ⟨2, ![512, 128]⟩
abbrev S512x384 : Shape := ⟨2, ![512, 384]⟩
abbrev S1x384 : Shape := ⟨2, ![1, 384]⟩
abbrev S512x10 : Shape := ⟨2, ![512, 10]⟩
abbrev S1x10 : Shape := ⟨2, ![1, 10]⟩

abbrev nBuf : Space → Nat
  | .hbm => 209
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S500x128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S384x384, .f32⟩
  | 29 => ⟨S384, .f32⟩
  | 30 => ⟨S384x10, .f32⟩
  | 31 => ⟨S10, .f32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x128, .f32⟩
  | 41 => ⟨S1x800000, .i32⟩
  | 42 => ⟨S800000, .i32⟩
  | 43 => ⟨S1x800000, .i32⟩
  | 44 => ⟨S800000, .i32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x800000, .i32⟩
  | 90 => ⟨S800000, .i32⟩
  | 91 => ⟨S1x800000, .i32⟩
  | 92 => ⟨S800000, .i32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000, .i32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S512x128, .f32⟩
  | 59 => ⟨S50000x1, .i32⟩
  | 60 => ⟨S512x128, .f32⟩
  | 61 => ⟨S_, .f32⟩
  | 62 => ⟨S512x128, .f32⟩
  | 63 => ⟨S50000x1, .i32⟩
  | 64 => ⟨S512x128, .f32⟩
  | 65 => ⟨S_, .f32⟩
  | 66 => ⟨S512x128, .f32⟩
  | 67 => ⟨S50000x1, .i32⟩
  | 68 => ⟨S512x128, .f32⟩
  | 69 => ⟨S512x384, .f32⟩
  | 70 => ⟨S512x384, .f32⟩
  | 71 => ⟨S1x384, .f32⟩
  | 72 => ⟨S512x384, .f32⟩
  | 73 => ⟨S512x384, .f32⟩
  | 74 => ⟨S_, .f32⟩
  | 75 => ⟨S512x384, .f32⟩
  | 76 => ⟨S512x384, .f32⟩
  | 77 => ⟨S512x10, .f32⟩
  | 78 => ⟨S1x10, .f32⟩
  | 79 => ⟨S512x10, .f32⟩
  | 80 => ⟨S512x10, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_c_1 : Ref sig .tc := ⟨.hbm, 45, rfl⟩
abbrev main_v11 : Ref sig .tc := ⟨.hbm, 46, rfl⟩
abbrev main_v12 : Ref sig .tc := ⟨.hbm, 47, rfl⟩
abbrev main_c_2 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call0_cst : Ref sig .tc := ⟨.hbm, 79, rfl⟩
abbrev main_call0_v0 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call1_cst : Ref sig .tc := ⟨.hbm, 86, rfl⟩
abbrev main_call1_v0 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_4 : Ref sig .tc := ⟨.hbm, 93, rfl⟩
abbrev main_v51 : Ref sig .tc := ⟨.hbm, 94, rfl⟩
abbrev main_v52 : Ref sig .tc := ⟨.hbm, 95, rfl⟩
abbrev main_c_5 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_6 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_7 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_call2_cst : Ref sig .tc := ⟨.hbm, 127, rfl⟩
abbrev main_call2_v0 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_call3_cst : Ref sig .tc := ⟨.hbm, 134, rfl⟩
abbrev main_call3_v0 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_8 : Ref sig .tc := ⟨.hbm, 141, rfl⟩
abbrev main_v91 : Ref sig .tc := ⟨.hbm, 142, rfl⟩
abbrev main_v92 : Ref sig .tc := ⟨.hbm, 143, rfl⟩
abbrev main_c_9 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_10 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_11 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call4_cst : Ref sig .tc := ⟨.hbm, 175, rfl⟩
abbrev main_call4_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_call5_cst : Ref sig .tc := ⟨.hbm, 182, rfl⟩
abbrev main_call5_v0 : Ref sig .tc := ⟨.hbm, 183, rfl⟩
abbrev main_v126 : Ref sig .tc := ⟨.hbm, 184, rfl⟩
abbrev main_cst_12 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_13 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_14 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_call6_cst : Ref sig .tc := ⟨.hbm, 202, rfl⟩
abbrev main_call6_v0 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S512x128 : S_.BroadcastsInDim S512x128 (![] : Fin 0 → Fin S512x128.rank)
  concatenates_S512x128_S512x128_S512x128_S512x384_d1 : Shape.Concatenates [S512x128, S512x128, S512x128] S512x384 1
  bcast_S384_S1x384_1 : S384.BroadcastsInDim S1x384 (![1] : Fin 1 → Fin S1x384.rank)
  bcast_S1x384_S512x384_0_1 : S1x384.BroadcastsInDim S512x384 (![0, 1] : Fin 2 → Fin S512x384.rank)
  bcast_S_S512x384 : S_.BroadcastsInDim S512x384 (![] : Fin 0 → Fin S512x384.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S500x128_S50000x1_S50000x128_1_0_n_n_0_1_1128_wf : GatherDims.WF S500x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x384_S384x384_S512x384_1_0_0_1_n_n_wf : DotDims.WF S512x384 S384x384 S512x384 [1] [0] [0] [1] [] []
  dot_S512x384_S384x10_S512x10_1_0_0_1_n_n_wf : DotDims.WF S512x384 S384x10 S512x10 [1] [0] [0] [1] [] []

variable [Facts₀]

def gather_S500x128_S50000x1_S50000x128_1_0_n_n_0_1_1128 : GatherDims S500x128 S50000x1 S50000x128 where
  offsetDims := [1]
  collapsedSliceDims := [0]
  operandBatchingDims := []
  startIndicesBatchingDims := []
  startIndexMap := [0]
  indexVectorDim := 1
  sliceSizes := ![1, 128]
  wf := gather_S500x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x10_S512x10_1_0_0_1_n_n : DotDims S512x384 S384x10 S512x10 where
  lhsContracting := [1]
  rhsContracting := [0]
  lhsNonContracting := [0]
  rhsNonContracting := [1]
  lhsBatch := []
  rhsBatch := []
  wf := dot_S512x384_S384x10_S512x10_1_0_0_1_n_n_wf

class Facts : Prop extends Facts₀ where

variable [Facts]
-- ==== Proof.Spec.lean ====
/-
  The shared vocabulary of the bridge between the tiled kernels and the whole-array reference.

  * `hot w v` is the indicator of "the word w is the number v" as an extended real: the entry of a one-hot
    matrix built by comparing an integer column with a column index.
  * `InRange ids` says every entry of an integer vector is the word of some row number below 500: a valid
    row of the embedding table.
  * `poolFn b h1 h2 h3` is the graph pooling: entry (g, e) is the sum, over all nodes n whose graph number
    b n is g, of the n-th row's e-th feature, where the 384 features are the three layers' 128 features side
    by side. Written as a sum over ALL nodes of indicator times feature, it is literally what a one-hot matrix
    product computes, and it is what a scatter-add into zero computes because a node contributes to exactly the
    row its graph number names (and to none when that number is outside 0..511).
-/
import Idealize.ShloMosaic.PureOps.Ideal
import Idealize.ShloMosaic.Lib.ValueIdx

noncomputable section

open scoped BigOperators

namespace Cert.Gin

open Idealize.ShloMosaic Idealize.ShloMosaic.ValueIdx

/-- The indicator, as an extended real, that the 32-bit word `w` is the number `v`. -/
def hot (w : BitVec 32) (v : Nat) : EReal := if w = BitVec.ofNat 32 v then 1 else 0

theorem hot_self (v : Nat) : hot (BitVec.ofNat 32 v) v = 1 := if_pos rfl

theorem hot_of_ne {w : BitVec 32} {v : Nat} (h : w ≠ BitVec.ofNat 32 v) : hot w v = 0 := if_neg h

/-- Every entry of `ids` is the word of a row number below 500. -/
def InRange (ids : IVec ⟨1, ![50000]⟩ 32) : Prop :=
  ∀ n : Fin 50000, ∃ v : Fin 500, ids (ix1 n) = BitVec.ofNat 32 v.val

/-- Feature `e` (below 384) of node `n` in the three layers' features laid side by side. -/
def pick (h1 h2 h3 : (⟨2, ![50000, 128]⟩ : Shape).Idx → EReal) (n : Fin 50000) (e : Nat) : EReal :=
  if h : e < 128 then h1 (ix2 n ⟨e, h⟩)
  else if h' : e < 256 then h2 (ix2 n ⟨e - 128, by omega⟩)
  else if h'' : e < 384 then h3 (ix2 n ⟨e - 256, by omega⟩)
  else 0

/-- Graph pooling: entry (g, e) sums feature e over the nodes whose graph number is g. -/
def poolFn (b : IVec ⟨2, ![50000, 1]⟩ 32) (h1 h2 h3 : (⟨2, ![50000, 128]⟩ : Shape).Idx → EReal) :
    (⟨2, ![512, 384]⟩ : Shape).Idx → EReal :=
  fun i => ∑ n : Fin 50000, hot (b (ix2 n 0)) (i 0).val * pick h1 h2 h3 n (i 1).val

end Cert.Gin

end
-- ==== Proof.MlpSpec.lean ====
/-
  One graph-convolution layer's node-wise network, entry by entry, on the extended reals.

  For node n and hidden unit k:   hidden n k = max( ((Σ_j (x n j + agg n j) · w1 j k + b1 k − mean k) · rsqrt(var k + ε)) · γ k + β k , 0 )
  and for output feature d:       mlpFn n d  = max( Σ_k hidden n k · w2 k d + b2 d , 0 ).
  ε is the single-precision word nearest 1e-5, read as the real number it denotes. The sums are finite sums in a
  commutative monoid, so neither their order nor the tiling of the node axis matters.
-/
import Idealize.ShloMosaic.PureOps.Ideal
import Idealize.ShloMosaic.Lib.ValueIdx

noncomputable section

open scoped BigOperators

namespace Cert.Gin

open Idealize.ShloMosaic Idealize.ShloMosaic.ValueIdx

/-- The batch-norm ε: the word 0x3727C5AC (1e-5 rounded to single precision) as the real it denotes. -/
def bnEps : EReal := Ideal.ofBits .f32 0x3727C5AC#32

/-- The hidden unit k of node n: first linear layer, batch norm in evaluation mode, rectifier. -/
def hidden (x agg : (⟨2, ![50000, 128]⟩ : Shape).Idx → EReal) (w1 : (⟨2, ![128, 128]⟩ : Shape).Idx → EReal)
    (b1 gamma beta mean var : (⟨1, ![128]⟩ : Shape).Idx → EReal) (n : Fin 50000) (k : Fin 128) : EReal :=
  max (((((∑ j : Fin 128, (x (ix2 n j) + agg (ix2 n j)) * w1 (ix2 j k)) + b1 (ix1 k)) - mean (ix1 k))
        * Ideal.rsqrt (var (ix1 k) + bnEps)) * gamma (ix1 k) + beta (ix1 k)) 0

/-- The layer's output at (n, d): second linear layer over the hidden units, rectifier. -/
def mlpAt (x agg : (⟨2, ![50000, 128]⟩ : Shape).Idx → EReal) (w1 : (⟨2, ![128, 128]⟩ : Shape).Idx → EReal)
    (b1 gamma beta mean var : (⟨1, ![128]⟩ : Shape).Idx → EReal) (w2 : (⟨2, ![128, 128]⟩ : Shape).Idx → EReal) (b2 : (⟨1, ![128]⟩ : Shape).Idx → EReal)
    (n : Fin 50000) (d : Fin 128) : EReal :=
  max ((∑ k : Fin 128, hidden x agg w1 b1 gamma beta mean var n k * w2 (ix2 k d)) + b2 (ix1 d)) 0

/-- The layer as a function of whole arrays. -/
def mlpFn (x agg : (⟨2, ![50000, 128]⟩ : Shape).Idx → EReal) (w1 : (⟨2, ![128, 128]⟩ : Shape).Idx → EReal)
    (b1 gamma beta mean var : (⟨1, ![128]⟩ : Shape).Idx → EReal) (w2 : (⟨2, ![128, 128]⟩ : Shape).Idx → EReal) (b2 : (⟨1, ![128]⟩ : Shape).Idx → EReal) :
    (⟨2, ![50000, 128]⟩ : Shape).Idx → EReal :=
  fun i => mlpAt x agg w1 b1 gamma beta mean var w2 b2 (i 0) (i 1)

theorem mlpFn_apply (x agg : (⟨2, ![50000, 128]⟩ : Shape).Idx → EReal) (w1 : (⟨2, ![128, 128]⟩ : Shape).Idx → EReal)
    (b1 gamma beta mean var : (⟨1, ![128]⟩ : Shape).Idx → EReal) (w2 : (⟨2, ![128, 128]⟩ : Shape).Idx → EReal) (b2 : (⟨1, ![128]⟩ : Shape).Idx → EReal)
    (n : Fin 50000) (d : Fin 128) :
    mlpFn x agg w1 b1 gamma beta mean var w2 b2 (ix2 n d) = mlpAt x agg w1 b1 gamma beta mean var w2 b2 n d := rfl

end Cert.Gin

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.EmbValue.lean ====
/-
  Region 0: the embedding lookup computed as a one-hot matrix product, against the reference's row gather.

  The kernel side. The grid has 25 points; point t reads rows 2000·t … 2000·t + 1999 of the id column and the whole
  500 × 128 table, and writes rows 2000·t … 2000·t + 1999 of the output. Its arithmetic at (p, q) is
  0 + Σ_v onehot(p, v) · table(v, q), where onehot(p, v) is the comparison bit "the p-th id's word is the column
  number v", widened and converted to a float: the indicator `hot`. So after all 25 points the output array is, at
  (n, q), Σ_v hot(id n, v) · table(v, q) (`embFn`): every row r is written back by the point r / 2000, and each
  point's block is the restriction of that one whole-array function.

  The reference side. The lookup table[ids] first wraps negative ids (select (ids < 0) (ids + 500) ids), then gathers
  whole rows with the start index read signed and clamped into [0, 499]. For an id that is the word of a row number
  v < 500 the word is not negative, so the wrap leaves it alone, and the clamp leaves v alone: entry (n, q) is
  table(v, q).

  The law joining the two. Σ_u hot(word of v, u) · table(u, q) has exactly one nonzero term, u = v, since distinct
  row numbers below 500 have distinct 32-bit words; in the extended reals 0 · x = 0 and 1 · x = x hold for every x,
  so the sum is table(v, q) with no finiteness needed.
-/
import proofs.«431365_j395136991277_1_alg».proof.Proof.Gen.KernelIdeal.Frame
import proofs.«431365_j395136991277_1_alg».proof.Proof.Spec
import proofs.«431365_j395136991277_1_alg».proof.Proof.LibDot
import proofs.«431365_j395136991277_1_alg».proof.Proof.Gen.ReferenceIdeal.Read
import Idealize.ShloMosaic.Lib.Pipeline.Value
import Idealize.ShloMosaic.Lib.ValueIdx
import Idealize.ShloMosaic.Lib.StableHlo.Predicate
import Idealize.ShloMosaic.PureOps.Ideal.Laws
set_option maxRecDepth 16384

noncomputable section

open scoped BigOperators

namespace Cert.Gin

open Idealize.ShloMosaic Idealize.ShloMosaic.TcCoe Idealize.ShloMosaic.ValueIdx Idealize.SL.Sem
open Cert.KernelIdeal Cert.KernelIdeal.Gen
open Idealize.ShloMosaic.Pipeline (Dat)

namespace Emb

/-! ## A row lookup read at an index -/

section Rows
variable {α : Type}

/-- The dimension numbers of a row lookup table[idx] in a rank-2 table [N, M] at a column [n, 1] of start indices:
    the row axis collapsed and start-indexed, the column axis the result's offset axis, slices of one whole row. -/
abbrev rowDims (N M n : Nat) (wf : GatherDims.WF ⟨2, ![N, M]⟩ ⟨2, ![n, 1]⟩ ⟨2, ![n, M]⟩ [1] [0] [] [0] [] 1 ![1, M]) :
    GatherDims ⟨2, ![N, M]⟩ ⟨2, ![n, 1]⟩ ⟨2, ![n, M]⟩ where
  offsetDims := [1]
  collapsedSliceDims := [0]
  operandBatchingDims := []
  startIndicesBatchingDims := []
  startIndexMap := [0]
  indexVectorDim := 1
  sliceSizes := ![1, M]
  wf := wf

/-- The row lookup read at (p, q): the table's entry q of the row that the p-th start index names, the start index
    read signed and clamped into [0, N − 1]. -/
theorem gather_rows_apply {N M n w : Nat} (hN : 0 < N)
    (wf : GatherDims.WF ⟨2, ![N, M]⟩ ⟨2, ![n, 1]⟩ ⟨2, ![n, M]⟩ [1] [0] [] [0] [] 1 ![1, M])
    (x : (⟨2, ![N, M]⟩ : Shape).Idx → α) (idx : IVec ⟨2, ![n, 1]⟩ w) (p : Fin n) (q : Fin M) :
    Host.gather (rowDims N M n wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowDims N M n wf).start (ix2 p q) idx 0 + (rowDims N M n wf).batchCoord (ix2 p q) 0 + (rowDims N M n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M n wf).startIndexMap from List.mem_singleton.mpr rfl)]
    have hsi : (rowDims N M n wf).siIdx (ix2 p q) ⟨List.idxOf (0 : Fin 2) (rowDims N M n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N M n wf).start (ix2 p q) idx 1 + (rowDims N M n wf).batchCoord (ix2 p q) 1 + (rowDims N M n wf).offCoord (ix2 p q) 1 = q.val
    rw [GatherDims.batchCoord_eq_zero _ _ _ List.not_mem_nil]
    unfold GatherDims.start
    rw [dif_neg (show (1 : Fin 2) ∉ (rowDims N M n wf).startIndexMap from fun h => absurd (congrArg Fin.val (List.mem_singleton.mp h)) Nat.one_ne_zero)]
    simp only [Nat.add_zero, Nat.zero_add]
    rfl

end Rows

/-! ## The sum with one nonzero term -/

/-- A sum over the table's rows of the indicator "the word is row u" times a term keeps the one term u = v when the
    word is that of the row number v: distinct row numbers below 500 have distinct 32-bit words, and in the extended
    reals 0 · x = 0 and 1 · x = x for every x. -/
theorem sum_hot_single (f : Fin 500 → EReal) (v : Fin 500) :
    ∑ u : Fin 500, hot (BitVec.ofNat 32 v.val) u.val * f u = f v := by
  rw [Finset.sum_eq_single v]
  · rw [hot_self, one_mul]
  · intro u _ hu
    rw [hot_of_ne, zero_mul]
    intro e
    apply hu
    apply Fin.ext
    have := congrArg BitVec.toNat e
    simp only [BitVec.toNat_ofNat] at this
    have hv := v.isLt
    have hu' := u.isLt
    rw [Nat.mod_eq_of_lt (by omega), Nat.mod_eq_of_lt (by omega)] at this
    exact this.symm
  · intro h; exact absurd (Finset.mem_univ v) h

/-! ## The reference's gathered rows at an index -/

section Ref
open Cert.ReferenceIdeal Cert.ReferenceIdeal.Gen Cert.ReferenceIdeal.Read

/-- The word of a row number below 500 is not negative as a signed word. -/
theorem not_neg_of_lt (v : Fin 500) : IntOp.cmpi .slt (BitVec.ofNat 32 v.val) 0#32 = 0#1 := by
  refine eq_zero_of_ne_one fun h => ?_
  have hv := v.isLt
  have h1 : (BitVec.ofNat 32 v.val).toNat = v.val := by
    rw [BitVec.toNat_ofNat]; exact Nat.mod_eq_of_lt (by omega)
  have := (Idealize.ShloMosaic.StableHlo.Predicate.slt_iff_toNat (a := BitVec.ofNat 32 v.val) (b := 0#32) (by rw [h1]; omega) (by decide)).mp h
  rw [h1] at this
  exact absurd this (by simp)

/-- Read as a signed integer and clamped to the table's rows, the word of a row number below 500 is that number. -/
theorem clamp_of_lt (v : Fin 500) : min (BitVec.ofNat 32 v.val).toInt.toNat (500 - 1) = v.val := by
  have hv := v.isLt
  have h1 : (BitVec.ofNat 32 v.val).toNat = v.val := by
    rw [BitVec.toNat_ofNat]; exact Nat.mod_eq_of_lt (by omega)
  have h2 : (BitVec.ofNat 32 v.val).toInt = (v.val : Int) := by
    rw [BitVec.toInt_eq_toNat_cond, h1, if_pos (by omega)]
  rw [h2, Int.toNat_natCast]
  omega

/-- The id column the reference gathers at: the wrap of negative indices leaves a row number below 500 alone. -/
theorem wrapped_id (ids : IVec ⟨1, ![50000]⟩ 32) (n : Fin 50000) (v : Fin 500) (hv : ids (ix1 n) = BitVec.ofNat 32 v.val) :
    val_main_v5 (F := Ideal) ids (ix2 n (0 : Fin 1)) = BitVec.ofNat 32 v.val := by
  have hi : idx_main_v5 (ix2 n (0 : Fin 1)) = ix1 n := funext fun a => by match a with | ⟨0, _⟩ => rfl
  rw [val_main_v5_apply, hi, val_main_v4_apply, val_main_v1_apply, val_main_v0_apply, val_main_c_apply, hv, not_neg_of_lt,
    select_zero]

/-- The reference's gathered array at (n, q), for an id that is row number v: the table's entry (v, q). -/
theorem ref_apply (ids : IVec ⟨1, ![50000]⟩ 32) (tbl : (⟨2, ![500, 128]⟩ : Shape).Idx → EReal) (n : Fin 50000) (q : Fin 128)
    (v : Fin 500) (hv : ids (ix1 n) = BitVec.ofNat 32 v.val) :
    val_main_v6 (F := Ideal) ids tbl (ix2 n q) = tbl (ix2 v q) := by
  unfold val_main_v6
  show Host.gather (rowDims 500 128 50000 gather_S500x128_S50000x1_S50000x128_1_0_n_n_0_1_1128_wf) tbl (val_main_v5 (F := Ideal) ids) (ix2 n q) = _
  rw [gather_rows_apply (by decide)]
  refine congrArg tbl ?_
  funext a
  refine Fin.ext ?_
  match a with
  | ⟨0, _⟩ =>
    show min (val_main_v5 (F := Ideal) ids (ix2 n (0 : Fin 1))).toInt.toNat (500 - 1) = v.val
    rw [wrapped_id ids n v hv]
    exact clamp_of_lt v
  | ⟨1, _⟩ => rfl

end Ref

/-! ## The body's arithmetic at an index -/

/-- One entry of the one-hot matrix: the comparison bit of a word with a column number, widened and converted,
    is the indicator that the word is that number. -/
theorem onehot_entry (w : BitVec 32) (v : Nat) :
    (FloatOps.sitofp (F := Ideal) .f32 ((IntOp.cmpi .eq w (BitVec.ofNat 32 v)).setWidth 32) : EReal) = hot w v := by
  unfold hot
  by_cases h : w = BitVec.ofNat 32 v
  · rw [if_pos h, h]
    have e : IntOp.cmpi .eq (BitVec.ofNat 32 v) (BitVec.ofNat 32 v) = 1#1 := by
      simp only [IntOp.cmpi, beq_self_eq_true]; rfl
    rw [e]
    show (((1#1 : BitVec 1).setWidth 32).toInt : ℝ) = (1 : EReal)
    have : ((1#1 : BitVec 1).setWidth 32).toInt = 1 := by decide
    rw [this]; simp
  · rw [if_neg h]
    have e : IntOp.cmpi .eq w (BitVec.ofNat 32 v) = 0#1 := by
      simp only [IntOp.cmpi]
      have : (w == BitVec.ofNat 32 v) = false := by simpa using h
      rw [this]; rfl
    rw [e]
    show (((0#1 : BitVec 1).setWidth 32).toInt : ℝ) = (0 : EReal)
    have : ((0#1 : BitVec 1).setWidth 32).toInt = 0 := by decide
    rw [this]; simp

/-- The body's arithmetic at (p, q): the one-hot row of the p-th id against column q of the table. -/
theorem pay_apply (v0 : Vec Ideal S2000x1 .i32) (v7 : Vec Ideal S500x128 .f32) (p : Fin 2000) (q : Fin 128) :
    (k0_pay1 (F := Ideal) v0 v7 : S2000x128.Idx → EReal) (ix2 p q)
      = ∑ v : Fin 500, hot (v0 (ix2 p (0 : Fin 1))) v.val * v7 (ix2 v q) := by
  unfold k0_pay1
  refine (Cert.LibDot.matmul_rows_apply dot_S2000x500_S500x128_S2000x128_1_0_0_1_n_n rfl rfl rfl rfl rfl rfl (some .fp32) _ v7 _ p q).trans ?_
  rw [constant_apply, Ideal.ofBits_zero_f32, zero_add]
  refine Finset.sum_congr rfl fun v _ => ?_
  congr 1
  have hb : broadcastTo S2000x500 (shapeCast S2000x1 v0 shapeCasts_S2000x1_S2000x1) broadcasts_S2000x1_S2000x500 (ix2 p v)
      = v0 (ix2 p (0 : Fin 1)) := by
    rw [shapeCast_self]
    refine broadcastTo_apply v0 _ (ix2 p v) (ix2 p (0 : Fin 1)) fun ax => ?_
    match ax with
    | ⟨0, _⟩ => rfl
    | ⟨1, _⟩ => rfl
  have hi : iota .tc S2000x500 32 [1] iota_S2000x500_d1_w32 (ix2 p v) = BitVec.ofNat 32 v.val :=
    iota_single_apply .tc S2000x500 32 1 _ (ix2 p v)
  show FloatOps.sitofp (F := Ideal) .f32 ((IntOp.cmpi .eq
      (broadcastTo S2000x500 (shapeCast S2000x1 v0 shapeCasts_S2000x1_S2000x1) broadcasts_S2000x1_S2000x500 (ix2 p v))
      (iota .tc S2000x500 32 [1] iota_S2000x500_d1_w32 (ix2 p v))).setWidth 32) = hot (v0 (ix2 p (0 : Fin 1))) v.val
  rw [hb, hi]
  exact onehot_entry _ _

/-! ## From the points' blocks to the output array -/

variable (V : (c : Dev nD) → (b : Ref sig .tc) → Buf (Elt Ideal) ((c : Thread nD τ).loc b))

theorem zero_offsets : (![0, 0] : Fin 2 → Nat) = fun _ => 0 := funext fun a => by fin_cases a <;> rfl

/-- What region 0 computes, entry by entry, from the id column and the table. -/
def embFn (col : S50000x1.Idx → BitVec 32) (tbl : S500x128.Idx → EReal) : S50000x128.Idx → EReal :=
  fun i => ∑ v : Fin 500, hot (col (ix2 (⟨(i 0).val, idx2_lt0 i⟩ : Fin 50000) (0 : Fin 1))) v.val
    * tbl (ix2 v (⟨(i 1).val, idx2_lt1 i⟩ : Fin 128))

/-- The block index maps over the grid: the id column's and the output's blocks step with the point, the table's is
    always the whole table. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a point's block: when the point's id block is rows 2000·T … of the id column and its table block is the
    table, entry j of the body's result is entry i of the whole-array function, i being j moved down by 2000·T rows. -/
theorem block_entry (col : S50000x1.Idx → BitVec 32) (tbl : S500x128.Idx → EReal)
    (x0 : Vec Ideal S2000x1 .i32) (x1 : Vec Ideal S500x128 .f32) (T : Nat)
    (h0 : ∀ (p : Fin 2000) (n : Fin 50000), n.val = 2000 * T + p.val → x0 (ix2 p (0 : Fin 1)) = col (ix2 n (0 : Fin 1)))
    (h1 : ∀ (v : Fin 500) (q : Fin 128), x1 (ix2 v q) = tbl (ix2 v q))
    (j : S2000x128.Idx) (i : S50000x128.Idx) (hi0 : (i 0).val = 2000 * T + (j 0).val) (hi1 : (i 1).val = (j 1).val) :
    (k0_pay1 (F := Ideal) x0 x1 : S2000x128.Idx → EReal) j = embFn col tbl i := by
  obtain ⟨p, q, rfl⟩ : ∃ (p : Fin 2000) (q : Fin 128), j = ix2 p q := ⟨j 0, j 1, eq_ix2 j⟩
  rw [pay_apply]
  unfold embFn
  refine Finset.sum_congr rfl fun v _ => ?_
  have hq : (⟨(i 1).val, idx2_lt1 i⟩ : Fin 128) = q := Fin.ext hi1
  rw [h0 p ⟨(i 0).val, idx2_lt0 i⟩ hi0, h1 v q, hq]

theorem emb_flushed (c : Dev nD) (t : Fin cfg0.N) :
    (dat0 V c).flushed 2 t = ((cfg0.win 2).blk t).view.read (Elt Ideal) (embFn (V c main_v4) (V c main_arg3)) := by
  show (cfg0.win 2).cut (grid0.coords t) ((dat0 V c).after 2 t) = _
  rw [after0_2]
  unfold out0_2
  rw [View.canon_unit_zero zero_offsets]
  simp only [View.ld_unit_zero (S := S2000x1) zero_offsets, View.ld_unit_zero (S := S500x128) zero_offsets]
  obtain ⟨e0, e1, e2, e3, e4, e5⟩ := block_indices t
  funext j
  show (k0_pay1 (F := Ideal) (iblk0 V c 0 t) (iblk0 V c 1 t) : S2000x128.Idx → EReal) ((win0 2).xinj (grid0.coords t) j)
    = embFn (V c main_v4) (V c main_arg3) (((cfg0.win 2).blk t).view.emb j)
  refine block_entry (V c main_v4) (V c main_arg3) (iblk0 V c 0 t) (iblk0 V c 1 t) t.val ?_ ?_ _ _ ?_ ?_
  · intro p n hn
    show V c main_v4 (((cfg0.win 0).blk t).view.emb (ix2 p (0 : Fin 1))) = V c main_v4 (ix2 n (0 : Fin 1))
    refine congrArg _ (funext fun a => Fin.ext ?_)
    match a with
    | ⟨0, _⟩ => show win0_0.index t (0 : Fin 2) * 2000 + 1 * p.val = n.val; rw [e0, hn]; omega
    | ⟨1, _⟩ => show win0_0.index t (1 : Fin 2) * 1 + 1 * 0 = 0; rw [e1]
  · intro v q
    show V c main_arg3 (((cfg0.win 1).blk t).view.emb (ix2 v q)) = V c main_arg3 (ix2 v q)
    refine congrArg _ (funext fun a => Fin.ext ?_)
    match a with
    | ⟨0, _⟩ => show win0_1.index t (0 : Fin 2) * 500 + 1 * v.val = v.val; rw [e2]; omega
    | ⟨1, _⟩ => show win0_1.index t (1 : Fin 2) * 128 + 1 * q.val = q.val; rw [e3]; omega
  · show win0_2.index t (0 : Fin 2) * 2000 + 1 * (j 0).val = 2000 * t.val + (j 0).val
    rw [e4]; omega
  · show win0_2.index t (1 : Fin 2) * 128 + 1 * (j 1).val = (j 1).val
    rw [e5]; omega

/-- An index of the output array lies in point t's block iff, on each axis, it lies in the block's range. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v5).slice (win0_2.rect t)).set ↔ _
  rw [View.set_slice_whole, Rect.mem_set_unit]
  exact Iff.rfl

/-- Row r of the output array is written back by the point r / 2000. -/
theorem covered (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨e0, e1, e2, e3, e4, e5⟩ := block_indices t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- The output array after all 25 points is the whole-array function of the id column and the table. -/
theorem emb_final (c : Dev nD) : (dat0 V c).arrAt 2 cfg0.N = embFn (V c main_v4) (V c main_arg3) :=
  (dat0 V c).arrAt_eq_of_cover 2 (embFn (V c main_v4) (V c main_arg3)) (fun t _ => emb_flushed V c t) covered

end Emb

-- the TensorCore's buffer contents when a region is entered (any contents)
variable (V : (c : Dev nD) → (b : Ref sig .tc) → Buf (Elt Ideal) ((c : Thread nD τ).loc b))

/-- Region 0 (the embedding lookup as a one-hot product) leaves in its output array the reference's gathered rows,
    when the integer column it reads is the reshaped id vector and every id is a row number of the table. -/
theorem emb_arr (c : Dev nD) (ids : IVec ⟨1, ![50000]⟩ 32)
    (hids : ∀ n : Fin 50000, (V c main_v4 : S50000x1.Idx → BitVec 32) (ix2 n 0) = ids (ix1 n)) (hr : InRange ids) :
    ((dat0 V c).arrAt 2 cfg0.N : S50000x128.Idx → EReal)
      = Cert.ReferenceIdeal.Read.val_main_v6 (F := Ideal) ids (V c main_arg3) := by
  refine (Emb.emb_final V c).trans ?_
  funext i
  obtain ⟨n, q, rfl⟩ : ∃ (n : Fin 50000) (q : Fin 128), i = ix2 n q := ⟨i 0, i 1, eq_ix2 i⟩
  obtain ⟨v, hv⟩ := hr n
  rw [Emb.ref_apply ids (V c main_arg3) n q v hv]
  show ∑ u : Fin 500, hot ((V c main_v4 : S50000x1.Idx → BitVec 32) (ix2 n (0 : Fin 1))) u.val
    * (V c main_arg3 : S500x128.Idx → EReal) (ix2 u q) = _
  rw [hids n, hv]
  exact Emb.sum_hot_single _ v

end Cert.Gin

end
-- ==== Proof.MlpKernel1.lean ====
/-
  Region 1 of the idealized kernel program: one graph-convolution layer's node-wise network, tile by tile.

  The region runs 25 grid points. Point t stages rows 2000·t … 2000·t + 1999 of x and of agg, the two 128 × 128 weight
  matrices whole, and six 1 × 128 rows whole (first bias, scale, shift, mean, variance, second bias), computes on the tile
      s = x + agg,   h = max( ((s·w1 + b1 − mean) · rsqrt(var + ε)) · γ + β , 0 ),   out = max( h·w2 + b2 , 0 ),
  both products accumulating into zero and the narrowings to the 16-bit format being the identity on extended reals,
  and writes the 2000 × 128 result back to the same rows of the output array.

  Proved here: after the 25 points the output array is the layer's function `mlpFn` of the arrays the region found,
  entry by entry. The steps: the tile's arithmetic at an index (`hidden_tile`, `out_tile`, `tile_spec`); each window's
  block as rows of its array (`x_block` … `b2_block`, `out_block`); what a point writes back is block t of the layer
  (`flushed_eq`); row r lies in the block of point r / 2000 (`covered`); so the array is the layer (`mlp1_arr`).
-/
import proofs.«431365_j395136991277_1_alg».proof.Proof.Gen.KernelIdeal.Frame
import proofs.«431365_j395136991277_1_alg».proof.Proof.Spec
import proofs.«431365_j395136991277_1_alg».proof.Proof.MlpSpec
import proofs.«431365_j395136991277_1_alg».proof.Proof.LibDot
set_option maxRecDepth 16384

noncomputable section

open scoped BigOperators

namespace Cert.Gin

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when a region is entered (any contents)
variable (V : (c : Dev nD) → (b : Ref sig .tc) → Buf (Elt Ideal) ((c : Thread nD τ).loc b))

/-! ## One tile's arithmetic, entry by entry -/

/-- The offsets (0, 0) are the zero offsets. -/
private theorem zero_offsets : (![0, 0] : Fin 2 → Nat) = fun _ => 0 := funext fun a => by fin_cases a <;> rfl

/-- A 1 × 128 row repeated down 2000 rows reads, at (p, q), the row's entry q. -/
private theorem row_down (v : S1x128.Idx → EReal) (h : S1x128.Broadcasts S2000x128) (p : Fin 2000) (q : Fin 128) :
    broadcastTo S2000x128 v h (ix2 p q) = v (ix2 0 q) :=
  broadcastTo_apply v h (ix2 p q) (ix2 0 q) fun a => match a with | ⟨0, _⟩ => rfl | ⟨1, _⟩ => rfl

/-- The reciprocal square root of a vector, at an index, is that of the entry. -/
private theorem rsqrt_at {s : Shape} (a : s.Idx → EReal) (i : s.Idx) :
    rsqrt (F := Ideal) (φ := .f32) a i = Ideal.rsqrt (a i) := rfl

/-- THE FIRST LAYER OF A TILE AT (p, k): row p of the tile's sum x + agg against column k of w1, plus the bias, minus the
    mean, times the reciprocal square root of variance plus ε, times the scale, plus the shift, cut at zero. The narrowing
    to the 16-bit format is the identity on extended reals; the product accumulates into the zero word, which is 0. -/
private theorem hidden_tile (x0 x1 : S2000x128.Idx → EReal) (x2 : S128x128.Idx → EReal)
    (x3 x6 x7 x4 x5 : S1x128.Idx → EReal) (p : Fin 2000) (k : Fin 128) :
    k1_pay2 (F := Ideal) x0 x1 x2 x3 x6 x7 x4 x5 (ix2 p k)
      = max (((((∑ j : Fin 128, (x0 (ix2 p j) + x1 (ix2 p j)) * x2 (ix2 j k)) + x3 (ix2 0 k)) - x6 (ix2 0 k))
          * Ideal.rsqrt (x7 (ix2 0 k) + bnEps)) * x4 (ix2 0 k) + x5 (ix2 0 k)) 0 := by
  unfold k1_pay2
  simp only [shapeCast_self]
  simp only [matmul, truncf_apply, maximumf_apply, addf_apply, mulf_apply, subf_apply, broadcast_apply, row_down, rsqrt_at]
  rw [Cert.LibDot.matmul_rows_apply _ rfl rfl rfl rfl rfl rfl]
  simp only [constant_apply, truncf_apply, addf_apply, Ideal.ofBits_def, Ideal.ofBits_zero_f32, zero_add]
  rfl

/-- THE SECOND LAYER OF A TILE AT (p, q): row p of the first layer's result against column q of w2, plus the bias, cut at
    zero. -/
private theorem out_tile (x0 x1 : S2000x128.Idx → EReal) (x2 : S128x128.Idx → EReal)
    (x3 x4 x5 x6 x7 : S1x128.Idx → EReal) (x8 : S128x128.Idx → EReal) (x9 : S1x128.Idx → EReal) (p : Fin 2000) (q : Fin 128) :
    k1_pay1 (F := Ideal) (k1_pay2 x0 x1 x2 x3 x6 x7 x4 x5) (k1_pay3 x8) (constant S2000x128 .f32 0x00000000#32) x9 (ix2 p q)
      = max ((∑ k : Fin 128, k1_pay2 (F := Ideal) x0 x1 x2 x3 x6 x7 x4 x5 (ix2 p k) * x8 (ix2 k q)) + x9 (ix2 0 q)) 0 := by
  unfold k1_pay1 k1_pay3
  simp only [shapeCast_self]
  simp only [matmul, truncf_apply, maximumf_apply, addf_apply, broadcast_apply, row_down]
  rw [Cert.LibDot.matmul_rows_apply _ rfl rfl rfl rfl rfl rfl]
  simp only [constant_apply, truncf_apply, Ideal.ofBits_def, Ideal.ofBits_zero_f32, zero_add]

/-- A TILE AGAINST THE LAYER: when the tile's two row blocks are rows n of x and agg, its two weight blocks are the weight
    matrices, and its six rows are the six vectors, the tile's result at (p, q) is the layer at (n, q). -/
private theorem tile_spec (x0 x1 : S2000x128.Idx → EReal) (x2 : S128x128.Idx → EReal)
    (x3 x4 x5 x6 x7 : S1x128.Idx → EReal) (x8 : S128x128.Idx → EReal) (x9 : S1x128.Idx → EReal)
    (X AGG : S50000x128.Idx → EReal) (W1 W2 : S128x128.Idx → EReal)
    (b1 gamma beta mean var b2 : (⟨1, ![128]⟩ : Shape).Idx → EReal)
    (p : Fin 2000) (q : Fin 128) (n : Fin 50000)
    (h0 : ∀ j : Fin 128, x0 (ix2 p j) = X (ix2 n j)) (h1 : ∀ j : Fin 128, x1 (ix2 p j) = AGG (ix2 n j))
    (h2 : x2 = W1)
    (h3 : ∀ k : Fin 128, x3 (ix2 0 k) = b1 (ix1 k)) (h4 : ∀ k : Fin 128, x4 (ix2 0 k) = gamma (ix1 k))
    (h5 : ∀ k : Fin 128, x5 (ix2 0 k) = beta (ix1 k)) (h6 : ∀ k : Fin 128, x6 (ix2 0 k) = mean (ix1 k))
    (h7 : ∀ k : Fin 128, x7 (ix2 0 k) = var (ix1 k)) (h8 : x8 = W2)
    (h9 : ∀ k : Fin 128, x9 (ix2 0 k) = b2 (ix1 k)) :
    k1_pay1 (F := Ideal) (k1_pay2 x0 x1 x2 x3 x6 x7 x4 x5) (k1_pay3 x8) (constant S2000x128 .f32 0x00000000#32) x9 (ix2 p q)
      = mlpFn X AGG W1 b1 gamma beta mean var W2 b2 (ix2 n q) := by
  subst h2 h8
  rw [out_tile, mlpFn_apply]
  unfold mlpAt hidden
  simp only [hidden_tile, h0, h1, h3, h4, h5, h6, h7, h9]

/-! ## The windows' blocks, read off the arrays

The region's grid is the 25 row tiles. Windows 0, 1 and 10 move with the tile: at point t their block is rows
2000·t … 2000·t + 1999 of the array. Windows 2 to 9 stay: at every point their block is the whole array. -/

/-- The printed index maps, decided over the 25 points: the row windows' block index is (t, 0), the others' (0, 0). -/
private theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row p of x's block at point t is row 2000·t + p of x. -/
private theorem x_block (c : Dev nD) (t : Fin cfg1.N) (p : Fin 2000) (q : Fin 128) (n : Fin 50000)
    (hn : n.val = 2000 * t.val + p.val) :
    (iblk1 V c 0 t : S2000x128.Idx → EReal) (ix2 p q) = (V c main_v5 : S50000x128.Idx → EReal) (ix2 n q) := by
  obtain ⟨e0, e1, -⟩ := index_facts t
  unfold iblk1
  rw [View.read_apply]
  show V c main_v5 _ = V c main_v5 _
  congr 1
  funext a
  apply Fin.ext
  match a with
  | ⟨0, _⟩ => show win1_0.index t (0 : Fin 2) * 2000 + 1 * p.val = n.val; rw [e0, hn]; omega
  | ⟨1, _⟩ => show win1_0.index t (1 : Fin 2) * 128 + 1 * q.val = q.val; rw [e1]; omega

/-- Row p of agg's block at point t is row 2000·t + p of agg. -/
private theorem agg_block (c : Dev nD) (t : Fin cfg1.N) (p : Fin 2000) (q : Fin 128) (n : Fin 50000)
    (hn : n.val = 2000 * t.val + p.val) :
    (iblk1 V c 1 t : S2000x128.Idx → EReal) (ix2 p q) = (V c main_v15 : S50000x128.Idx → EReal) (ix2 n q) := by
  obtain ⟨-, -, e0, e1, -⟩ := index_facts t
  unfold iblk1
  rw [View.read_apply]
  show V c main_v15 _ = V c main_v15 _
  congr 1
  funext a
  apply Fin.ext
  match a with
  | ⟨0, _⟩ => show win1_1.index t (0 : Fin 2) * 2000 + 1 * p.val = n.val; rw [e0, hn]; omega
  | ⟨1, _⟩ => show win1_1.index t (1 : Fin 2) * 128 + 1 * q.val = q.val; rw [e1]; omega

/-- The first weight matrix's block is the whole matrix at every point. -/
private theorem w1_block (c : Dev nD) (t : Fin cfg1.N) :
    (iblk1 V c 2 t : S128x128.Idx → EReal) = (V c main_arg4 : S128x128.Idx → EReal) := by
  obtain ⟨-, -, -, -, e0, e1, -⟩ := index_facts t
  funext x
  unfold iblk1
  rw [View.read_apply]
  show V c main_arg4 _ = V c main_arg4 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The first bias row's block is the whole row at every point. -/
private theorem b1_block (c : Dev nD) (t : Fin cfg1.N) :
    (iblk1 V c 3 t : S1x128.Idx → EReal) = (V c main_v16 : S1x128.Idx → EReal) := by
  obtain ⟨-, -, -, -, -, -, e0, e1, -⟩ := index_facts t
  funext x
  unfold iblk1
  rw [View.read_apply]
  show V c main_v16 _ = V c main_v16 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The scale row's block is the whole row at every point. -/
private theorem gamma_block (c : Dev nD) (t : Fin cfg1.N) :
    (iblk1 V c 4 t : S1x128.Idx → EReal) = (V c main_v17 : S1x128.Idx → EReal) := by
  obtain ⟨-, -, -, -, -, -, -, -, e0, e1, -⟩ := index_facts t
  funext x
  unfold iblk1
  rw [View.read_apply]
  show V c main_v17 _ = V c main_v17 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The shift row's block is the whole row at every point. -/
private theorem beta_block (c : Dev nD) (t : Fin cfg1.N) :
    (iblk1 V c 5 t : S1x128.Idx → EReal) = (V c main_v18 : S1x128.Idx → EReal) := by
  obtain ⟨-, -, -, -, -, -, -, -, -, -, e0, e1, -⟩ := index_facts t
  funext x
  unfold iblk1
  rw [View.read_apply]
  show V c main_v18 _ = V c main_v18 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- The mean row's block is the whole row at every point. -/
private theorem mean_block (c : Dev nD) (t : Fin cfg1.N) :
    (iblk1 V c 6 t : S1x128.Idx → EReal) = (V c main_v19 : S1x128.Idx → EReal) := by
  obtain ⟨-, -, -, -, -, -, -, -, -, -, -, -, e0, e1, -⟩ := index_facts t
  funext x
  unfold iblk1
  rw [View.read_apply]
  show V c main_v19 _ = V c main_v19 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- The variance row's block is the whole row at every point. -/
private theorem var_block (c : Dev nD) (t : Fin cfg1.N) :
    (iblk1 V c 7 t : S1x128.Idx → EReal) = (V c main_v20 : S1x128.Idx → EReal) := by
  obtain ⟨-, -, -, -, -, -, -, -, -, -, -, -, -, -, e0, e1, -⟩ := index_facts t
  funext x
  unfold iblk1
  rw [View.read_apply]
  show V c main_v20 _ = V c main_v20 _
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 128 + 1 * (x 1).val = (x 1).val; rw [e1]; omega

/-- The second weight matrix's block is the whole matrix at every point. -/
private theorem w2_block (c : Dev nD) (t : Fin cfg1.N) :
    (iblk1 V c 8 t : S128x128.Idx → EReal) = (V c main_arg10 : S128x128.Idx → EReal) := by
  obtain ⟨-, -, -, -, -, -, -, -, -, -, -, -, -, -, -, -, e0, e1, -⟩ := index_facts t
  funext x
  unfold iblk1
  rw [View.read_apply]
  show V c main_arg10 _ = V c main_arg10 _
  congr 1
  funext a
  apply Fin.ext
  match a with
  | ⟨0, _⟩ => show win1_8.index t (0 : Fin 2) * 128 + 1 * (x 0).val = (x 0).val; rw [e0]; omega
  | ⟨1, _⟩ => show win1_8.index t (1 : Fin 2) * 128 + 1 * (x 1).val = (x 1).val; rw [e1]; omega

/-- The second bias row's block is the whole row at every point. -/
private theorem b2_block (c : Dev nD) (t : Fin cfg1.N) :
    (iblk1 V c 9 t : S1x128.Idx → EReal) = (V c main_v21 : S1x128.Idx → EReal) := by
  obtain ⟨-, -, -, -, -, -, -, -, -, -, -, -, -, -, -, -, -, -, e0, e1, -⟩ := index_facts t
  funext x
  unfold iblk1
  rw [View.read_apply]
  show V c main_v21 _ = V c main_v21 _
  congr 1
  funext a
  apply Fin.ext
  match a with
  | ⟨0, _⟩ => show win1_9.index t (0 : Fin 2) * 1 + 1 * (x 0).val = (x 0).val; rw [e0]; omega
  | ⟨1, _⟩ => show win1_9.index t (1 : Fin 2) * 128 + 1 * (x 1).val = (x 1).val; rw [e1]; omega

/-- A whole-array function read through the output window's block at point t: entry (p, q) of the block is entry
    (2000·t + p, q) of the array. -/
private theorem out_block (G : S50000x128.Idx → EReal) (t : Fin cfg1.N) (p : Fin 2000) (q : Fin 128) (n : Fin 50000)
    (hn : n.val = 2000 * t.val + p.val) :
    (((cfg1.win 10).blk t).view.read (Elt Ideal) G : S2000x128.Idx → EReal) (ix2 p q) = G (ix2 n q) := by
  obtain ⟨-, -, -, -, -, -, -, -, -, -, -, -, -, -, -, -, -, -, -, -, e0, e1⟩ := index_facts t
  rw [View.read_apply]
  show G _ = G _
  congr 1
  funext a
  apply Fin.ext
  match a with
  | ⟨0, _⟩ => show win1_10.index t (0 : Fin 2) * 2000 + 1 * p.val = n.val; rw [e0, hn]; omega
  | ⟨1, _⟩ => show win1_10.index t (1 : Fin 2) * 128 + 1 * q.val = q.val; rw [e1]; omega

/-! ## From the tiles to the array -/

/-- WHAT POINT t WRITES BACK is block t of the layer's array: the body's one whole-block store leaves its payload, the
    payload at (p, q) is the layer at row 2000·t + p, and that row is what the output window's block reads there. -/
private theorem flushed_eq (c : Dev nD) (b1 gamma beta mean var b2 : (⟨1, ![128]⟩ : Shape).Idx → EReal)
    (hb1 : ∀ k : Fin 128, (V c main_v16 : S1x128.Idx → EReal) (ix2 0 k) = b1 (ix1 k))
    (hgamma : ∀ k : Fin 128, (V c main_v17 : S1x128.Idx → EReal) (ix2 0 k) = gamma (ix1 k))
    (hbeta : ∀ k : Fin 128, (V c main_v18 : S1x128.Idx → EReal) (ix2 0 k) = beta (ix1 k))
    (hmean : ∀ k : Fin 128, (V c main_v19 : S1x128.Idx → EReal) (ix2 0 k) = mean (ix1 k))
    (hvar : ∀ k : Fin 128, (V c main_v20 : S1x128.Idx → EReal) (ix2 0 k) = var (ix1 k))
    (hb2 : ∀ k : Fin 128, (V c main_v21 : S1x128.Idx → EReal) (ix2 0 k) = b2 (ix1 k))
    (t : Fin cfg1.N) :
    (dat1 V c).flushed 10 t = ((cfg1.win 10).blk t).view.read (Elt Ideal)
      (mlpFn (V c main_v5) (V c main_v15) (V c main_arg4) b1 gamma beta mean var (V c main_arg10) b2) := by
  show (cfg1.win 10).cut (grid1.coords t) ((dat1 V c).after 10 t) = _
  rw [after1_10]
  unfold out1_10
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hp : p.val < 2000 := p.isLt
  have hn : 2000 * t.val + p.val < 50000 := by omega
  exact (tile_spec (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t)
      (V c main_v5) (V c main_v15) (V c main_arg4) (V c main_arg10) b1 gamma beta mean var b2 p q ⟨2000 * t.val + p.val, hn⟩
      (fun j => x_block V c t p j _ rfl) (fun j => agg_block V c t p j _ rfl) (w1_block V c t)
      (fun k => (congrFun (b1_block V c t) (ix2 0 k)).trans (hb1 k))
      (fun k => (congrFun (gamma_block V c t) (ix2 0 k)).trans (hgamma k))
      (fun k => (congrFun (beta_block V c t) (ix2 0 k)).trans (hbeta k))
      (fun k => (congrFun (mean_block V c t) (ix2 0 k)).trans (hmean k))
      (fun k => (congrFun (var_block V c t) (ix2 0 k)).trans (hvar k))
      (w2_block V c t)
      (fun k => (congrFun (b2_block V c t) (ix2 0 k)).trans (hb2 k))).trans
    (out_block _ t p q ⟨2000 * t.val + p.val, hn⟩ rfl).symm

/-- An index of the array is in point t's block iff each coordinate is in the block's range on its axis. -/
private theorem mem_block (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v22).slice (win1_10.rect t)).set ↔ _
  rw [View.set_slice_whole, Rect.mem_set_unit]
  exact Iff.rfl

/-- THE COVER: row r of the array is in the block of point r / 2000, and every point writes its block back. -/
private theorem covered (i : S50000x128.Idx) :
    ∃ t : Fin cfg1.N, (cfg1.win 10).flush t = true ∧ i ∈ ((cfg1.win 10).blk t).view.set := by
  have hN : cfg1.N = 25 := N_1
  have hi0 : (i 0).val < 50000 := (i 0).isLt
  have hi1 : (i 1).val < 128 := (i 1).isLt
  have ht : (i 0).val / 2000 < cfg1.N := by rw [hN]; omega
  obtain ⟨-, -, -, -, -, -, -, -, -, -, -, -, -, -, -, -, -, -, -, -, e0, e1⟩ := index_facts ⟨(i 0).val / 2000, ht⟩
  refine ⟨⟨(i 0).val / 2000, ht⟩, flush1_10 _, ?_⟩
  rw [mem_block]
  intro a
  match a with
  | ⟨0, _⟩ =>
    show win1_10.index ⟨(i 0).val / 2000, ht⟩ (0 : Fin 2) * 2000 ≤ (i 0).val
      ∧ (i 0).val < win1_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, ht⟩ (1 : Fin 2) * 128 ≤ (i 1).val
      ∧ (i 1).val < win1_10.index ⟨(i 0).val / 2000, ht⟩ (1 : Fin 2) * 128 + 128
    rw [e1]; omega

/-- THE REGION'S OUTPUT ARRAY after its 25 points is the layer of the arrays the region found: every point writes back
    block t of the layer, and the 25 blocks cover the array. -/
theorem mlp1_arr (c : Dev nD) (b1 gamma beta mean var b2 : (⟨1, ![128]⟩ : Shape).Idx → EReal)
    (hb1 : ∀ k : Fin 128, (V c main_v16 : S1x128.Idx → EReal) (ix2 0 k) = b1 (ix1 k))
    (hgamma : ∀ k : Fin 128, (V c main_v17 : S1x128.Idx → EReal) (ix2 0 k) = gamma (ix1 k))
    (hbeta : ∀ k : Fin 128, (V c main_v18 : S1x128.Idx → EReal) (ix2 0 k) = beta (ix1 k))
    (hmean : ∀ k : Fin 128, (V c main_v19 : S1x128.Idx → EReal) (ix2 0 k) = mean (ix1 k))
    (hvar : ∀ k : Fin 128, (V c main_v20 : S1x128.Idx → EReal) (ix2 0 k) = var (ix1 k))
    (hb2 : ∀ k : Fin 128, (V c main_v21 : S1x128.Idx → EReal) (ix2 0 k) = b2 (ix1 k)) :
    ((dat1 V c).arrAt 10 cfg1.N : S50000x128.Idx → EReal)
      = mlpFn (V c main_v5) (V c main_v15) (V c main_arg4) b1 gamma beta mean var (V c main_arg10) b2 :=
  (dat1 V c).arrAt_eq_of_cover 10
    (mlpFn (V c main_v5) (V c main_v15) (V c main_arg4) b1 gamma beta mean var (V c main_arg10) b2)
    (fun t _ => flushed_eq V c b1 gamma beta mean var b2 hb1 hgamma hbeta hmean hvar hb2 t) covered

end Cert.Gin

end
-- ==== Proof.MlpKernel2.lean ====
/-
  Region 2 of the idealized kernel program: one graph-convolution layer's node-wise network, tile by tile.

  The region runs 25 grid points. Point t stages rows 2000·t … 2000·t + 1999 of x and of agg, the two 128 × 128 weight
  matrices whole, and six 1 × 128 rows whole (first bias, scale, shift, mean, variance, second bias), computes on the tile
      s = x + agg,   h = max( ((s·w1 + b1 − mean) · rsqrt(var + ε)) · γ + β , 0 ),   out = max( h·w2 + b2 , 0 ),
  both products accumulating into zero and the narrowings to the 16-bit format being the identity on extended reals,
  and writes the 2000 × 128 result back to the same rows of the output array.

  Proved here: after the 25 points the output array is the layer's function `mlpFn` of the arrays the region found,
  entry by entry. The steps: the tile's arithmetic at an index (`hidden_tile`, `out_tile`, `tile_spec`); each window's
  block as rows of its array (`x_block` … `b2_block`, `out_block`); what a point writes back is block t of the layer
  (`flushed_eq`); row r lies in the block of point r / 2000 (`covered`); so the array is the layer (`mlp2_arr`).
-/
import proofs.«431365_j395136991277_1_alg».proof.Proof.Gen.KernelIdeal.Frame
import proofs.«431365_j395136991277_1_alg».proof.Proof.Spec
import proofs.«431365_j395136991277_1_alg».proof.Proof.MlpSpec
import proofs.«431365_j395136991277_1_alg».proof.Proof.LibDot
set_option maxRecDepth 16384

noncomputable section

open scoped BigOperators

namespace Cert.Gin

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when a region is entered (any contents)
variable (V : (c : Dev nD) → (b : Ref sig .tc) → Buf (Elt Ideal) ((c : Thread nD τ).loc b))

/-! ## One tile's arithmetic, entry by entry -/

/-- The offsets (0, 0) are the zero offsets. -/
private theorem zero_offsets : (![0, 0] : Fin 2 → Nat) = fun _ => 0 := funext fun a => by fin_cases a <;> rfl

/-- A 1 × 128 row repeated down 2000 rows reads, at (p, q), the row's entry q. -/
private theorem row_down (v : S1x128.Idx → EReal) (h : S1x128.Broadcasts S2000x128) (p : Fin 2000) (q : Fin 128) :
    broadcastTo S2000x128 v h (ix2 p q) = v (ix2 0 q) :=
  broadcastTo_apply v h (ix2 p q) (ix2 0 q) fun a => match a with | ⟨0, _⟩ => rfl | ⟨1, _⟩ => rfl

/-- The reciprocal square root of a vector, at an index, is that of the entry. -/
private theorem rsqrt_at {s : Shape} (a : s.Idx → EReal) (i : s.Idx) :
    rsqrt (F := Ideal) (φ := .f32) a i = Ideal.rsqrt (a i) := rfl

/-- THE FIRST LAYER OF A TILE AT (p, k): row p of the tile's sum x + agg against column k of w1, plus the bias, minus the
    mean, times the reciprocal square root of variance plus ε, times the scale, plus the shift, cut at zero. The narrowing
    to the 16-bit format is the identity on extended reals; the product accumulates into the zero word, which is 0. -/
private theorem hidden_tile (x0 x1 : S2000x128.Idx → EReal) (x2 : S128x128.Idx → EReal)
    (x3 x6 x7 x4 x5 : S1x128.Idx → EReal) (p : Fin 2000) (k : Fin 128) :
    k2_pay2 (F := Ideal) x0 x1 x2 x3 x6 x7 x4 x5 (ix2 p k)
      = max (((((∑ j : Fin 128, (x0 (ix2 p j) + x1 (ix2 p j)) * x2 (ix2 j k)) + x3 (ix2 0 k)) - x6 (ix2 0 k))
          * Ideal.rsqrt (x7 (ix2 0 k) + bnEps)) * x4 (ix2 0 k) + x5 (ix2 0 k)) 0 := by
  unfold k2_pay2
  simp only [shapeCast_self]
  simp only [matmul, truncf_apply, maximumf_apply, addf_apply, mulf_apply, subf_apply, broadcast_apply, row_down, rsqrt_at]
  rw [Cert.LibDot.matmul_rows_apply _ rfl rfl rfl rfl rfl rfl]
  simp only [constant_apply, truncf_apply, addf_apply, Ideal.ofBits_def, Ideal.ofBits_zero_f32, zero_add]
  rfl

/-- THE SECOND LAYER OF A TILE AT (p, q): row p of the first layer's result against column q of w2, plus the bias, cut at
    zero. -/
private theorem out_tile (x0 x1 : S2000x128.Idx → EReal) (x2 : S128x128.Idx → EReal)
    (x3 x4 x5 x6 x7 : S1x128.Idx → EReal) (x8 : S128x128.Idx → EReal) (x9 : S1x128.Idx → EReal) (p : Fin 2000) (q : Fin 128) :
    k2_pay1 (F := Ideal) (k2_pay2 x0 x1 x2 x3 x6 x7 x4 x5) (k2_pay3 x8) (constant S2000x128 .f32 0x00000000#32) x9 (ix2 p q)
      = max ((∑ k : Fin 128, k2_pay2 (F := Ideal) x0 x1 x2 x3 x6 x7 x4 x5 (ix2 p k) * x8 (ix2 k q)) + x9 (ix2 0 q)) 0 := by
  unfold k2_pay1 k2_pay3
  simp only [shapeCast_self]
  simp only [matmul, truncf_apply, maximumf_apply, addf_apply, broadcast_apply, row_down]
  rw [Cert.LibDot.matmul_rows_apply _ rfl rfl rfl rfl rfl rfl]
  simp only [constant_apply, truncf_apply, Ideal.ofBits_def, Ideal.ofBits_zero_f32, zero_add]

/-- A TILE AGAINST THE LAYER: when the tile's two row blocks are rows n of x and agg, its two weight blocks are the weight
    matrices, and its six rows are the six vectors, the tile's result at (p, q) is the layer at (n, q). -/
private theorem tile_spec (x0 x1 : S2000x128.Idx → EReal) (x2 : S128x128.Idx → EReal)
    (x3 x4 x5 x6 x7 : S1x128.Idx → EReal) (x8 : S128x128.Idx → EReal) (x9 : S1x128.Idx → EReal)
    (X AGG : S50000x128.Idx → EReal) (W1 W2 : S128x128.Idx → EReal)
    (b1 gamma beta mean var b2 : (⟨1, ![128]⟩ : Shape).Idx → EReal)
    (p : Fin 2000) (q : Fin 128) (n : Fin 50000)
    (h0 : ∀ j : Fin 128, x0 (ix2 p j) = X (ix2 n j)) (h1 : ∀ j : Fin 128, x1 (ix2 p j) = AGG (ix2 n j))
    (h2 : x2 = W1)
    (h3 : ∀ k : Fin 128, x3 (ix2 0 k) = b1 (ix1 k)) (h4 : ∀ k : Fin 128, x4 (ix2 0 k) = gamma (ix1 k))
    (h5 : ∀ k : Fin 128, x5 (ix2 0 k) = beta (ix1 k)) (h6 : ∀ k : Fin 128, x6 (ix2 0 k) = mean (ix1 k))
    (h7 : ∀ k : Fin 128, x7 (ix2 0 k) = var (ix1 k)) (h8 : x8 = W2)
    (h9 : ∀ k : Fin 128, x9 (ix2 0 k) = b2 (ix1 k)) :
    k2_pay1 (F := Ideal) (k2_pay2 x0 x1 x2 x3 x6 x7 x4 x5) (k2_pay3 x8) (constant S2000x128 .f32 0x00000000#32) x9 (ix2 p q)
      = mlpFn X AGG W1 b1 gamma beta mean var W2 b2 (ix2 n q) := by
  subst h2 h8
  rw [out_tile, mlpFn_apply]
  unfold mlpAt hidden
  simp only [hidden_tile, h0, h1, h3, h4, h5, h6, h7, h9]

/-! ## The windows' blocks, read off the arrays

The region's grid is the 25 row tiles. Windows 0, 1 and 10 move with the tile: at point t their block is rows
2000·t … 2000·t + 1999 of the array. Windows 2 to 9 stay: at every point their block is the whole array. -/

/-- The printed index maps, decided over the 25 points: the row windows' block index is (t, 0), the others' (0, 0). -/
private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Row p of x's block at point t is row 2000·t + p of x. -/
private theorem x_block (c : Dev nD) (t : Fin cfg2.N) (p : Fin 2000) (q : Fin 128) (n : Fin 50000)
    (hn : n.val = 2000 * t.val + p.val) :
    (iblk2 V c 0 t : S2000x128.Idx → EReal) (ix2 p q) = (V c main_v22 : S50000x128.Idx → EReal) (ix2 n q) := by
  obtain ⟨e0, e1, -⟩ := index_facts t
  unfold iblk2
  rw [View.read_apply]
  show V c main_v22 _ = V c main_v22 _
  congr 1
  funext a
  apply Fin.ext
  match a with
  | ⟨0, _⟩ => show win2_0.index t (0 : Fin 2) * 2000 + 1 * p.val = n.val; rw [e0, hn]; omega
  | ⟨1, _⟩ => show win2_0.index t (1 : Fin 2) * 128 + 1 * q.val = q.val; rw [e1]; omega

/-- Row p of agg's block at point t is row 2000·t + p of agg. -/
private theorem agg_block (c : Dev nD) (t : Fin cfg2.N) (p : Fin 2000) (q : Fin 128) (n : Fin 50000)
    (hn : n.val = 2000 * t.val + p.val) :
    (iblk2 V c 1 t : S2000x128.Idx → EReal) (ix2 p q) = (V c main_v32 : S50000x128.Idx → EReal) (ix2 n q) := by
  obtain ⟨-, -, e0, e1, -⟩ := index_facts t
  unfold iblk2
  rw [View.read_apply]
  show V c main_v32 _ = V c main_v32 _
  congr 1
  funext a
  apply Fin.ext
  match a with
  | ⟨0, _⟩ => show win2_1.index t (0 : Fin 2) * 2000 + 1 * p.val = n.val; rw [e0, hn]; omega
  | ⟨1, _⟩ => show win2_1.index t (1 : Fin 2) * 128 + 1 * q.val = q.val; rw [e1]; omega

/-- The first weight matrix's block is the whole matrix at every point. -/
private theorem w1_block (c : Dev nD) (t : Fin cfg2.N) :
    (iblk2 V c 2 t : S128x128.Idx → EReal) = (V c main_arg12 : S128x128.Idx → EReal) := by
  obtain ⟨-, -, -, -, e0, e1, -⟩ := index_facts t
  funext x
  unfold iblk2
  rw [View.read_apply]
  show V c main_arg12 _ = V c main_arg12 _
  congr 1
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The first bias row's block is the whole row at every point. -/
private theorem b1_block (c : Dev nD) (t : Fin cfg2.N) :
    (iblk2 V c 3 t : S1x128.Idx → EReal) = (V c main_v33 : S1x128.Idx → EReal) := by
  obtain ⟨-, -, -, -, -, -, e0, e1, -⟩ := index_facts t
  funext x
  unfold iblk2
  rw [View.read_apply]
  show V c main_v33 _ = V c main_v33 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The scale row's block is the whole row at every point. -/
private theorem gamma_block (c : Dev nD) (t : Fin cfg2.N) :
    (iblk2 V c 4 t : S1x128.Idx → EReal) = (V c main_v34 : S1x128.Idx → EReal) := by
  obtain ⟨-, -, -, -, -, -, -, -, e0, e1, -⟩ := index_facts t
  funext x
  unfold iblk2
  rw [View.read_apply]
  show V c main_v34 _ = V c main_v34 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The shift row's block is the whole row at every point. -/
private theorem beta_block (c : Dev nD) (t : Fin cfg2.N) :
    (iblk2 V c 5 t : S1x128.Idx → EReal) = (V c main_v35 : S1x128.Idx → EReal) := by
  obtain ⟨-, -, -, -, -, -, -, -, -, -, e0, e1, -⟩ := index_facts t
  funext x
  unfold iblk2
  rw [View.read_apply]
  show V c main_v35 _ = V c main_v35 _
  congr 1
  funext a
  apply Fin.ext
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- The mean row's block is the whole row at every point. -/
private theorem mean_block (c : Dev nD) (t : Fin cfg2.N) :
    (iblk2 V c 6 t : S1x128.Idx → EReal) = (V c main_v36 : S1x128.Idx → EReal) := by
  obtain ⟨-, -, -, -, -, -, -, -, -, -, -, -, e0, e1, -⟩ := index_facts t
  funext x
  unfold iblk2
  rw [View.read_apply]
  show V c main_v36 _ = V c main_v36 _
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- The variance row's block is the whole row at every point. -/
private theorem var_block (c : Dev nD) (t : Fin cfg2.N) :
    (iblk2 V c 7 t : S1x128.Idx → EReal) = (V c main_v37 : S1x128.Idx → EReal) := by
  obtain ⟨-, -, -, -, -, -, -, -, -, -, -, -, -, -, e0, e1, -⟩ := index_facts t
  funext x
  unfold iblk2
  rw [View.read_apply]
  show V c main_v37 _ = V c main_v37 _
  congr 1
  funext a
  apply Fin.ext
  match a with
  | ⟨0, _⟩ => show win2_7.index t (0 : Fin 2) * 1 + 1 * (x 0).val = (x 0).val; rw [e0]; omega
  | ⟨1, _⟩ => show win2_7.index t (1 : Fin 2) * 128 + 1 * (x 1).val = (x 1).val; rw [e1]; omega

/-- The second weight matrix's block is the whole matrix at every point. -/
private theorem w2_block (c : Dev nD) (t : Fin cfg2.N) :
    (iblk2 V c 8 t : S128x128.Idx → EReal) = (V c main_arg18 : S128x128.Idx → EReal) := by
  obtain ⟨-, -, -, -, -, -, -, -, -, -, -, -, -, -, -, -, e0, e1, -⟩ := index_facts t
  funext x
  unfold iblk2
  rw [View.read_apply]
  show V c main_arg18 _ = V c main_arg18 _
  congr 1
  funext a
  apply Fin.ext
  match a with
  | ⟨0, _⟩ => show win2_8.index t (0 : Fin 2) * 128 + 1 * (x 0).val = (x 0).val; rw [e0]; omega
  | ⟨1, _⟩ => show win2_8.index t (1 : Fin 2) * 128 + 1 * (x 1).val = (x 1).val; rw [e1]; omega

/-- The second bias row's block is the whole row at every point. -/
private theorem b2_block (c : Dev nD) (t : Fin cfg2.N) :
    (iblk2 V c 9 t : S1x128.Idx → EReal) = (V c main_v38 : S1x128.Idx → EReal) := by
  obtain ⟨-, -, -, -, -, -, -, -, -, -, -, -, -, -, -, -, -, -, e0, e1, -⟩ := index_facts t
  funext x
  unfold iblk2
  rw [View.read_apply]
  show V c main_v38 _ = V c main_v38 _
  congr 1
  funext a
  apply Fin.ext
  match a with
  | ⟨0, _⟩ => show win2_9.index t (0 : Fin 2) * 1 + 1 * (x 0).val = (x 0).val; rw [e0]; omega
  | ⟨1, _⟩ => show win2_9.index t (1 : Fin 2) * 128 + 1 * (x 1).val = (x 1).val; rw [e1]; omega

/-- A whole-array function read through the output window's block at point t: entry (p, q) of the block is entry
    (2000·t + p, q) of the array. -/
private theorem out_block (G : S50000x128.Idx → EReal) (t : Fin cfg2.N) (p : Fin 2000) (q : Fin 128) (n : Fin 50000)
    (hn : n.val = 2000 * t.val + p.val) :
    (((cfg2.win 10).blk t).view.read (Elt Ideal) G : S2000x128.Idx → EReal) (ix2 p q) = G (ix2 n q) := by
  obtain ⟨-, -, -, -, -, -, -, -, -, -, -, -, -, -, -, -, -, -, -, -, e0, e1⟩ := index_facts t
  rw [View.read_apply]
  show G _ = G _
  congr 1
  funext a
  apply Fin.ext
  match a with
  | ⟨0, _⟩ => show win2_10.index t (0 : Fin 2) * 2000 + 1 * p.val = n.val; rw [e0, hn]; omega
  | ⟨1, _⟩ => show win2_10.index t (1 : Fin 2) * 128 + 1 * q.val = q.val; rw [e1]; omega

/-! ## From the tiles to the array -/

/-- WHAT POINT t WRITES BACK is block t of the layer's array: the body's one whole-block store leaves its payload, the
    payload at (p, q) is the layer at row 2000·t + p, and that row is what the output window's block reads there. -/
private theorem flushed_eq (c : Dev nD) (b1 gamma beta mean var b2 : (⟨1, ![128]⟩ : Shape).Idx → EReal)
    (hb1 : ∀ k : Fin 128, (V c main_v33 : S1x128.Idx → EReal) (ix2 0 k) = b1 (ix1 k))
    (hgamma : ∀ k : Fin 128, (V c main_v34 : S1x128.Idx → EReal) (ix2 0 k) = gamma (ix1 k))
    (hbeta : ∀ k : Fin 128, (V c main_v35 : S1x128.Idx → EReal) (ix2 0 k) = beta (ix1 k))
    (hmean : ∀ k : Fin 128, (V c main_v36 : S1x128.Idx → EReal) (ix2 0 k) = mean (ix1 k))
    (hvar : ∀ k : Fin 128, (V c main_v37 : S1x128.Idx → EReal) (ix2 0 k) = var (ix1 k))
    (hb2 : ∀ k : Fin 128, (V c main_v38 : S1x128.Idx → EReal) (ix2 0 k) = b2 (ix1 k))
    (t : Fin cfg2.N) :
    (dat2 V c).flushed 10 t = ((cfg2.win 10).blk t).view.read (Elt Ideal)
      (mlpFn (V c main_v22) (V c main_v32) (V c main_arg12) b1 gamma beta mean var (V c main_arg18) b2) := by
  show (cfg2.win 10).cut (grid2.coords t) ((dat2 V c).after 10 t) = _
  rw [after2_10]
  unfold out2_10
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hp : p.val < 2000 := p.isLt
  have hn : 2000 * t.val + p.val < 50000 := by omega
  exact (tile_spec (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t)
      (V c main_v22) (V c main_v32) (V c main_arg12) (V c main_arg18) b1 gamma beta mean var b2 p q ⟨2000 * t.val + p.val, hn⟩
      (fun j => x_block V c t p j _ rfl) (fun j => agg_block V c t p j _ rfl) (w1_block V c t)
      (fun k => (congrFun (b1_block V c t) (ix2 0 k)).trans (hb1 k))
      (fun k => (congrFun (gamma_block V c t) (ix2 0 k)).trans (hgamma k))
      (fun k => (congrFun (beta_block V c t) (ix2 0 k)).trans (hbeta k))
      (fun k => (congrFun (mean_block V c t) (ix2 0 k)).trans (hmean k))
      (fun k => (congrFun (var_block V c t) (ix2 0 k)).trans (hvar k))
      (w2_block V c t)
      (fun k => (congrFun (b2_block V c t) (ix2 0 k)).trans (hb2 k))).trans
    (out_block _ t p q ⟨2000 * t.val + p.val, hn⟩ rfl).symm

/-- An index of the array is in point t's block iff each coordinate is in the block's range on its axis. -/
private theorem mem_block (t : Fin cfg2.N) (i : S50000x128.Idx) :
    i ∈ ((cfg2.win 10).blk t).view.set ↔ ∀ a : Fin 2, win2_10.index t a * S2000x128.size a ≤ (i a).val
      ∧ (i a).val < win2_10.index t a * S2000x128.size a + S2000x128.size a := by
  show i ∈ ((View.whole main_v39).slice (win2_10.rect t)).set ↔ _
  rw [View.set_slice_whole, Rect.mem_set_unit]
  exact Iff.rfl

/-- THE COVER: row r of the array is in the block of point r / 2000, and every point writes its block back. -/
private theorem covered (i : S50000x128.Idx) :
    ∃ t : Fin cfg2.N, (cfg2.win 10).flush t = true ∧ i ∈ ((cfg2.win 10).blk t).view.set := by
  have hN : cfg2.N = 25 := N_2
  have hi0 : (i 0).val < 50000 := (i 0).isLt
  have hi1 : (i 1).val < 128 := (i 1).isLt
  have ht : (i 0).val / 2000 < cfg2.N := by rw [hN]; omega
  obtain ⟨-, -, -, -, -, -, -, -, -, -, -, -, -, -, -, -, -, -, -, -, e0, e1⟩ := index_facts ⟨(i 0).val / 2000, ht⟩
  refine ⟨⟨(i 0).val / 2000, ht⟩, flush2_10 _, ?_⟩
  rw [mem_block]
  intro a
  match a with
  | ⟨0, _⟩ =>
    show win2_10.index ⟨(i 0).val / 2000, ht⟩ (0 : Fin 2) * 2000 ≤ (i 0).val
      ∧ (i 0).val < win2_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_10.index ⟨(i 0).val / 2000, ht⟩ (1 : Fin 2) * 128 ≤ (i 1).val
      ∧ (i 1).val < win2_10.index ⟨(i 0).val / 2000, ht⟩ (1 : Fin 2) * 128 + 128
    rw [e1]; omega

/-- THE REGION'S OUTPUT ARRAY after its 25 points is the layer of the arrays the region found: every point writes back
    block t of the layer, and the 25 blocks cover the array. -/
theorem mlp2_arr (c : Dev nD) (b1 gamma beta mean var b2 : (⟨1, ![128]⟩ : Shape).Idx → EReal)
    (hb1 : ∀ k : Fin 128, (V c main_v33 : S1x128.Idx → EReal) (ix2 0 k) = b1 (ix1 k))
    (hgamma : ∀ k : Fin 128, (V c main_v34 : S1x128.Idx → EReal) (ix2 0 k) = gamma (ix1 k))
    (hbeta : ∀ k : Fin 128, (V c main_v35 : S1x128.Idx → EReal) (ix2 0 k) = beta (ix1 k))
    (hmean : ∀ k : Fin 128, (V c main_v36 : S1x128.Idx → EReal) (ix2 0 k) = mean (ix1 k))
    (hvar : ∀ k : Fin 128, (V c main_v37 : S1x128.Idx → EReal) (ix2 0 k) = var (ix1 k))
    (hb2 : ∀ k : Fin 128, (V c main_v38 : S1x128.Idx → EReal) (ix2 0 k) = b2 (ix1 k)) :
    ((dat2 V c).arrAt 10 cfg2.N : S50000x128.Idx → EReal)
      = mlpFn (V c main_v22) (V c main_v32) (V c main_arg12) b1 gamma beta mean var (V c main_arg18) b2 :=
  (dat2 V c).arrAt_eq_of_cover 10
    (mlpFn (V c main_v22) (V c main_v32) (V c main_arg12) b1 gamma beta mean var (V c main_arg18) b2)
    (fun t _ => flushed_eq V c b1 gamma beta mean var b2 hb1 hgamma hbeta hmean hvar hb2 t) covered

end Cert.Gin

end
-- ==== Proof.MlpKernel3.lean ====
/-
  Region 3 of the idealized kernel program: one graph-convolution layer's node-wise network, tile by tile.

  The region runs 25 grid points. Point t stages rows 2000·t … 2000·t + 1999 of x and of agg, the two 128 × 128 weight
  matrices whole, and six 1 × 128 rows whole (first bias, scale, shift, mean, variance, second bias), computes on the tile
      s = x + agg,   h = max( ((s·w1 + b1 − mean) · rsqrt(var + ε)) · γ + β , 0 ),   out = max( h·w2 + b2 , 0 ),
  both products accumulating into zero and the narrowings to the 16-bit format being the identity on extended reals,
  and writes the 2000 × 128 result back to the same rows of the output array.

  Proved here: after the 25 points the output array is the layer's function `mlpFn` of the arrays the region found,
  entry by entry. The steps: the tile's arithmetic at an index (`hidden_tile`, `out_tile`, `tile_spec`); each window's
  block as rows of its array (`x_block` … `b2_block`, `out_block`); what a point writes back is block t of the layer
  (`flushed_eq`); row r lies in the block of point r / 2000 (`covered`); so the array is the layer (`mlp3_arr`).
-/
import proofs.«431365_j395136991277_1_alg».proof.Proof.Gen.KernelIdeal.Frame
import proofs.«431365_j395136991277_1_alg».proof.Proof.Spec
import proofs.«431365_j395136991277_1_alg».proof.Proof.MlpSpec
import proofs.«431365_j395136991277_1_alg».proof.Proof.LibDot
set_option maxRecDepth 16384

noncomputable section

open scoped BigOperators

namespace Cert.Gin

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when a region is entered (any contents)
variable (V : (c : Dev nD) → (b : Ref sig .tc) → Buf (Elt Ideal) ((c : Thread nD τ).loc b))

/-! ## One tile's arithmetic, entry by entry -/

/-- The offsets (0, 0) are the zero offsets. -/
private theorem zero_offsets : (![0, 0] : Fin 2 → Nat) = fun _ => 0 := funext fun a => by fin_cases a <;> rfl

/-- A 1 × 128 row repeated down 2000 rows reads, at (p, q), the row's entry q. -/
private theorem row_down (v : S1x128.Idx → EReal) (h : S1x128.Broadcasts S2000x128) (p : Fin 2000) (q : Fin 128) :
    broadcastTo S2000x128 v h (ix2 p q) = v (ix2 0 q) :=
  broadcastTo_apply v h (ix2 p q) (ix2 0 q) fun a => match a with | ⟨0, _⟩ => rfl | ⟨1, _⟩ => rfl

/-- The reciprocal square root of a vector, at an index, is that of the entry. -/
private theorem rsqrt_at {s : Shape} (a : s.Idx → EReal) (i : s.Idx) :
    rsqrt (F := Ideal) (φ := .f32) a i = Ideal.rsqrt (a i) := rfl

/-- THE FIRST LAYER OF A TILE AT (p, k): row p of the tile's sum x + agg against column k of w1, plus the bias, minus the
    mean, times the reciprocal square root of variance plus ε, times the scale, plus the shift, cut at zero. The narrowing
    to the 16-bit format is the identity on extended reals; the product accumulates into the zero word, which is 0. -/
private theorem hidden_tile (x0 x1 : S2000x128.Idx → EReal) (x2 : S128x128.Idx → EReal)
    (x3 x6 x7 x4 x5 : S1x128.Idx → EReal) (p : Fin 2000) (k : Fin 128) :
    k3_pay2 (F := Ideal) x0 x1 x2 x3 x6 x7 x4 x5 (ix2 p k)
      = max (((((∑ j : Fin 128, (x0 (ix2 p j) + x1 (ix2 p j)) * x2 (ix2 j k)) + x3 (ix2 0 k)) - x6 (ix2 0 k))
          * Ideal.rsqrt (x7 (ix2 0 k) + bnEps)) * x4 (ix2 0 k) + x5 (ix2 0 k)) 0 := by
  unfold k3_pay2
  simp only [shapeCast_self]
  simp only [matmul, truncf_apply, maximumf_apply, addf_apply, mulf_apply, subf_apply, broadcast_apply, row_down, rsqrt_at]
  rw [Cert.LibDot.matmul_rows_apply _ rfl rfl rfl rfl rfl rfl]
  simp only [constant_apply, truncf_apply, addf_apply, Ideal.ofBits_def, Ideal.ofBits_zero_f32, zero_add]
  rfl

/-- THE SECOND LAYER OF A TILE AT (p, q): row p of the first layer's result against column q of w2, plus the bias, cut at
    zero. -/
private theorem out_tile (x0 x1 : S2000x128.Idx → EReal) (x2 : S128x128.Idx → EReal)
    (x3 x4 x5 x6 x7 : S1x128.Idx → EReal) (x8 : S128x128.Idx → EReal) (x9 : S1x128.Idx → EReal) (p : Fin 2000) (q : Fin 128) :
    k3_pay1 (F := Ideal) (k3_pay2 x0 x1 x2 x3 x6 x7 x4 x5) (k3_pay3 x8) (constant S2000x128 .f32 0x00000000#32) x9 (ix2 p q)
      = max ((∑ k : Fin 128, k3_pay2 (F := Ideal) x0 x1 x2 x3 x6 x7 x4 x5 (ix2 p k) * x8 (ix2 k q)) + x9 (ix2 0 q)) 0 := by
  unfold k3_pay1 k3_pay3
  simp only [shapeCast_self]
  simp only [matmul, truncf_apply, maximumf_apply, addf_apply, broadcast_apply, row_down]
  rw [Cert.LibDot.matmul_rows_apply _ rfl rfl rfl rfl rfl rfl]
  simp only [constant_apply, truncf_apply, Ideal.ofBits_def, Ideal.ofBits_zero_f32, zero_add]

/-- A TILE AGAINST THE LAYER: when the tile's two row blocks are rows n of x and agg, its two weight blocks are the weight
    matrices, and its six rows are the six vectors, the tile's result at (p, q) is the layer at (n, q). -/
private theorem tile_spec (x0 x1 : S2000x128.Idx → EReal) (x2 : S128x128.Idx → EReal)
    (x3 x4 x5 x6 x7 : S1x128.Idx → EReal) (x8 : S128x128.Idx → EReal) (x9 : S1x128.Idx → EReal)
    (X AGG : S50000x128.Idx → EReal) (W1 W2 : S128x128.Idx → EReal)
    (b1 gamma beta mean var b2 : (⟨1, ![128]⟩ : Shape).Idx → EReal)
    (p : Fin 2000) (q : Fin 128) (n : Fin 50000)
    (h0 : ∀ j : Fin 128, x0 (ix2 p j) = X (ix2 n j)) (h1 : ∀ j : Fin 128, x1 (ix2 p j) = AGG (ix2 n j))
    (h2 : x2 = W1)
    (h3 : ∀ k : Fin 128, x3 (ix2 0 k) = b1 (ix1 k)) (h4 : ∀ k : Fin 128, x4 (ix2 0 k) = gamma (ix1 k))
    (h5 : ∀ k : Fin 128, x5 (ix2 0 k) = beta (ix1 k)) (h6 : ∀ k : Fin 128, x6 (ix2 0 k) = mean (ix1 k))
    (h7 : ∀ k : Fin 128, x7 (ix2 0 k) = var (ix1 k)) (h8 : x8 = W2)
    (h9 : ∀ k : Fin 128, x9 (ix2 0 k) = b2 (ix1 k)) :
    k3_pay1 (F := Ideal) (k3_pay2 x0 x1 x2 x3 x6 x7 x4 x5) (k3_pay3 x8) (constant S2000x128 .f32 0x00000000#32) x9 (ix2 p q)
      = mlpFn X AGG W1 b1 gamma beta mean var W2 b2 (ix2 n q) := by
  subst h2 h8
  rw [out_tile, mlpFn_apply]
  unfold mlpAt hidden
  simp only [hidden_tile, h0, h1, h3, h4, h5, h6, h7, h9]

/-! ## The windows' blocks, read off the arrays

The region's grid is the 25 row tiles. Windows 0, 1 and 10 move with the tile: at point t their block is rows
2000·t … 2000·t + 1999 of the array. Windows 2 to 9 stay: at every point their block is the whole array. -/

/-- The printed index maps, decided over the 25 points: the row windows' block index is (t, 0), the others' (0, 0). -/
private theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0 :=
  (by decide +kernel : ∀ t : Fin grid3.N, _)

/-- Row p of x's block at point t is row 2000·t + p of x. -/
private theorem x_block (c : Dev nD) (t : Fin cfg3.N) (p : Fin 2000) (q : Fin 128) (n : Fin 50000)
    (hn : n.val = 2000 * t.val + p.val) :
    (iblk3 V c 0 t : S2000x128.Idx → EReal) (ix2 p q) = (V c main_v39 : S50000x128.Idx → EReal) (ix2 n q) := by
  obtain ⟨e0, e1, -⟩ := index_facts t
  unfold iblk3
  rw [View.read_apply]
  show V c main_v39 _ = V c main_v39 _
  congr 1
  funext a
  apply Fin.ext
  match a with
  | ⟨0, _⟩ => show win3_0.index t (0 : Fin 2) * 2000 + 1 * p.val = n.val; rw [e0, hn]; omega
  | ⟨1, _⟩ => show win3_0.index t (1 : Fin 2) * 128 + 1 * q.val = q.val; rw [e1]; omega

/-- Row p of agg's block at point t is row 2000·t + p of agg. -/
private theorem agg_block (c : Dev nD) (t : Fin cfg3.N) (p : Fin 2000) (q : Fin 128) (n : Fin 50000)
    (hn : n.val = 2000 * t.val + p.val) :
    (iblk3 V c 1 t : S2000x128.Idx → EReal) (ix2 p q) = (V c main_v49 : S50000x128.Idx → EReal) (ix2 n q) := by
  obtain ⟨-, -, e0, e1, -⟩ := index_facts t
  unfold iblk3
  rw [View.read_apply]
  show V c main_v49 _ = V c main_v49 _
  congr 1
  funext a
  apply Fin.ext
  match a with
  | ⟨0, _⟩ => show win3_1.index t (0 : Fin 2) * 2000 + 1 * p.val = n.val; rw [e0, hn]; omega
  | ⟨1, _⟩ => show win3_1.index t (1 : Fin 2) * 128 + 1 * q.val = q.val; rw [e1]; omega

/-- The first weight matrix's block is the whole matrix at every point. -/
private theorem w1_block (c : Dev nD) (t : Fin cfg3.N) :
    (iblk3 V c 2 t : S128x128.Idx → EReal) = (V c main_arg20 : S128x128.Idx → EReal) := by
  obtain ⟨-, -, -, -, e0, e1, -⟩ := index_facts t
  funext x
  unfold iblk3
  rw [View.read_apply]
  show V c main_arg20 _ = V c main_arg20 _
  congr 1
  funext a
  apply Fin.ext
  match a with
  | ⟨0, _⟩ => show win3_2.index t (0 : Fin 2) * 128 + 1 * (x 0).val = (x 0).val; rw [e0]; omega
  | ⟨1, _⟩ => show win3_2.index t (1 : Fin 2) * 128 + 1 * (x 1).val = (x 1).val; rw [e1]; omega

/-- The first bias row's block is the whole row at every point. -/
private theorem b1_block (c : Dev nD) (t : Fin cfg3.N) :
    (iblk3 V c 3 t : S1x128.Idx → EReal) = (V c main_v50 : S1x128.Idx → EReal) := by
  obtain ⟨-, -, -, -, -, -, e0, e1, -⟩ := index_facts t
  funext x
  unfold iblk3
  rw [View.read_apply]
  show V c main_v50 _ = V c main_v50 _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 128 + 1 * (x 1).val = (x 1).val; rw [e1]; omega

/-- The scale row's block is the whole row at every point. -/
private theorem gamma_block (c : Dev nD) (t : Fin cfg3.N) :
    (iblk3 V c 4 t : S1x128.Idx → EReal) = (V c main_v51 : S1x128.Idx → EReal) := by
  obtain ⟨-, -, -, -, -, -, -, -, e0, e1, -⟩ := index_facts t
  funext x
  unfold iblk3
  rw [View.read_apply]
  show V c main_v51 _ = V c main_v51 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-- The shift row's block is the whole row at every point. -/
private theorem beta_block (c : Dev nD) (t : Fin cfg3.N) :
    (iblk3 V c 5 t : S1x128.Idx → EReal) = (V c main_v52 : S1x128.Idx → EReal) := by
  obtain ⟨-, -, -, -, -, -, -, -, -, -, e0, e1, -⟩ := index_facts t
  funext x
  unfold iblk3
  rw [View.read_apply]
  show V c main_v52 _ = V c main_v52 _
  congr 1
  funext a
  apply Fin.ext
  match a with
  | ⟨0, _⟩ => show win3_5.index t (0 : Fin 2) * 1 + 1 * (x 0).val = (x 0).val; rw [e0]; omega
  | ⟨1, _⟩ => show win3_5.index t (1 : Fin 2) * 128 + 1 * (x 1).val = (x 1).val; rw [e1]; omega

/-- The mean row's block is the whole row at every point. -/
private theorem mean_block (c : Dev nD) (t : Fin cfg3.N) :
    (iblk3 V c 6 t : S1x128.Idx → EReal) = (V c main_v53 : S1x128.Idx → EReal) := by
  obtain ⟨-, -, -, -, -, -, -, -, -, -, -, -, e0, e1, -⟩ := index_facts t
  funext x
  unfold iblk3
  rw [View.read_apply]
  show V c main_v53 _ = V c main_v53 _
  congr 1
  funext a
  apply Fin.ext
  match a with
  | ⟨0, _⟩ => show win3_6.index t (0 : Fin 2) * 1 + 1 * (x 0).val = (x 0).val; rw [e0]; omega
  | ⟨1, _⟩ => show win3_6.index t (1 : Fin 2) * 128 + 1 * (x 1).val = (x 1).val; rw [e1]; omega

/-- The variance row's block is the whole row at every point. -/
private theorem var_block (c : Dev nD) (t : Fin cfg3.N) :
    (iblk3 V c 7 t : S1x128.Idx → EReal) = (V c main_v54 : S1x128.Idx → EReal) := by
  obtain ⟨-, -, -, -, -, -, -, -, -, -, -, -, -, -, e0, e1, -⟩ := index_facts t
  funext x
  unfold iblk3
  rw [View.read_apply]
  show V c main_v54 _ = V c main_v54 _
  congr 1
  funext a
  apply Fin.ext
  match a with
  | ⟨0, _⟩ => show win3_7.index t (0 : Fin 2) * 1 + 1 * (x 0).val = (x 0).val; rw [e0]; omega
  | ⟨1, _⟩ => show win3_7.index t (1 : Fin 2) * 128 + 1 * (x 1).val = (x 1).val; rw [e1]; omega

/-- The second weight matrix's block is the whole matrix at every point. -/
private theorem w2_block (c : Dev nD) (t : Fin cfg3.N) :
    (iblk3 V c 8 t : S128x128.Idx → EReal) = (V c main_arg26 : S128x128.Idx → EReal) := by
  obtain ⟨-, -, -, -, -, -, -, -, -, -, -, -, -, -, -, -, e0, e1, -⟩ := index_facts t
  funext x
  unfold iblk3
  rw [View.read_apply]
  show V c main_arg26 _ = V c main_arg26 _
  congr 1
  funext a
  apply Fin.ext
  match a with
  | ⟨0, _⟩ => show win3_8.index t (0 : Fin 2) * 128 + 1 * (x 0).val = (x 0).val; rw [e0]; omega
  | ⟨1, _⟩ => show win3_8.index t (1 : Fin 2) * 128 + 1 * (x 1).val = (x 1).val; rw [e1]; omega

/-- The second bias row's block is the whole row at every point. -/
private theorem b2_block (c : Dev nD) (t : Fin cfg3.N) :
    (iblk3 V c 9 t : S1x128.Idx → EReal) = (V c main_v55 : S1x128.Idx → EReal) := by
  obtain ⟨-, -, -, -, -, -, -, -, -, -, -, -, -, -, -, -, -, -, e0, e1, -⟩ := index_facts t
  funext x
  unfold iblk3
  rw [View.read_apply]
  show V c main_v55 _ = V c main_v55 _
  congr 1
  funext a
  apply Fin.ext
  match a with
  | ⟨0, _⟩ => show win3_9.index t (0 : Fin 2) * 1 + 1 * (x 0).val = (x 0).val; rw [e0]; omega
  | ⟨1, _⟩ => show win3_9.index t (1 : Fin 2) * 128 + 1 * (x 1).val = (x 1).val; rw [e1]; omega

/-- A whole-array function read through the output window's block at point t: entry (p, q) of the block is entry
    (2000·t + p, q) of the array. -/
private theorem out_block (G : S50000x128.Idx → EReal) (t : Fin cfg3.N) (p : Fin 2000) (q : Fin 128) (n : Fin 50000)
    (hn : n.val = 2000 * t.val + p.val) :
    (((cfg3.win 10).blk t).view.read (Elt Ideal) G : S2000x128.Idx → EReal) (ix2 p q) = G (ix2 n q) := by
  obtain ⟨-, -, -, -, -, -, -, -, -, -, -, -, -, -, -, -, -, -, -, -, e0, e1⟩ := index_facts t
  rw [View.read_apply]
  show G _ = G _
  congr 1
  funext a
  apply Fin.ext
  match a with
  | ⟨0, _⟩ => show win3_10.index t (0 : Fin 2) * 2000 + 1 * p.val = n.val; rw [e0, hn]; omega
  | ⟨1, _⟩ => show win3_10.index t (1 : Fin 2) * 128 + 1 * q.val = q.val; rw [e1]; omega

/-! ## From the tiles to the array -/

/-- WHAT POINT t WRITES BACK is block t of the layer's array: the body's one whole-block store leaves its payload, the
    payload at (p, q) is the layer at row 2000·t + p, and that row is what the output window's block reads there. -/
private theorem flushed_eq (c : Dev nD) (b1 gamma beta mean var b2 : (⟨1, ![128]⟩ : Shape).Idx → EReal)
    (hb1 : ∀ k : Fin 128, (V c main_v50 : S1x128.Idx → EReal) (ix2 0 k) = b1 (ix1 k))
    (hgamma : ∀ k : Fin 128, (V c main_v51 : S1x128.Idx → EReal) (ix2 0 k) = gamma (ix1 k))
    (hbeta : ∀ k : Fin 128, (V c main_v52 : S1x128.Idx → EReal) (ix2 0 k) = beta (ix1 k))
    (hmean : ∀ k : Fin 128, (V c main_v53 : S1x128.Idx → EReal) (ix2 0 k) = mean (ix1 k))
    (hvar : ∀ k : Fin 128, (V c main_v54 : S1x128.Idx → EReal) (ix2 0 k) = var (ix1 k))
    (hb2 : ∀ k : Fin 128, (V c main_v55 : S1x128.Idx → EReal) (ix2 0 k) = b2 (ix1 k))
    (t : Fin cfg3.N) :
    (dat3 V c).flushed 10 t = ((cfg3.win 10).blk t).view.read (Elt Ideal)
      (mlpFn (V c main_v39) (V c main_v49) (V c main_arg20) b1 gamma beta mean var (V c main_arg26) b2) := by
  show (cfg3.win 10).cut (grid3.coords t) ((dat3 V c).after 10 t) = _
  rw [after3_10]
  unfold out3_10
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hp : p.val < 2000 := p.isLt
  have hn : 2000 * t.val + p.val < 50000 := by omega
  exact (tile_spec (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t)
      (V c main_v39) (V c main_v49) (V c main_arg20) (V c main_arg26) b1 gamma beta mean var b2 p q ⟨2000 * t.val + p.val, hn⟩
      (fun j => x_block V c t p j _ rfl) (fun j => agg_block V c t p j _ rfl) (w1_block V c t)
      (fun k => (congrFun (b1_block V c t) (ix2 0 k)).trans (hb1 k))
      (fun k => (congrFun (gamma_block V c t) (ix2 0 k)).trans (hgamma k))
      (fun k => (congrFun (beta_block V c t) (ix2 0 k)).trans (hbeta k))
      (fun k => (congrFun (mean_block V c t) (ix2 0 k)).trans (hmean k))
      (fun k => (congrFun (var_block V c t) (ix2 0 k)).trans (hvar k))
      (w2_block V c t)
      (fun k => (congrFun (b2_block V c t) (ix2 0 k)).trans (hb2 k))).trans
    (out_block _ t p q ⟨2000 * t.val + p.val, hn⟩ rfl).symm

/-- An index of the array is in point t's block iff each coordinate is in the block's range on its axis. -/
private theorem mem_block (t : Fin cfg3.N) (i : S50000x128.Idx) :
    i ∈ ((cfg3.win 10).blk t).view.set ↔ ∀ a : Fin 2, win3_10.index t a * S2000x128.size a ≤ (i a).val
      ∧ (i a).val < win3_10.index t a * S2000x128.size a + S2000x128.size a := by
  show i ∈ ((View.whole main_v56).slice (win3_10.rect t)).set ↔ _
  rw [View.set_slice_whole, Rect.mem_set_unit]
  exact Iff.rfl

/-- THE COVER: row r of the array is in the block of point r / 2000, and every point writes its block back. -/
private theorem covered (i : S50000x128.Idx) :
    ∃ t : Fin cfg3.N, (cfg3.win 10).flush t = true ∧ i ∈ ((cfg3.win 10).blk t).view.set := by
  have hN : cfg3.N = 25 := N_3
  have hi0 : (i 0).val < 50000 := (i 0).isLt
  have hi1 : (i 1).val < 128 := (i 1).isLt
  have ht : (i 0).val / 2000 < cfg3.N := by rw [hN]; omega
  obtain ⟨-, -, -, -, -, -, -, -, -, -, -, -, -, -, -, -, -, -, -, -, e0, e1⟩ := index_facts ⟨(i 0).val / 2000, ht⟩
  refine ⟨⟨(i 0).val / 2000, ht⟩, flush3_10 _, ?_⟩
  rw [mem_block]
  intro a
  match a with
  | ⟨0, _⟩ =>
    show win3_10.index ⟨(i 0).val / 2000, ht⟩ (0 : Fin 2) * 2000 ≤ (i 0).val
      ∧ (i 0).val < win3_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_10.index ⟨(i 0).val / 2000, ht⟩ (1 : Fin 2) * 128 ≤ (i 1).val
      ∧ (i 1).val < win3_10.index ⟨(i 0).val / 2000, ht⟩ (1 : Fin 2) * 128 + 128
    rw [e1]; omega

/-- THE REGION'S OUTPUT ARRAY after its 25 points is the layer of the arrays the region found: every point writes back
    block t of the layer, and the 25 blocks cover the array. -/
theorem mlp3_arr (c : Dev nD) (b1 gamma beta mean var b2 : (⟨1, ![128]⟩ : Shape).Idx → EReal)
    (hb1 : ∀ k : Fin 128, (V c main_v50 : S1x128.Idx → EReal) (ix2 0 k) = b1 (ix1 k))
    (hgamma : ∀ k : Fin 128, (V c main_v51 : S1x128.Idx → EReal) (ix2 0 k) = gamma (ix1 k))
    (hbeta : ∀ k : Fin 128, (V c main_v52 : S1x128.Idx → EReal) (ix2 0 k) = beta (ix1 k))
    (hmean : ∀ k : Fin 128, (V c main_v53 : S1x128.Idx → EReal) (ix2 0 k) = mean (ix1 k))
    (hvar : ∀ k : Fin 128, (V c main_v54 : S1x128.Idx → EReal) (ix2 0 k) = var (ix1 k))
    (hb2 : ∀ k : Fin 128, (V c main_v55 : S1x128.Idx → EReal) (ix2 0 k) = b2 (ix1 k)) :
    ((dat3 V c).arrAt 10 cfg3.N : S50000x128.Idx → EReal)
      = mlpFn (V c main_v39) (V c main_v49) (V c main_arg20) b1 gamma beta mean var (V c main_arg26) b2 :=
  (dat3 V c).arrAt_eq_of_cover 10
    (mlpFn (V c main_v39) (V c main_v49) (V c main_arg20) b1 gamma beta mean var (V c main_arg26) b2)
    (fun t _ => flushed_eq V c b1 gamma beta mean var b2 hb1 hgamma hbeta hmean hvar hb2 t) covered

end Cert.Gin

end
-- ==== Proof.MlpRef.lean ====
import proofs.«431365_j395136991277_1_alg».proof.Proof.Gen.ReferenceIdeal.Read
import proofs.«431365_j395136991277_1_alg».proof.Proof.Spec
import proofs.«431365_j395136991277_1_alg».proof.Proof.MlpSpec
import proofs.«431365_j395136991277_1_alg».proof.Proof.LibDot
set_option maxRecDepth 16384

noncomputable section

open scoped BigOperators

namespace Cert.Gin

open Idealize.ShloMosaic Idealize.ShloMosaic.TcCoe Idealize.ShloMosaic.ValueIdx
open Cert.ReferenceIdeal Cert.ReferenceIdeal.Gen Cert.ReferenceIdeal.Read

/-! Each of the three layers is the same composition of whole-array operations applied to (layer input, neighbour
    sums, eight parameter arrays): x + agg, a matrix product with w1, a row of b1 added, a row of the running mean
    subtracted, a row of rsqrt(var + ε) and a row of γ multiplied in, a row of β added, the rectifier, a matrix product
    with w2, a row of b2 added, the rectifier. That composition is written once as a term of abstract arrays and read at
    an entry (n, d): a row broadcast reads its vector at d, the zero array reads 0, a matrix product reads the sum over
    the contracted coordinate. Each layer's last stage is that term of its own operands, by unfolding the stages between
    the layer's input and its output and nothing below them. -/

/-- A per-feature vector laid along every node's row: entry (n, d) is the vector's entry d. -/
private def rowOf (v : FVec Ideal S128 .f32) : FVec Ideal S50000x128 .f32 :=
  broadcastInDim S50000x128 ![0, 1] bcast_S1x128_S50000x128_0_1 (broadcastInDim S1x128 ![1] bcast_S128_S1x128_1 v)

/-- The all-zero array the rectifier compares with. -/
private def zeros : FVec Ideal S50000x128 .f32 :=
  broadcastInDim S50000x128 ![] bcast_S_S50000x128 (constant S_ .f32 0x00000000#32)

/-- The batch-norm ε at every feature. -/
private def epsVec : FVec Ideal S128 .f32 :=
  broadcastInDim S128 ![] bcast_S_S128 (constant S_ .f32 0x3727C5AC#32)

/-- A row broadcast read at (n, d) is the vector's entry d: the first coordinate is dropped through the unit axis. -/
private theorem rowOf_apply (v : FVec Ideal S128 .f32) (n : Fin 50000) (d : Fin 128) : rowOf v (ix2 n d) = v (ix1 d) := by
  unfold rowOf
  rw [broadcastInDim_apply _ bcast_S1x128_S50000x128_0_1 _ (ix2 n d) (ix2 (0 : Fin 1) d) (fun a => match a with
        | ⟨0, _⟩ => by show 0 = if (1 : Nat) = 1 then 0 else n.val; rw [if_pos rfl]
        | ⟨1, _⟩ => by show d.val = if (128 : Nat) = 1 then 0 else d.val; rw [if_neg (by decide)]),
    broadcastInDim_apply _ bcast_S128_S1x128_1 v (ix2 (0 : Fin 1) d) (ix1 d) (fun a => match a with
        | ⟨0, _⟩ => by show d.val = if (128 : Nat) = 1 then 0 else d.val; rw [if_neg (by decide)])]

/-- The zero word denotes the real number 0. -/
private theorem zeros_apply (i : S50000x128.Idx) : zeros i = 0 := by
  unfold zeros
  rw [broadcastInDim_apply _ bcast_S_S50000x128 _ i ix0 (fun a => a.elim0), constant_apply]
  exact Ideal.ofBits_zero_f32

/-- Every entry of the ε vector is the one word the specification's ε denotes; the word is not evaluated. -/
private theorem epsVec_apply (k : S128.Idx) : epsVec k = bnEps := by
  unfold epsVec bnEps
  rw [broadcastInDim_apply _ bcast_S_S128 _ k ix0 (fun a => a.elim0), constant_apply]

/-- The stages up to the first rectifier, as one term of the layer's input, its neighbour sums and the parameters. -/
private def hiddenTerm (x agg : FVec Ideal S50000x128 .f32) (w1 : FVec Ideal S128x128 .f32)
    (b1 gamma beta mean var : FVec Ideal S128 .f32) : FVec Ideal S50000x128 .f32 :=
  maximumf (addf (mulf (mulf (subf (addf
    (Host.dotGeneral dot_S50000x128_S128x128_S50000x128_1_0_0_1_n_n none (addf x agg) w1) (rowOf b1)) (rowOf mean))
    (rowOf (Host.rsqrt (addf var epsVec)))) (rowOf gamma)) (rowOf beta)) zeros

/-- The whole layer as one term. -/
private def layerTerm (x agg : FVec Ideal S50000x128 .f32) (w1 : FVec Ideal S128x128 .f32)
    (b1 gamma beta mean var : FVec Ideal S128 .f32) (w2 : FVec Ideal S128x128 .f32) (b2 : FVec Ideal S128 .f32) :
    FVec Ideal S50000x128 .f32 :=
  maximumf (addf (Host.dotGeneral dot_S50000x128_S128x128_S50000x128_1_0_0_1_n_n none
    (hiddenTerm x agg w1 b1 gamma beta mean var) w2) (rowOf b2)) zeros

/-- The first half of the layer read at (n, k) is the specification's hidden unit k of node n. -/
private theorem hiddenTerm_apply (x agg : FVec Ideal S50000x128 .f32) (w1 : FVec Ideal S128x128 .f32)
    (b1 gamma beta mean var : FVec Ideal S128 .f32) (n : Fin 50000) (k : Fin 128) :
    hiddenTerm x agg w1 b1 gamma beta mean var (ix2 n k) = hidden x agg w1 b1 gamma beta mean var n k := by
  unfold hiddenTerm hidden
  rw [maximumf_apply, addf_apply, mulf_apply, mulf_apply, subf_apply, addf_apply, zeros_apply,
    rowOf_apply, rowOf_apply, rowOf_apply, rowOf_apply, rowOf_apply,
    Cert.LibDot.dot_rows_apply dot_S50000x128_S128x128_S50000x128_1_0_0_1_n_n rfl rfl rfl rfl rfl rfl]
  show max (((((∑ κ : Fin 128, (x (ix2 n κ) + agg (ix2 n κ)) * w1 (ix2 κ k)) + b1 (ix1 k)) - mean (ix1 k))
        * FloatOps.hostUnary .rsqrt (var (ix1 k) + epsVec (ix1 k))) * gamma (ix1 k) + beta (ix1 k)) 0 = _
  rw [Ideal.hostUnary_rsqrt_def, epsVec_apply]

/-- The layer's term is the specification's layer function, entry by entry. -/
private theorem layerTerm_eq (x agg : FVec Ideal S50000x128 .f32) (w1 : FVec Ideal S128x128 .f32)
    (b1 gamma beta mean var : FVec Ideal S128 .f32) (w2 : FVec Ideal S128x128 .f32) (b2 : FVec Ideal S128 .f32) :
    layerTerm x agg w1 b1 gamma beta mean var w2 b2 = mlpFn x agg w1 b1 gamma beta mean var w2 b2 := by
  funext i
  obtain ⟨n, d, rfl⟩ : ∃ (n : Fin 50000) (d : Fin 128), i = ix2 n d := ⟨i 0, i 1, eq_ix2 i⟩
  rw [mlpFn_apply]
  unfold layerTerm mlpAt
  rw [maximumf_apply, addf_apply, zeros_apply, rowOf_apply,
    Cert.LibDot.dot_rows_apply dot_S50000x128_S128x128_S50000x128_1_0_0_1_n_n rfl rfl rfl rfl rfl rfl]
  simp only [hiddenTerm_apply]

/-- The reference's first layer is the node-wise network of the gathered embedding rows and their neighbour sums. -/
theorem ref_mlp1 (a0 : IVec S50000 32) (a1 : IVec S2x800000 32) (a3 : S500x128.Idx → EReal) (a4 : S128x128.Idx → EReal) (a5 : S128.Idx → EReal) (a6 : S128.Idx → EReal) (a7 : S128.Idx → EReal) (a8 : S128.Idx → EReal) (a9 : S128.Idx → EReal) (a10 : S128x128.Idx → EReal) (a11 : S128.Idx → EReal) :
    val_main_v46 (F := Ideal) a0 a1 a3 a4 a5 a6 a7 a8 a9 a10 a11
      = mlpFn (val_main_v6 (F := Ideal) a0 a3) (val_main_v20 (F := Ideal) a0 a1 a3) a4 a5 a6 a7 a8 a9 a10 a11 := by
  have h : val_main_v46 (F := Ideal) a0 a1 a3 a4 a5 a6 a7 a8 a9 a10 a11
      = layerTerm (val_main_v6 (F := Ideal) a0 a3) (val_main_v20 (F := Ideal) a0 a1 a3) a4 a5 a6 a7 a8 a9 a10 a11 := by
    unfold val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_call1_v0 val_main_call0_v0 val_main_call1_cst val_main_call0_cst val_main_cst_3 layerTerm hiddenTerm rowOf zeros epsVec
    rfl
  exact h.trans (layerTerm_eq _ _ _ _ _ _ _ _ _ _)

/-- The second layer, of the first layer's output and its neighbour sums. -/
theorem ref_mlp2 (a0 : IVec S50000 32) (a1 : IVec S2x800000 32) (a3 : S500x128.Idx → EReal) (a4 : S128x128.Idx → EReal) (a5 : S128.Idx → EReal) (a6 : S128.Idx → EReal) (a7 : S128.Idx → EReal) (a8 : S128.Idx → EReal) (a9 : S128.Idx → EReal) (a10 : S128x128.Idx → EReal) (a11 : S128.Idx → EReal) (a12 : S128x128.Idx → EReal) (a13 : S128.Idx → EReal) (a14 : S128.Idx → EReal) (a15 : S128.Idx → EReal) (a16 : S128.Idx → EReal) (a17 : S128.Idx → EReal) (a18 : S128x128.Idx → EReal) (a19 : S128.Idx → EReal) :
    val_main_v86 (F := Ideal) a0 a1 a3 a4 a5 a6 a7 a8 a9 a10 a11 a12 a13 a14 a15 a16 a17 a18 a19
      = mlpFn (val_main_v46 (F := Ideal) a0 a1 a3 a4 a5 a6 a7 a8 a9 a10 a11) (val_main_v60 (F := Ideal) a0 a1 a3 a4 a5 a6 a7 a8 a9 a10 a11) a12 a13 a14 a15 a16 a17 a18 a19 := by
  have h : val_main_v86 (F := Ideal) a0 a1 a3 a4 a5 a6 a7 a8 a9 a10 a11 a12 a13 a14 a15 a16 a17 a18 a19
      = layerTerm (val_main_v46 (F := Ideal) a0 a1 a3 a4 a5 a6 a7 a8 a9 a10 a11) (val_main_v60 (F := Ideal) a0 a1 a3 a4 a5 a6 a7 a8 a9 a10 a11) a12 a13 a14 a15 a16 a17 a18 a19 := by
    unfold val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_call3_v0 val_main_call2_v0 val_main_call3_cst val_main_call2_cst val_main_cst_7 layerTerm hiddenTerm rowOf zeros epsVec
    rfl
  exact h.trans (layerTerm_eq _ _ _ _ _ _ _ _ _ _)

/-- The third layer, of the second layer's output and its neighbour sums. -/
theorem ref_mlp3 (a0 : IVec S50000 32) (a1 : IVec S2x800000 32) (a3 : S500x128.Idx → EReal) (a4 : S128x128.Idx → EReal) (a5 : S128.Idx → EReal) (a6 : S128.Idx → EReal) (a7 : S128.Idx → EReal) (a8 : S128.Idx → EReal) (a9 : S128.Idx → EReal) (a10 : S128x128.Idx → EReal) (a11 : S128.Idx → EReal) (a12 : S128x128.Idx → EReal) (a13 : S128.Idx → EReal) (a14 : S128.Idx → EReal) (a15 : S128.Idx → EReal) (a16 : S128.Idx → EReal) (a17 : S128.Idx → EReal) (a18 : S128x128.Idx → EReal) (a19 : S128.Idx → EReal) (a20 : S128x128.Idx → EReal) (a21 : S128.Idx → EReal) (a22 : S128.Idx → EReal) (a23 : S128.Idx → EReal) (a24 : S128.Idx → EReal) (a25 : S128.Idx → EReal) (a26 : S128x128.Idx → EReal) (a27 : S128.Idx → EReal) :
    val_main_v126 (F := Ideal) a0 a1 a3 a4 a5 a6 a7 a8 a9 a10 a11 a12 a13 a14 a15 a16 a17 a18 a19 a20 a21 a22 a23 a24 a25 a26 a27
      = mlpFn (val_main_v86 (F := Ideal) a0 a1 a3 a4 a5 a6 a7 a8 a9 a10 a11 a12 a13 a14 a15 a16 a17 a18 a19) (val_main_v100 (F := Ideal) a0 a1 a3 a4 a5 a6 a7 a8 a9 a10 a11 a12 a13 a14 a15 a16 a17 a18 a19) a20 a21 a22 a23 a24 a25 a26 a27 := by
  have h : val_main_v126 (F := Ideal) a0 a1 a3 a4 a5 a6 a7 a8 a9 a10 a11 a12 a13 a14 a15 a16 a17 a18 a19 a20 a21 a22 a23 a24 a25 a26 a27
      = layerTerm (val_main_v86 (F := Ideal) a0 a1 a3 a4 a5 a6 a7 a8 a9 a10 a11 a12 a13 a14 a15 a16 a17 a18 a19) (val_main_v100 (F := Ideal) a0 a1 a3 a4 a5 a6 a7 a8 a9 a10 a11 a12 a13 a14 a15 a16 a17 a18 a19) a20 a21 a22 a23 a24 a25 a26 a27 := by
    unfold val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_call5_v0 val_main_call4_v0 val_main_call5_cst val_main_call4_cst val_main_cst_11 layerTerm hiddenTerm rowOf zeros epsVec
    rfl
  exact h.trans (layerTerm_eq _ _ _ _ _ _ _ _ _ _)

end Cert.Gin

end
-- ==== Proof.LibDotT.lean ====
/-
  The product of the TRANSPOSE of an N × G matrix by an N × M matrix, read at an index.

  A block product whose dimension numbers contract axis 0 of the left operand with axis 0 of the right (free axes: 1
  and 1, no batch axis) has, at (g, j), the accumulator's entry plus Σ_n l (n, g) · r (n, j). Stated for any
  dimension-numbers record whose lists have those values, generically in the sizes and the operands' formats, at the
  ideal values (a float is an extended real).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

section Axes

variable {N G M : Nat} (d : DotDims ⟨2, ![N, G]⟩ ⟨2, ![N, M]⟩ ⟨2, ![G, M]⟩)

/-- One axis is contracted. -/
theorem contr_rank (hlc : d.lhsContracting = [0]) : d.contr.rank = 1 := by
  rw [d.rank_contr, hlc]; rfl

/-- The contracted axis is the left operand's axis 0, of extent N. -/
theorem contr_size (hlc : d.lhsContracting = [0]) (h0 : 0 < d.contr.rank) : d.contr.size ⟨0, h0⟩ = N := by
  have hp : 0 < d.lhsContracting.length := by rw [hlc]; exact Nat.one_pos
  have e := d.size_contr 0 hp
  rw [List.getElem_of_eq hlc hp] at e
  exact e

/-- LEFT OPERAND, AXIS 0 (the contracted one): the contraction position's coordinate. -/
theorem lhs_axis0 (hlc : d.lhsContracting = [0]) (i : (⟨2, ![G, M]⟩ : Shape).Idx) (k : d.contr.Idx) :
    (d.lhsIdx i k 0).val = (k ⟨0, by rw [d.rank_contr, hlc]; exact Nat.one_pos⟩).val :=
  d.lhsIdx_val_of_single hlc i k

/-- LEFT OPERAND, AXIS 1 (free, and the first of the result's axes since there is no batch axis): the result's row. -/
theorem lhs_axis1 (hln : d.lhsNonContracting = [1]) (hlb : d.lhsBatch = []) (g : Fin G) (j : Fin M) (k : d.contr.Idx) :
    (d.lhsIdx (ix2 g j) k 1).val = g.val := by
  have hb : (1 : Fin (⟨2, ![N, G]⟩ : Shape).rank) ∉ d.lhsBatch := by rw [hlb]; exact List.not_mem_nil
  have hn : (1 : Fin (⟨2, ![N, G]⟩ : Shape).rank) ∈ d.lhsNonContracting := by rw [hln]; exact List.mem_singleton.mpr rfl
  unfold DotDims.lhsIdx
  rw [dif_neg hb, dif_pos hn]
  simp only [Fin.val_cast]
  have key : ∀ (p : Nat) (hp : p < (⟨2, ![G, M]⟩ : Shape).rank), p = 0 → (ix2 g j ⟨p, hp⟩).val = g.val :=
    fun p hp h => by subst h; rfl
  exact key _ _ (by simp [hlb, hln])

/-- RIGHT OPERAND, AXIS 0 (the contracted one): the contraction position's coordinate. -/
theorem rhs_axis0 (hrc : d.rhsContracting = [0]) (i : (⟨2, ![G, M]⟩ : Shape).Idx) (k : d.contr.Idx) :
    (d.rhsIdx i k 0).val = (k ⟨0, by rw [d.rank_contr, ← d.length_contracting, hrc]; exact Nat.one_pos⟩).val :=
  d.rhsIdx_val_of_single hrc i k

/-- RIGHT OPERAND, AXIS 1 (free; it follows the left operand's one free axis among the result's axes): the result's
    column. -/
theorem rhs_axis1 (hln : d.lhsNonContracting = [1]) (hrn : d.rhsNonContracting = [1]) (hlb : d.lhsBatch = [])
    (hrb : d.rhsBatch = []) (g : Fin G) (j : Fin M) (k : d.contr.Idx) :
    (d.rhsIdx (ix2 g j) k 1).val = j.val := by
  have hb : (1 : Fin (⟨2, ![N, M]⟩ : Shape).rank) ∉ d.rhsBatch := by rw [hrb]; exact List.not_mem_nil
  have hn : (1 : Fin (⟨2, ![N, M]⟩ : Shape).rank) ∈ d.rhsNonContracting := by rw [hrn]; exact List.mem_singleton.mpr rfl
  unfold DotDims.rhsIdx
  rw [dif_neg hb, dif_pos hn]
  simp only [Fin.val_cast]
  have key : ∀ (p : Nat) (hp : p < (⟨2, ![G, M]⟩ : Shape).rank), p = 1 → (ix2 g j ⟨p, hp⟩).val = j.val :=
    fun p hp h => by subst h; rfl
  exact key _ _ (by simp [hlb, hln, hrn])

end Axes

/-- THE ACCUMULATING BLOCK PRODUCT, LEFT OPERAND TRANSPOSED, READ AT (g, j): the accumulator's entry plus
    Σ_n l (n, g) · r (n, j). -/
theorem matmul_cols_apply {N G M : Nat} {φ₁ φ₂ : FTy} (d : DotDims ⟨2, ![N, G]⟩ ⟨2, ![N, M]⟩ ⟨2, ![G, M]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![N, G]⟩ φ₁) (r : FVec Ideal ⟨2, ![N, M]⟩ φ₂) (acc : FVec Ideal ⟨2, ![G, M]⟩ .f32)
    (g : Fin G) (j : Fin M) :
    FloatOps.matmul d prec l r acc (ix2 g j) = acc (ix2 g j) + ∑ n : Fin N, l (ix2 n g) * r (ix2 n j) := by
  have hr : d.contr.rank = 1 := contr_rank d hlc
  have hs : d.contr.size ⟨0, by omega⟩ = N := contr_size d hlc _
  -- the sum over the record's contraction index is the sum over its one coordinate n
  rw [Ideal.matmul_apply, ← Equiv.sum_comp (contrEquiv1 d N hr hs).symm]
  refine congrArg (acc (ix2 g j) + ·) (Finset.sum_congr rfl fun n _ => ?_)
  have c := contrEquiv1_symm_val d N hr hs n
  -- at coordinate n the left operand is read at (n, g) and the right at (n, j)
  have el : d.lhsIdx (ix2 g j) ((contrEquiv1 d N hr hs).symm n) = ix2 n g := by
    funext ax; apply Fin.ext
    match ax with
    | ⟨0, _⟩ => exact (lhs_axis0 d hlc _ _).trans c
    | ⟨1, _⟩ => exact lhs_axis1 d hln hlb g j _
  have er : d.rhsIdx (ix2 g j) ((contrEquiv1 d N hr hs).symm n) = ix2 n j := by
    funext ax; apply Fin.ext
    match ax with
    | ⟨0, _⟩ => exact (rhs_axis0 d hrc _ _).trans c
    | ⟨1, _⟩ => exact rhs_axis1 d hln hrn hlb hrb g j _
  rw [el, er]

end Cert.LibDotT

end
-- ==== Proof.PoolKernel.lean ====
/-
  The graph pooling of the idealized kernel, read as one function of the arrays it is given.

  The pooling runs over a grid of 25 points. Point t reads rows 2000·t … 2000·t + 1999 of the integer column of graph
  numbers and of the three layers' feature arrays; ONE 512 × 384 output block is carried through all the points and
  written back after the last one. At the first point the body stores zeros over the block. At every point it forms
  the 2000 × 512 one-hot matrix H of the tile (H (n, g) = 1 when node n's graph number is g, else 0) and, for each of
  the three column slices [0, 128), [128, 256), [256, 384) of the block, loads the slice, adds Hᵀ · (that layer's tile)
  and stores it back.

  Entry (g, e) of Hᵀ · X is Σ_n H (n, g) · X (n, e): the sum, over the tile's nodes whose graph number is g, of feature
  e. So after point t entry (g, e) of the block is the pooling sum restricted to the nodes below 2000·(t + 1), by
  induction on the point: the first point leaves 0 + (its tile's sum), a later point (what the point before left) +
  (its tile's sum). After the 25th point that is the sum over all 50000 nodes, the pooling function, and the block,
  which sits at block index (0, 0) of a 512 × 384 array, is the whole array. Only 0 + x = x and the splitting of a
  finite sum over consecutive ranges are used: nothing needs the entries to be finite.
-/
import proofs.«431365_j395136991277_1_alg».proof.Proof.Gen.KernelIdeal.Frame
import proofs.«431365_j395136991277_1_alg».proof.Proof.Spec
import proofs.«431365_j395136991277_1_alg».proof.Proof.LibDotT
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.Gin

open Idealize.ShloMosaic Idealize.ShloMosaic.TcCoe Idealize.ShloMosaic.ValueIdx Idealize.SL.Sem
open Cert.KernelIdeal Cert.KernelIdeal.Gen
open Idealize.ShloMosaic.Pipeline (Dat)
open Idealize.ShloMosaic.Tactic

/-! ## The pooling sum, tile by tile -/

/-- Node number `n`'s contribution to entry (g, e) of the pooling: the indicator that its graph number is `g` times
    its feature `e`; nothing beyond the last node. -/
def nodeTerm (b : IVec ⟨2, ![50000, 1]⟩ 32) (h1 h2 h3 : (⟨2, ![50000, 128]⟩ : Shape).Idx → EReal) (g e n : Nat) : EReal :=
  if h : n < 50000 then hot (b (ix2 ⟨n, h⟩ 0)) g * pick h1 h2 h3 ⟨n, h⟩ e else 0

/-- The pooling restricted to the first `T` tiles of 2000 nodes. -/
def poolUpTo (b : IVec ⟨2, ![50000, 1]⟩ 32) (h1 h2 h3 : (⟨2, ![50000, 128]⟩ : Shape).Idx → EReal) (T g e : Nat) : EReal :=
  ∑ n ∈ Finset.range (2000 * T), nodeTerm b h1 h2 h3 g e n

theorem poolUpTo_zero (b : IVec ⟨2, ![50000, 1]⟩ 32) (h1 h2 h3 : (⟨2, ![50000, 128]⟩ : Shape).Idx → EReal) (g e : Nat) :
    poolUpTo b h1 h2 h3 0 g e = 0 := by
  unfold poolUpTo
  rw [Nat.mul_zero, Finset.range_zero, Finset.sum_empty]

/-- One more tile adds that tile's 2000 contributions. -/
theorem poolUpTo_succ (b : IVec ⟨2, ![50000, 1]⟩ 32) (h1 h2 h3 : (⟨2, ![50000, 128]⟩ : Shape).Idx → EReal) (T g e : Nat) :
    poolUpTo b h1 h2 h3 (T + 1) g e
      = poolUpTo b h1 h2 h3 T g e + ∑ k : Fin 2000, nodeTerm b h1 h2 h3 g e (2000 * T + k.val) := by
  unfold poolUpTo
  rw [Nat.mul_succ, Finset.sum_range_add]
  exact congrArg (_ + ·) (Finset.sum_range fun x => nodeTerm b h1 h2 h3 g e (2000 * T + x))

/-- All 25 tiles give the pooling. -/
theorem poolUpTo_all (b : IVec ⟨2, ![50000, 1]⟩ 32) (h1 h2 h3 : (⟨2, ![50000, 128]⟩ : Shape).Idx → EReal)
    (i : (⟨2, ![512, 384]⟩ : Shape).Idx) :
    poolUpTo b h1 h2 h3 25 (i 0).val (i 1).val = poolFn b h1 h2 h3 i := by
  unfold poolUpTo poolFn
  rw [show 2000 * 25 = 50000 from rfl, Finset.sum_range]
  refine Finset.sum_congr rfl fun n _ => ?_
  unfold nodeTerm
  rw [dif_pos n.isLt]

/-- Feature `e` (below 384) of row `n` of a tile of the three layers' features laid side by side. -/
def pickTile (x1 x2 x3 : (⟨2, ![2000, 128]⟩ : Shape).Idx → EReal) (n : Fin 2000) (e : Nat) : EReal :=
  if h : e < 128 then x1 (ix2 n ⟨e, h⟩)
  else if h' : e < 256 then x2 (ix2 n ⟨e - 128, by omega⟩)
  else if h'' : e < 384 then x3 (ix2 n ⟨e - 256, by omega⟩)
  else 0

/-! ## The body's arithmetic at an index -/

/-- A comparison bit widened to a word and converted: the indicator of the equality. -/
theorem sitofp_eq_bit (w v : BitVec 32) :
    (FloatOps.sitofp (F := Ideal) .f32 ((IntOp.cmpi .eq w v).setWidth 32) : EReal) = if w = v then 1 else 0 := by
  show (((BitVec.setWidth 32 (BitVec.ofBool (w == v))).toInt : ℝ) : EReal) = _
  by_cases h : w = v
  · rw [if_pos h, show (w == v) = true from by simp [h]]
    show (((1 : Int) : ℝ) : EReal) = 1
    simp
  · rw [if_neg h, show (w == v) = false from by simp [h]]
    show (((0 : Int) : ℝ) : EReal) = 0
    simp

/-- THE ONE-HOT MATRIX of a tile: entry (n, g) is the indicator that node n's graph number is g. -/
theorem onehot_apply (x0 : IVec S2000x1 32) (n : Fin 2000) (g : Fin 512) :
    k4_pay2 (F := Ideal) x0 (ix2 n g) = hot (x0 (ix2 n 0)) g.val := by
  have hb : broadcastTo S2000x512 (shapeCast S2000x1 x0 shapeCasts_S2000x1_S2000x1) broadcasts_S2000x1_S2000x512 (ix2 n g)
      = x0 (ix2 n 0) := by
    rw [shapeCast_self]
    exact broadcastTo_apply x0 broadcasts_S2000x1_S2000x512 (ix2 n g) (ix2 n 0)
      (fun a => by match a with | ⟨0, _⟩ => rfl | ⟨1, _⟩ => rfl)
  have hi : iota .tc S2000x512 32 [1] iota_S2000x512_d1_w32 (ix2 n g) = BitVec.ofNat 32 g.val :=
    iota_single_apply .tc S2000x512 32 1 iota_S2000x512_d1_w32 (ix2 n g)
  unfold k4_pay2
  show FloatOps.sitofp (F := Ideal) .f32 ((IntOp.cmpi .eq
      (broadcastTo S2000x512 (shapeCast S2000x1 x0 shapeCasts_S2000x1_S2000x1) broadcasts_S2000x1_S2000x512 (ix2 n g))
      (iota .tc S2000x512 32 [1] iota_S2000x512_d1_w32 (ix2 n g))).setWidth 32) = _
  rw [hb, hi, sitofp_eq_bit]
  rfl

/-- The transposed one-hot matrix times a tile of features, into zero, at (g, e): the sum over the tile's nodes
    whose graph number is g of feature e. -/
theorem tile_dot_apply (x0 : IVec S2000x1 32) (x : FVec Ideal S2000x128 .bf16) (g : Fin 512) (e : Fin 128) :
    matmul (F := Ideal) dot_S2000x512_S2000x128_S512x128_0_0_1_1_n_n none (k4_pay2 x0)
        (shapeCast S2000x128 x shapeCasts_S2000x128_S2000x128) (constant S512x128 .f32 0x00000000#32) (ix2 g e)
      = ∑ n : Fin 2000, hot (x0 (ix2 n 0)) g.val * x (ix2 n e) := by
  rw [shapeCast_self]
  refine (Cert.LibDotT.matmul_cols_apply dot_S2000x512_S2000x128_S512x128_0_0_1_1_n_n rfl rfl rfl rfl rfl rfl none
    (k4_pay2 (F := Ideal) x0) x (constant S512x128 .f32 0x00000000#32) g e).trans ?_
  rw [show (constant (F := Ideal) S512x128 .f32 0x00000000#32) (ix2 g e) = Ideal.ofBits .f32 0x00000000#32 from rfl,
    Ideal.ofBits_zero_f32, zero_add]
  exact Finset.sum_congr rfl fun n _ => by rw [onehot_apply]

/-- The three accumulating payloads at (g, e): what the slice held plus the tile's product. -/
theorem pay3_apply (x0 : IVec S2000x1 32) (x : FVec Ideal S2000x128 .bf16) (acc : FVec Ideal S512x128 .f32)
    (g : Fin 512) (e : Fin 128) :
    k4_pay3 (F := Ideal) x0 x acc (ix2 g e) = acc (ix2 g e) + ∑ n : Fin 2000, hot (x0 (ix2 n 0)) g.val * x (ix2 n e) := by
  unfold k4_pay3
  show (shapeCast S512x128 acc shapeCasts_S512x128_S512x128) (ix2 g e) + _ = _
  rw [shapeCast_self, tile_dot_apply]

theorem pay4_apply (x0 : IVec S2000x1 32) (x : FVec Ideal S2000x128 .bf16) (acc : FVec Ideal S512x128 .f32)
    (g : Fin 512) (e : Fin 128) :
    k4_pay4 (F := Ideal) x0 x acc (ix2 g e) = acc (ix2 g e) + ∑ n : Fin 2000, hot (x0 (ix2 n 0)) g.val * x (ix2 n e) := by
  unfold k4_pay4
  show (shapeCast S512x128 acc shapeCasts_S512x128_S512x128) (ix2 g e) + _ = _
  rw [shapeCast_self, tile_dot_apply]

theorem pay5_apply (x0 : IVec S2000x1 32) (x : FVec Ideal S2000x128 .bf16) (acc : FVec Ideal S512x128 .f32)
    (g : Fin 512) (e : Fin 128) :
    k4_pay5 (F := Ideal) x0 x acc (ix2 g e) = acc (ix2 g e) + ∑ n : Fin 2000, hot (x0 (ix2 n 0)) g.val * x (ix2 n e) := by
  unfold k4_pay5
  show (shapeCast S512x128 acc shapeCasts_S512x128_S512x128) (ix2 g e) + _ = _
  rw [shapeCast_self, tile_dot_apply]

/-! ## What a point leaves in the block, entry by entry -/

theorem hz2 : (![0, 0] : Fin 2 → Nat) = fun _ => 0 := funext fun a => by fin_cases a <;> rfl

/-- Entry (g, e) of the block lies in the 512 × 128 slice at column offset `o` exactly when `o ≤ e < o + 128`. -/
theorem mem_cols (o : Nat) (inb : ∀ a, (![0, o] : Fin 2 → Nat) a + (![512, 128] : Fin 2 → Nat) a ≤ S512x384.size a)
    (g : Fin 512) (e : Fin 384) :
    (ix2 g e : S512x384.Idx) ∈ (Rect.unit (s := S512x384) ![0, o] ![512, 128] inb).set ↔ o ≤ e.val ∧ e.val < o + 128 := by
  rw [Rect.mem_set_unit]
  constructor
  · intro h; exact h 1
  · intro h a
    match a with
    | ⟨0, _⟩ => exact ⟨Nat.zero_le _, by show g.val < 0 + 512; omega⟩
    | ⟨1, _⟩ => exact h

/-- The slice's own entry (g, e') is entry (g, o + e') of the block. -/
theorem cols_emb (o : Nat) (inb : ∀ a, (![0, o] : Fin 2 → Nat) a + (![512, 128] : Fin 2 → Nat) a ≤ S512x384.size a)
    (g : Fin 512) (e' : Fin 128) (e : Fin 384) (he : e.val = o + e'.val) :
    (Rect.unit (s := S512x384) ![0, o] ![512, 128] inb).emb (ix2 g e') = (ix2 g e : S512x384.Idx) := by
  funext a; apply Fin.ext
  match a with
  | ⟨0, _⟩ => show 0 + 1 * g.val = g.val; omega
  | ⟨1, _⟩ => show o + 1 * e'.val = e.val; omega

/-- A list of stores read at an entry of its first store's rectangle, of its second store's when the first does not hold
    it, of its third's when neither of the first two does. -/
theorem canon_at_first {Val : EltTy → Type} [∀ e, Nonempty (Val e)] {s : Shape} {el : EltTy}
    (r : Rect s) (w : r.shape.Idx → Val el) (L : List (View.Piece Val s el)) (x : r.shape.Idx) (y : s.Idx) (hy : r.emb x = y) :
    View.canon (⟨r, w⟩ :: L) y = w x := hy ▸ View.canon_cons_emb r w L x

theorem canon_at_second {Val : EltTy → Type} [∀ e, Nonempty (Val e)] {s : Shape} {el : EltTy}
    (p2 : View.Piece Val s el) (r : Rect s) (w : r.shape.Idx → Val el) (L : List (View.Piece Val s el)) (x : r.shape.Idx)
    (y : s.Idx) (hy : r.emb x = y) (n2 : y ∉ p2.1.set) :
    View.canon (p2 :: ⟨r, w⟩ :: L) y = w x :=
  (View.canon_cons_of_not_mem p2 _ n2).trans (canon_at_first r w L x y hy)

theorem canon_at_third {Val : EltTy → Type} [∀ e, Nonempty (Val e)] {s : Shape} {el : EltTy}
    (p2 p1 : View.Piece Val s el) (r : Rect s) (w : r.shape.Idx → Val el) (L : List (View.Piece Val s el)) (x : r.shape.Idx)
    (y : s.Idx) (hy : r.emb x = y) (n2 : y ∉ p2.1.set) (n1 : y ∉ p1.1.set) :
    View.canon (p2 :: p1 :: ⟨r, w⟩ :: L) y = w x :=
  (View.canon_cons_of_not_mem p2 _ n2).trans (canon_at_second p1 r w L x y hy n1)

/-- A store whose rectangle does not hold an entry leaves there what the earlier stores left. -/
theorem canon_skip {Val : EltTy → Type} [∀ e, Nonempty (Val e)] {s : Shape} {el : EltTy}
    (r : Rect s) (w : r.shape.Idx → Val el) (L : List (View.Piece Val s el)) (y : s.Idx) (n : y ∉ r.set) :
    View.canon (⟨r, w⟩ :: L) y = View.canon L y := View.canon_cons_of_not_mem ⟨r, w⟩ L n

/-- Three stores into the three column slices, made after any others, leave at (g, e) the payload of the slice
    that holds column e. -/
theorem canon_cols {Val : EltTy → Type} [∀ e, Nonempty (Val e)]
    (inb2 : ∀ a, (![0, 256] : Fin 2 → Nat) a + (![512, 128] : Fin 2 → Nat) a ≤ S512x384.size a)
    (inb1 : ∀ a, (![0, 128] : Fin 2 → Nat) a + (![512, 128] : Fin 2 → Nat) a ≤ S512x384.size a)
    (inb0 : ∀ a, (![0, 0] : Fin 2 → Nat) a + (![512, 128] : Fin 2 → Nat) a ≤ S512x384.size a)
    (w2 w1 w0 : S512x128.Idx → Val .f32) (L : List (View.Piece Val S512x384 .f32)) (g : Fin 512) (e : Fin 384) :
    View.canon ((⟨Rect.unit (s := S512x384) ![0, 256] ![512, 128] inb2, w2⟩ : View.Piece Val S512x384 .f32)
        :: ⟨Rect.unit (s := S512x384) ![0, 128] ![512, 128] inb1, w1⟩
        :: ⟨Rect.unit (s := S512x384) ![0, 0] ![512, 128] inb0, w0⟩ :: L) (ix2 g e)
      = if h : e.val < 128 then w0 (ix2 g ⟨e.val, h⟩)
        else if h' : e.val < 256 then w1 (ix2 g ⟨e.val - 128, by omega⟩)
        else w2 (ix2 g ⟨e.val - 256, by have := e.isLt; omega⟩) := by
  have he := e.isLt
  have m2 := mem_cols 256 inb2 g e
  have m1 := mem_cols 128 inb1 g e
  by_cases h : e.val < 128
  · rw [dif_pos h]
    exact canon_at_third ⟨Rect.unit (s := S512x384) ![0, 256] ![512, 128] inb2, w2⟩
      ⟨Rect.unit (s := S512x384) ![0, 128] ![512, 128] inb1, w1⟩ (Rect.unit (s := S512x384) ![0, 0] ![512, 128] inb0) w0 L
      (ix2 g ⟨e.val, h⟩) (ix2 g e) (cols_emb 0 inb0 g ⟨e.val, h⟩ e (by simp))
      (fun hm => by have := m2.mp hm; omega) (fun hm => by have := m1.mp hm; omega)
  · rw [dif_neg h]
    by_cases h' : e.val < 256
    · rw [dif_pos h']
      exact canon_at_second ⟨Rect.unit (s := S512x384) ![0, 256] ![512, 128] inb2, w2⟩
        (Rect.unit (s := S512x384) ![0, 128] ![512, 128] inb1) w1 _
        (ix2 g ⟨e.val - 128, by omega⟩) (ix2 g e) (cols_emb 128 inb1 g ⟨e.val - 128, by omega⟩ e (by simp; omega))
        (fun hm => by have := m2.mp hm; omega)
    · rw [dif_neg h']
      exact canon_at_first (Rect.unit (s := S512x384) ![0, 256] ![512, 128] inb2) w2 _
        (ix2 g ⟨e.val - 256, by omega⟩) (ix2 g e) (cols_emb 256 inb2 g ⟨e.val - 256, by omega⟩ e (by simp; omega))

/-- Adding to zero. -/
theorem zero_add_of_eq {a b : EReal} (h : a = 0) : a + b = b := by rw [h, zero_add]

/-- The zero block the first point stores. -/
theorem zero_block_apply (y : S512x384.Idx) : (k4_pay1 (F := Ideal)) y = 0 := by
  unfold k4_pay1
  show Ideal.ofBits .f32 0x00000000#32 = 0
  exact Ideal.ofBits_zero_f32

/-- The tile's contribution to entry (g, e): over the tile's nodes, the indicator times the feature. -/
def tileSum (x0 : IVec S2000x1 32) (x1 x2 x3 : FVec Ideal S2000x128 .bf16) (g e : Nat) : EReal :=
  ∑ n : Fin 2000, hot (x0 (ix2 n 0)) g * pickTile x1 x2 x3 n e

theorem tileSum_lt128 (x0 : IVec S2000x1 32) (x1 x2 x3 : FVec Ideal S2000x128 .bf16) (g e : Nat) (h : e < 128) :
    tileSum x0 x1 x2 x3 g e = ∑ n : Fin 2000, hot (x0 (ix2 n 0)) g * x1 (ix2 n ⟨e, h⟩) := by
  unfold tileSum pickTile
  exact Finset.sum_congr rfl fun n _ => by rw [dif_pos h]

theorem tileSum_lt256 (x0 : IVec S2000x1 32) (x1 x2 x3 : FVec Ideal S2000x128 .bf16) (g e : Nat) (h : ¬e < 128) (h' : e < 256) :
    tileSum x0 x1 x2 x3 g e = ∑ n : Fin 2000, hot (x0 (ix2 n 0)) g * x2 (ix2 n ⟨e - 128, by omega⟩) := by
  unfold tileSum pickTile
  exact Finset.sum_congr rfl fun n _ => by rw [dif_neg h, dif_pos h']

theorem tileSum_lt384 (x0 : IVec S2000x1 32) (x1 x2 x3 : FVec Ideal S2000x128 .bf16) (g e : Nat) (h : ¬e < 128) (h' : ¬e < 256)
    (h'' : e < 384) :
    tileSum x0 x1 x2 x3 g e = ∑ n : Fin 2000, hot (x0 (ix2 n 0)) g * x3 (ix2 n ⟨e - 256, by omega⟩) := by
  unfold tileSum pickTile
  exact Finset.sum_congr rfl fun n _ => by rw [dif_neg h, dif_neg h', dif_pos h'']

/-- A LATER POINT adds the tile's contribution to what the block held. -/
theorem outB_apply (c : Dev nD) (i : grid4.Coords) (a1 : Memref sig .tc .vmem S2000x1 .i32) (h1 : a1.IsWhole)
    (a2 : Memref sig .tc .vmem S2000x128 .bf16) (h2 : a2.IsWhole) (a3 : Memref sig .tc .vmem S2000x128 .bf16) (h3 : a3.IsWhole)
    (a4 : Memref sig .tc .vmem S2000x128 .bf16) (h4 : a4.IsWhole) (a5 : Memref sig .tc .vmem S512x384 .f32) (h5 : a5.IsWhole)
    (hc : ¬cond4_0 i) (x0 : Vec Ideal S2000x1 .i32) (x1 x2 x3 : Vec Ideal S2000x128 .bf16) (xo : Vec Ideal S512x384 .f32)
    (g : Fin 512) (e : Fin 384) :
    out4_B_4 (F := Ideal) c i a1 h1 a2 h2 a3 h3 a4 h4 a5 h5 hc x0 x1 x2 x3 xo (ix2 g e)
      = xo (ix2 g e) + tileSum x0 x1 x2 x3 g.val e.val := by
  unfold out4_B_4
  rw [View.read_writes_eq_canon _ _ _ (cover4_B_4 c i a1 h1 a2 h2 a3 h3 a4 h4 a5 h5 hc x0 x1 x2 x3 xo)]
  unfold kernelRun4_B
  dsimp only
  sl_unfold_words
  simp only [View.readAt_eq_ld, h1.read_unread, h2.read_unread, h3.read_unread, h4.read_unread, h5.read_unread,
    View.ld_unit_zero (S := S2000x1) hz2, View.ld_unit_zero (S := S2000x128) hz2]
  rw [canon_cols _ _ _ _ _ _ _ g e]
  have he := e.isLt
  by_cases h : e.val < 128
  · rw [dif_pos h, pay3_apply, tileSum_lt128 x0 x1 x2 x3 g.val e.val h]
    exact congrArg (· + _) (congrArg xo (cols_emb 0 inb_S512x384_S512x128_0_0 g ⟨e.val, h⟩ e (by simp)))
  · rw [dif_neg h]
    by_cases h' : e.val < 256
    · rw [dif_pos h', pay4_apply, tileSum_lt256 x0 x1 x2 x3 g.val e.val h h']
      exact congrArg (· + _) (congrArg xo (cols_emb 128 inb_S512x384_S512x128_0_128 g ⟨e.val - 128, by omega⟩ e (by simp; omega)))
    · rw [dif_neg h', pay5_apply, tileSum_lt384 x0 x1 x2 x3 g.val e.val h h' he]
      exact congrArg (· + _) (congrArg xo (cols_emb 256 inb_S512x384_S512x128_0_256 g ⟨e.val - 256, by omega⟩ e (by simp; omega)))

/-- After the zero store alone every entry of the block is zero. -/
theorem canon_zero (y : S512x384.Idx) :
    View.canon [(⟨Rect.unit (s := S512x384) ![0, 0] S512x384.size inb_S512x384_S512x384_0_0, k4_pay1 (F := Ideal)⟩
      : View.Piece (Elt Ideal) S512x384 .f32)] y = 0 := by
  rw [View.canon_unit_zero hz2]; exact zero_block_apply y

/-- THE FIRST POINT stores zeros and adds the tile's contribution: it leaves the tile's contribution. -/
theorem outA_apply (c : Dev nD) (i : grid4.Coords) (a1 : Memref sig .tc .vmem S2000x1 .i32) (h1 : a1.IsWhole)
    (a2 : Memref sig .tc .vmem S2000x128 .bf16) (h2 : a2.IsWhole) (a3 : Memref sig .tc .vmem S2000x128 .bf16) (h3 : a3.IsWhole)
    (a4 : Memref sig .tc .vmem S2000x128 .bf16) (h4 : a4.IsWhole) (a5 : Memref sig .tc .vmem S512x384 .f32) (h5 : a5.IsWhole)
    (hc : cond4_0 i) (x0 : Vec Ideal S2000x1 .i32) (x1 x2 x3 : Vec Ideal S2000x128 .bf16)
    (g : Fin 512) (e : Fin 384) :
    out4_A_4 (F := Ideal) c i a1 h1 a2 h2 a3 h3 a4 h4 a5 h5 hc x0 x1 x2 x3 (ix2 g e)
      = tileSum x0 x1 x2 x3 g.val e.val := by
  unfold out4_A_4
  rw [View.read_writes_eq_canon _ _ _ (cover4_A_4 c i a1 h1 a2 h2 a3 h3 a4 h4 a5 h5 hc x0 x1 x2 x3)]
  unfold kernelRun4_A
  dsimp only
  sl_unfold_words
  simp only [View.readAt_eq_ld, h1.read_unread, h2.read_unread, h3.read_unread, h4.read_unread,
    View.ld_unit_zero (S := S2000x1) hz2, View.ld_unit_zero (S := S2000x128) hz2, View.readCov_eq_canon']
  rw [canon_cols _ _ _ _ _ _ _ g e]
  have he := e.isLt
  have n0 : ¬e.val < 128 → (ix2 g e : S512x384.Idx) ∉ (Rect.unit (s := S512x384) ![0, 0] ![512, 128] inb_S512x384_S512x128_0_0).set :=
    fun h hm => by have := (mem_cols 0 inb_S512x384_S512x128_0_0 g e).mp hm; omega
  have n1 : ¬e.val < 256 → (ix2 g e : S512x384.Idx) ∉ (Rect.unit (s := S512x384) ![0, 128] ![512, 128] inb_S512x384_S512x128_0_128).set :=
    fun h hm => by have := (mem_cols 128 inb_S512x384_S512x128_0_128 g e).mp hm; omega
  by_cases h : e.val < 128
  · rw [dif_pos h, pay3_apply, tileSum_lt128 x0 x1 x2 x3 g.val e.val h]
    refine zero_add_of_eq ?_
    exact canon_zero _
  · rw [dif_neg h]
    by_cases h' : e.val < 256
    · rw [dif_pos h', pay4_apply, tileSum_lt256 x0 x1 x2 x3 g.val e.val h h']
      refine zero_add_of_eq ?_
      show View.canon _ ((Rect.unit (s := S512x384) ![0, 128] ![512, 128] inb_S512x384_S512x128_0_128).emb
        (ix2 g ⟨e.val - 128, _⟩)) = 0
      rw [cols_emb 128 inb_S512x384_S512x128_0_128 g ⟨e.val - 128, by omega⟩ e (by simp; omega)]
      exact (canon_skip (Rect.unit (s := S512x384) ![0, 0] ![512, 128] inb_S512x384_S512x128_0_0) _ _ _ (n0 h)).trans
        (canon_zero _)
    · rw [dif_neg h', pay5_apply, tileSum_lt384 x0 x1 x2 x3 g.val e.val h h' he]
      refine zero_add_of_eq ?_
      show View.canon _ ((Rect.unit (s := S512x384) ![0, 256] ![512, 128] inb_S512x384_S512x128_0_256).emb
        (ix2 g ⟨e.val - 256, _⟩)) = 0
      rw [cols_emb 256 inb_S512x384_S512x128_0_256 g ⟨e.val - 256, by omega⟩ e (by simp; omega)]
      exact (canon_skip (Rect.unit (s := S512x384) ![0, 128] ![512, 128] inb_S512x384_S512x128_0_128) _ _ _ (n1 h')).trans
        ((canon_skip (Rect.unit (s := S512x384) ![0, 0] ![512, 128] inb_S512x384_S512x128_0_0) _ _ _ (n0 h)).trans
          (canon_zero _))

/-! ## The tiles the windows read -/

-- the TensorCore's buffer contents when a region is entered (any contents)
variable (V : (c : Dev nD) → (b : Ref sig .tc) → Buf (Elt Ideal) ((c : Thread nD τ).loc b))

/-- The four arrays the region reads, by their literal types: the graph numbers and the three layers' features. -/
abbrev bArr (c : Dev nD) : IVec S50000x1 32 := V c main_v60
abbrev hArr1 (c : Dev nD) : FVec Ideal S50000x128 .bf16 := V c main_v57
abbrev hArr2 (c : Dev nD) : FVec Ideal S50000x128 .bf16 := V c main_v58
abbrev hArr3 (c : Dev nD) : FVec Ideal S50000x128 .bf16 := V c main_v59

/-- Their tiles at point `t`: rows 2000·t … 2000·t + 1999. -/
abbrev bTile (c : Dev nD) (t : Fin cfg4.N) : IVec S2000x1 32 := iblk4 V c 0 t
abbrev hTile1 (c : Dev nD) (t : Fin cfg4.N) : FVec Ideal S2000x128 .bf16 := iblk4 V c 1 t
abbrev hTile2 (c : Dev nD) (t : Fin cfg4.N) : FVec Ideal S2000x128 .bf16 := iblk4 V c 2 t
abbrev hTile3 (c : Dev nD) (t : Fin cfg4.N) : FVec Ideal S2000x128 .bf16 := iblk4 V c 3 t

/-- The index maps, decided over the grid: an input's tile at point t is row block t; the output block never moves. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

theorem bTile_apply (c : Dev nD) (t : Fin cfg4.N) (k : Fin 2000) (h : 2000 * t.val + k.val < 50000) :
    bTile V c t (ix2 k 0) = bArr V c (ix2 ⟨2000 * t.val + k.val, h⟩ 0) := by
  obtain ⟨e0, e1, -⟩ := idx_facts t
  show V c main_v60 (((cfg4.win 0).blk t).view.emb (ix2 k 0)) = V c main_v60 (ix2 ⟨2000 * t.val + k.val, h⟩ 0)
  refine congrArg (V c main_v60) (funext fun a => Fin.ext ?_)
  match a with
  | ⟨0, _⟩ => show win4_0.index t (0 : Fin 2) * 2000 + 1 * k.val = 2000 * t.val + k.val; rw [e0]; omega
  | ⟨1, _⟩ => show win4_0.index t (1 : Fin 2) * 1 + 1 * 0 = 0; rw [e1]

theorem hTile1_apply (c : Dev nD) (t : Fin cfg4.N) (k : Fin 2000) (j : Fin 128) (h : 2000 * t.val + k.val < 50000) :
    hTile1 V c t (ix2 k j) = hArr1 V c (ix2 ⟨2000 * t.val + k.val, h⟩ j) := by
  obtain ⟨-, -, e0, e1, -⟩ := idx_facts t
  show V c main_v57 (((cfg4.win 1).blk t).view.emb (ix2 k j)) = V c main_v57 (ix2 ⟨2000 * t.val + k.val, h⟩ j)
  refine congrArg (V c main_v57) (funext fun a => Fin.ext ?_)
  match a with
  | ⟨0, _⟩ => show win4_1.index t (0 : Fin 2) * 2000 + 1 * k.val = 2000 * t.val + k.val; rw [e0]; omega
  | ⟨1, _⟩ => show win4_1.index t (1 : Fin 2) * 128 + 1 * j.val = j.val; rw [e1]; omega

theorem hTile2_apply (c : Dev nD) (t : Fin cfg4.N) (k : Fin 2000) (j : Fin 128) (h : 2000 * t.val + k.val < 50000) :
    hTile2 V c t (ix2 k j) = hArr2 V c (ix2 ⟨2000 * t.val + k.val, h⟩ j) := by
  obtain ⟨-, -, -, -, e0, e1, -⟩ := idx_facts t
  show V c main_v58 (((cfg4.win 2).blk t).view.emb (ix2 k j)) = V c main_v58 (ix2 ⟨2000 * t.val + k.val, h⟩ j)
  refine congrArg (V c main_v58) (funext fun a => Fin.ext ?_)
  match a with
  | ⟨0, _⟩ => show win4_2.index t (0 : Fin 2) * 2000 + 1 * k.val = 2000 * t.val + k.val; rw [e0]; omega
  | ⟨1, _⟩ => show win4_2.index t (1 : Fin 2) * 128 + 1 * j.val = j.val; rw [e1]; omega

theorem hTile3_apply (c : Dev nD) (t : Fin cfg4.N) (k : Fin 2000) (j : Fin 128) (h : 2000 * t.val + k.val < 50000) :
    hTile3 V c t (ix2 k j) = hArr3 V c (ix2 ⟨2000 * t.val + k.val, h⟩ j) := by
  obtain ⟨-, -, -, -, -, -, e0, e1, -⟩ := idx_facts t
  show V c main_v59 (((cfg4.win 3).blk t).view.emb (ix2 k j)) = V c main_v59 (ix2 ⟨2000 * t.val + k.val, h⟩ j)
  refine congrArg (V c main_v59) (funext fun a => Fin.ext ?_)
  match a with
  | ⟨0, _⟩ => show win4_3.index t (0 : Fin 2) * 2000 + 1 * k.val = 2000 * t.val + k.val; rw [e0]; omega
  | ⟨1, _⟩ => show win4_3.index t (1 : Fin 2) * 128 + 1 * j.val = j.val; rw [e1]; omega

/-- The contribution of the tile at point t is the contribution of nodes 2000·t … 2000·t + 1999. -/
theorem tileSum_eq (c : Dev nD) (t : Fin cfg4.N) (g e : Nat) :
    tileSum (bTile V c t) (hTile1 V c t) (hTile2 V c t) (hTile3 V c t) g e
      = ∑ k : Fin 2000, nodeTerm (bArr V c) (hArr1 V c) (hArr2 V c) (hArr3 V c) g e (2000 * t.val + k.val) := by
  have hN : t.val < 25 := lt_of_lt_of_eq t.isLt (show cfg4.N = 25 from N_4)
  unfold tileSum
  refine Finset.sum_congr rfl fun k _ => ?_
  have hk : 2000 * t.val + k.val < 50000 := by have := k.isLt; omega
  unfold nodeTerm
  rw [dif_pos hk, bTile_apply V c t k hk]
  refine congrArg (hot (bArr V c (ix2 ⟨2000 * t.val + k.val, hk⟩ 0)) g * ·) ?_
  unfold pickTile pick
  by_cases h : e < 128
  · rw [dif_pos h, dif_pos h, hTile1_apply V c t k ⟨e, h⟩ hk]
  · rw [dif_neg h, dif_neg h]
    by_cases h' : e < 256
    · rw [dif_pos h', dif_pos h', hTile2_apply V c t k ⟨e - 128, by omega⟩ hk]
    · rw [dif_neg h', dif_neg h']
      by_cases h'' : e < 384
      · rw [dif_pos h'', dif_pos h'', hTile3_apply V c t k ⟨e - 256, by omega⟩ hk]
      · rw [dif_neg h'', dif_neg h'']

/-! ## The block after each point, and the array after the last -/

/-- THE INVARIANT. After point n the block's entry (g, e) is the pooling restricted to the first n + 1 tiles: the
    first point leaves its tile's contribution, every later point adds its own to what the point before left. -/
theorem outsAt_eq (c : Dev nD) : ∀ (n : ℕ) (hn : n < cfg4.N) (g : Fin 512) (e : Fin 384),
    (outsAt4 V c n hn : Vec Ideal S512x384 .f32) (ix2 g e)
      = poolUpTo (bArr V c) (hArr1 V c) (hArr2 V c) (hArr3 V c) (n + 1) g.val e.val
  | 0, hn, g, e => by
    rw [poolUpTo_succ, poolUpTo_zero, zero_add, ← tileSum_eq V c ⟨0, hn⟩ g.val e.val]
    refine (congrFun (outsAt4_A V c ⟨0, hn⟩ rfl) (ix2 g e)).trans ?_
    exact outA_apply c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) (ms4_3 ⟨0, hn⟩) (hs4_3 ⟨0, hn⟩) (ms4_4 ⟨0, hn⟩) (hs4_4 ⟨0, hn⟩)
      ((hcond4_0 ⟨0, hn⟩).mpr rfl) (iblk4 V c 0 ⟨0, hn⟩) (iblk4 V c 1 ⟨0, hn⟩) (iblk4 V c 2 ⟨0, hn⟩) (iblk4 V c 3 ⟨0, hn⟩) g e
  | n + 1, hn, g, e => by
    have hN : cfg4.N = 25 := N_4
    have hB : ¬(⟨n + 1, hn⟩ : Fin cfg4.N).val % 25 = 0 := by dsimp only; omega
    rw [poolUpTo_succ, ← tileSum_eq V c ⟨n + 1, hn⟩ g.val e.val, ← outsAt_eq c n (Nat.lt_of_succ_lt hn) g e]
    refine (congrFun (outsAt4_B V c ⟨n + 1, hn⟩ hB) (ix2 g e)).trans ?_
    exact outB_apply c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩)
      (fun h => hB ((hcond4_0 ⟨n + 1, hn⟩).mp h)) (iblk4 V c 0 ⟨n + 1, hn⟩) (iblk4 V c 1 ⟨n + 1, hn⟩) (iblk4 V c 2 ⟨n + 1, hn⟩)
      (iblk4 V c 3 ⟨n + 1, hn⟩)
      (outsAt4 V c ((⟨n + 1, hn⟩ : Fin cfg4.N).val - 1) (Nat.lt_of_le_of_lt (Nat.sub_le _ _) (⟨n + 1, hn⟩ : Fin cfg4.N).isLt)) g e

/-- The pooling of the four entry arrays, as contents of the output array. -/
abbrev poolArr (c : Dev nD) : Buf (Elt Ideal) ((c : Thread nD τ).loc main_v61) :=
  poolFn (bArr V c) (hArr1 V c) (hArr2 V c) (hArr3 V c)

/-- After the last point the block is the pooling. -/
theorem last_block (c : Dev nD) (hn : 24 < cfg4.N) : (outsAt4 V c 24 hn : Vec Ideal S512x384 .f32) = poolArr V c := by
  funext y
  obtain ⟨g, e, rfl⟩ : ∃ (g : Fin 512) (e : Fin 384), y = ix2 g e := ⟨y 0, y 1, eq_ix2 y⟩
  rw [outsAt_eq V c 24 hn g e]
  exact poolUpTo_all (bArr V c) (hArr1 V c) (hArr2 V c) (hArr3 V c) (ix2 g e)

/-- The one write-back, at the last point, writes the pooling: the block at index (0, 0) is the whole array. -/
theorem flushed_eq (c : Dev nD) (t : Fin cfg4.N) (hf : (cfg4.win 4).flush t = true) :
    (dat4 V c).flushed 4 t = ((cfg4.win 4).blk t).view.read (Elt Ideal) (poolArr V c) := by
  have hN : cfg4.N = 25 := N_4
  have h24 : t.val = 24 := by have := (flush4_4 t).mp hf; have := t.isLt; omega
  obtain ⟨-, -, -, -, -, -, -, -, e0, e1⟩ := idx_facts t
  obtain ⟨n, hn⟩ := t
  dsimp only at h24
  subst h24
  show (cfg4.win 4).cut (grid4.coords ⟨24, hn⟩) ((dat4 V c).after 4 ⟨24, hn⟩) = _
  rw [after4_4, last_block V c hn]
  have hz' : (fun a => win4_4.index ⟨24, hn⟩ a * main_v61.ty.shape.size a) = fun _ => 0 := funext fun a => by
    match a with
    | ⟨0, _⟩ => show win4_4.index ⟨24, hn⟩ (0 : Fin 2) * 512 = 0; rw [e0]
    | ⟨1, _⟩ => show win4_4.index ⟨24, hn⟩ (1 : Fin 2) * 384 = 0; rw [e1]
  exact (Memref.read_access_unit_zero (Elt Ideal) main_v61 hz' (fun a => by rw [congrFun hz' a]; simp) (poolArr V c)).symm

/-- Region 4 (pooling accumulated over the 25 node tiles) leaves in its output array the pooling function of the
    arrays it reads: the integer column of graph numbers and the three layers' features. -/
theorem pool_arr (c : Dev nD) :
    ((dat4 V c).arrAt 4 cfg4.N : S512x384.Idx → EReal)
      = poolFn (V c main_v60) (V c main_v57) (V c main_v58) (V c main_v59) := by
  refine (dat4 V c).arrAt_eq_of_cover 4 (poolArr V c) (flushed_eq V c) fun i => ?_
  have h24 : 24 < cfg4.N := by rw [show cfg4.N = 25 from N_4]; decide
  obtain ⟨-, -, -, -, -, -, -, -, e0, e1⟩ := idx_facts ⟨24, h24⟩
  refine ⟨⟨24, h24⟩, (flush4_4 ⟨24, h24⟩).mpr rfl, ?_⟩
  show i ∈ ((View.whole main_v61).slice (win4_4.rect ⟨24, h24⟩)).set
  rw [View.set_slice_whole, Rect.mem_set_unit]
  intro a
  have h0 : (i 0 : Nat) < 512 := (i 0).isLt
  have h1 : (i 1 : Nat) < 384 := (i 1).isLt
  match a with
  | ⟨0, _⟩ =>
    show win4_4.index ⟨24, h24⟩ (0 : Fin 2) * 512 ≤ (i 0 : Nat) ∧ (i 0 : Nat) < win4_4.index ⟨24, h24⟩ (0 : Fin 2) * 512 + 512
    rw [e0]; omega
  | ⟨1, _⟩ =>
    show win4_4.index ⟨24, h24⟩ (1 : Fin 2) * 384 ≤ (i 1 : Nat) ∧ (i 1 : Nat) < win4_4.index ⟨24, h24⟩ (1 : Fin 2) * 384 + 384
    rw [e1]; omega

end Cert.Gin

end
-- ==== Proof.PoolRef.lean ====
/-
  The reference's pooling, read at an index.

  Each layer's features are pooled by a scatter-add into a 512 x 128 array of zeros: node n's row of 128 features is
  added to the row named by the node's graph number, read as a signed integer, and is dropped when that number is
  outside 0..511. So element (g, e) of a pooled array is the sum, over ALL nodes n, of the indicator that node n's
  graph number is the word of g times feature e of node n: a node contributes to at most one row. The three pooled
  arrays are then joined side by side into 512 x 384, and column c of the join is column c, c - 128 or c - 256 of the
  first, second or third array according to which span of 128 columns holds c. Together this is the pooling function
  of the specification, whose feature selector makes exactly that three-way choice.

  The three layers' outputs enter only as abstract arrays: nothing here depends on how they are computed.
-/
import proofs.«431365_j395136991277_1_alg».proof.Proof.Gen.ReferenceIdeal.Read
import proofs.«431365_j395136991277_1_alg».proof.Proof.Spec
import Idealize.ShloMosaic.Lib.StableHlo.Predicate

set_option maxRecDepth 16384

noncomputable section

open scoped BigOperators

namespace Cert.Gin

open Idealize.ShloMosaic Idealize.ShloMosaic.TcCoe Idealize.ShloMosaic.ValueIdx
open Cert.ReferenceIdeal Cert.ReferenceIdeal.Read

/-- The pooling scatter's dimension numbers: one scatter index per node (the index vector is the size-one second axis
    of the index column), written to operand axis 0, which is inserted; the updates' axis 1 is the window on operand
    axis 1. -/
private abbrev dS : ScatterDims S512x128 S50000x1 S50000x128 := scatter_S512x128_S50000x1_S50000x128_1_0_0_1

/-- On the row axis the window starts at the node's entry of the index column, read signed. -/
private theorem start_zero (j : S50000x128.Idx) (idx : IVec S50000x1 32) :
    dS.start j idx (0 : Fin S512x128.rank) = (idx (ix2 (j 0) 0)).toInt := by
  unfold ScatterDims.start
  rw [dif_pos (show (0 : Fin S512x128.rank) ∈ dS.scatterDimsToOperandDims from List.mem_singleton.mpr rfl)]
  have hsi : dS.siIdx j ⟨List.idxOf (0 : Fin S512x128.rank) dS.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the feature axis, which no scatter index names, the window starts at 0. -/
private theorem start_one (j : S50000x128.Idx) (idx : IVec S50000x1 32) :
    dS.start j idx (1 : Fin S512x128.rank) = 0 := by
  unfold ScatterDims.start
  rw [dif_neg (show ¬ (1 : Fin S512x128.rank) ∈ dS.scatterDimsToOperandDims by decide)]

/-- The row axis is inserted: the window has no extent there. -/
private theorem window_zero (j : S50000x128.Idx) : dS.window j (0 : Fin S512x128.rank) = 0 := by
  unfold ScatterDims.window
  rw [dif_neg (show ¬ (0 : Fin S512x128.rank) ∈ dS.sKept by decide)]

/-- On the feature axis the window coordinate is the update's feature. -/
private theorem window_one (j : S50000x128.Idx) : dS.window j (1 : Fin S512x128.rank) = (j 1).val := by
  unfold ScatterDims.window
  rw [dif_pos (show (1 : Fin S512x128.rank) ∈ dS.sKept by decide)]
  rfl

/-- A word read signed is a number below 512 exactly when it is that number's word. -/
private theorem word_iff (w : BitVec 32) (v : Nat) (hv : v < 512) : w.toInt = (v : Int) ↔ w = BitVec.ofNat 32 v := by
  have hs : (BitVec.ofNat 32 v).toInt = (v : Int) := StableHlo.Predicate.toInt_ofNat_small v (by omega)
  constructor
  · intro h; exact BitVec.eq_of_toInt_eq (h.trans hs.symm)
  · rintro rfl; exact hs

/-- Update (n, d) lands on element (g, e) of the operand exactly when node n's graph number, read signed, is g and
    d = e; a graph number outside 0..511 lands nowhere. -/
private theorem resultIdx_iff (idx : IVec S50000x1 32) (j : S50000x128.Idx) (i : S512x128.Idx) :
    dS.resultIdx? j idx = some i ↔ (idx (ix2 (j 0) 0)).toInt = ((i 0).val : Int) ∧ (j 1).val = (i 1).val := by
  have hi0 : (i 0).val < 512 := idx2_lt0 i
  have hi1 : (i 1).val < 128 := idx2_lt1 i
  have hj1 : (j 1).val < 128 := idx2_lt1 j
  unfold ScatterDims.resultIdx?
  split
  · next h =>
    have h0 := h 0
    have h1 := h 1
    rw [start_zero, window_zero] at h0
    rw [start_one, window_one] at h1
    constructor
    · intro hf
      have hf' := Option.some.inj hf
      have e0 := congrArg (fun f : S512x128.Idx => (f 0).val) hf'
      have e1 := congrArg (fun f : S512x128.Idx => (f 1).val) hf'
      dsimp only at e0 e1
      rw [start_zero, window_zero] at e0
      rw [start_one, window_one] at e1
      omega
    · rintro ⟨e0, e1⟩
      congr 1
      funext a
      refine Fin.ext ?_
      match a with
      | ⟨0, _⟩ =>
        show (dS.start j idx (0 : Fin S512x128.rank) + (dS.window j (0 : Fin S512x128.rank) : Int)).toNat = (i 0).val
        rw [start_zero, window_zero]; omega
      | ⟨1, _⟩ =>
        show (dS.start j idx (1 : Fin S512x128.rank) + (dS.window j (1 : Fin S512x128.rank) : Int)).toNat = (i 1).val
        rw [start_one, window_one]; omega
  · next h =>
    constructor
    · intro hf; cases hf
    · rintro ⟨e0, e1⟩
      exfalso; apply h
      intro a
      match a with
      | ⟨0, _⟩ =>
        show 0 ≤ dS.start j idx (0 : Fin S512x128.rank) + (dS.window j (0 : Fin S512x128.rank) : Int) ∧
          dS.start j idx (0 : Fin S512x128.rank) + (dS.window j (0 : Fin S512x128.rank) : Int) < ((512 : Nat) : Int)
        rw [start_zero, window_zero]; omega
      | ⟨1, _⟩ =>
        show 0 ≤ dS.start j idx (1 : Fin S512x128.rank) + (dS.window j (1 : Fin S512x128.rank) : Int) ∧
          dS.start j idx (1 : Fin S512x128.rank) + (dS.window j (1 : Fin S512x128.rank) : Int) < ((128 : Nat) : Int)
        rw [start_one, window_one]; omega

/-- The same with every coordinate a literal-size number and the graph number compared as a word. -/
private theorem lands_iff (idx : IVec S50000x1 32) (n : Fin 50000) (d : Fin 128) (g : Fin 512) (e : Fin 128) :
    dS.resultIdx? (ix2 n d) idx = some (ix2 g e) ↔ idx (ix2 n 0) = BitVec.ofNat 32 g.val ∧ d = e := by
  rw [resultIdx_iff]
  show (idx (ix2 n 0)).toInt = (g.val : Int) ∧ d.val = e.val ↔ _
  rw [word_iff _ _ g.isLt, Fin.val_inj]

/-- THE SCATTER-ADD READ AT (g, e): the operand there plus, over all nodes, the indicator that the node's graph number
    is g times the node's feature e. -/
private theorem scatter_apply (z : S512x128.Idx → EReal) (idx : IVec S50000x1 32) (upd : S50000x128.Idx → EReal)
    (g : Fin 512) (e : Fin 128) :
    Ideal.hostScatterAdd dS z idx upd (ix2 g e)
      = z (ix2 g e) + ∑ n : Fin 50000, hot (idx (ix2 n 0)) g.val * upd (ix2 n e) := by
  unfold Ideal.hostScatterAdd
  rw [Finset.sum_filter, sum_idx2]
  refine congrArg (fun s => z (ix2 g e) + s) (Finset.sum_congr rfl fun n _ => ?_)
  by_cases hw : idx (ix2 n 0) = BitVec.ofNat 32 g.val
  · rw [hot, if_pos hw, one_mul, Finset.sum_eq_single e]
    · rw [if_pos ((lands_iff idx n e g e).2 ⟨hw, rfl⟩)]
    · intro d _ hde
      rw [if_neg (fun h => hde ((lands_iff idx n d g e).1 h).2)]
    · intro h; exact absurd (Finset.mem_univ e) h
  · rw [hot, if_neg hw, zero_mul]
    exact Finset.sum_eq_zero fun d _ => if_neg (fun h => hw ((lands_iff idx n d g e).1 h).1)

/-- The three pooled arrays, each with its shape, in the order they are joined. -/
private abbrev pieces (z1 z2 z3 : S512x128.Idx → EReal) (b : IVec S50000x1 32) (h1 h2 h3 : S50000x128.Idx → EReal) :
    List ((s : Shape) × (s.Idx → EReal)) :=
  [⟨S512x128, Ideal.hostScatterAdd dS z1 b h1⟩, ⟨S512x128, Ideal.hostScatterAdd dS z2 b h2⟩,
    ⟨S512x128, Ideal.hostScatterAdd dS z3 b h3⟩]

/-- THE JOIN OF THE THREE POOLED ARRAYS IS THE POOLING FUNCTION, over abstract layer outputs h1, h2, h3, an abstract
    column of graph numbers and any three operands that are zero everywhere. -/
private theorem pool_abstract (z1 z2 z3 : S512x128.Idx → EReal) (hz1 : ∀ i, z1 i = 0) (hz2 : ∀ i, z2 i = 0)
    (hz3 : ∀ i, z3 i = 0) (b : IVec S50000x1 32) (h1 h2 h3 : S50000x128.Idx → EReal) :
    concatenate S512x384 1 [⟨S512x128, Ideal.hostScatterAdd dS z1 b h1⟩, ⟨S512x128, Ideal.hostScatterAdd dS z2 b h2⟩,
        ⟨S512x128, Ideal.hostScatterAdd dS z3 b h3⟩] Gen.concatenates_S512x128_S512x128_S512x128_S512x384_d1
      = poolFn b h1 h2 h3 := by
  funext j
  obtain ⟨g, c, rfl⟩ : ∃ (g : Fin 512) (c : Fin 384), j = ix2 g c := ⟨j 0, j 1, eq_ix2 j⟩
  show _ = ∑ n : Fin 50000, hot (b (ix2 n 0)) g.val * pick h1 h2 h3 n c.val
  by_cases hc1 : c.val < 128
  · -- columns 0..127: the first pooled array at the same column
    refine (concatenate_apply_piece (1 : Fin S512x384.rank) (pieces z1 z2 z3 b h1 h2 h3)
      Gen.concatenates_S512x128_S512x128_S512x128_S512x384_d1
      (ix2 g c) 0 (show (0 : Nat) < 3 by decide) S512x128 (Ideal.hostScatterAdd dS z1 b h1) rfl rfl 0 rfl
      (ix2 g ⟨c.val, hc1⟩)
      (fun a ha => by match a with | ⟨0, _⟩ => rfl | ⟨1, _⟩ => exact absurd rfl ha)
      (Nat.zero_add _)).trans ?_
    rw [scatter_apply, hz1, zero_add]
    refine Finset.sum_congr rfl fun n _ => ?_
    unfold pick
    rw [dif_pos hc1]
  · by_cases hc2 : c.val < 256
    · -- columns 128..255: the second pooled array at the column less 128
      refine (concatenate_apply_piece (1 : Fin S512x384.rank) (pieces z1 z2 z3 b h1 h2 h3)
        Gen.concatenates_S512x128_S512x128_S512x128_S512x384_d1
        (ix2 g c) 1 (show (1 : Nat) < 3 by decide) S512x128 (Ideal.hostScatterAdd dS z2 b h2) rfl rfl 128 rfl
        (ix2 g ⟨c.val - 128, by omega⟩)
        (fun a ha => by match a with | ⟨0, _⟩ => rfl | ⟨1, _⟩ => exact absurd rfl ha)
        (by show 128 + (c.val - 128) = c.val; omega)).trans ?_
      rw [scatter_apply, hz2, zero_add]
      refine Finset.sum_congr rfl fun n _ => ?_
      unfold pick
      rw [dif_neg hc1, dif_pos hc2]
    · -- columns 256..383: the third pooled array at the column less 256
      have hc3 : c.val < 384 := c.isLt
      refine (concatenate_apply_piece (1 : Fin S512x384.rank) (pieces z1 z2 z3 b h1 h2 h3)
        Gen.concatenates_S512x128_S512x128_S512x128_S512x384_d1
        (ix2 g c) 2 (show (2 : Nat) < 3 by decide) S512x128 (Ideal.hostScatterAdd dS z3 b h3) rfl rfl 256 rfl
        (ix2 g ⟨c.val - 256, by omega⟩)
        (fun a ha => by match a with | ⟨0, _⟩ => rfl | ⟨1, _⟩ => exact absurd rfl ha)
        (by show 256 + (c.val - 256) = c.val; omega)).trans ?_
      rw [scatter_apply, hz3, zero_add]
      refine Finset.sum_congr rfl fun n _ => ?_
      unfold pick
      rw [dif_neg hc1, dif_neg hc2, dif_pos hc3]

/-- The reference's operand of each pooling scatter is zero everywhere: a broadcast of the zero word. -/
private theorem zeros_127 (i : S512x128.Idx) : val_main_v127 (F := Ideal) i = 0 := by
  rw [val_main_v127_apply, val_main_cst_12_apply]; exact Ideal.ofBits_zero_f32
private theorem zeros_130 (i : S512x128.Idx) : val_main_v130 (F := Ideal) i = 0 := by
  rw [val_main_v130_apply, val_main_cst_13_apply]; exact Ideal.ofBits_zero_f32
private theorem zeros_133 (i : S512x128.Idx) : val_main_v133 (F := Ideal) i = 0 := by
  rw [val_main_v133_apply, val_main_cst_14_apply]; exact Ideal.ofBits_zero_f32

/-- The reference's index column of each pooling scatter is the vector of graph numbers, entry n in row n. -/
private theorem column_128 (a2 : IVec S50000 32) :
    val_main_v128 (F := Ideal) a2 = (fun i => a2 (ix1 (i 0)) : IVec S50000x1 32) := by
  funext i
  rw [val_main_v128_apply]
  exact congrArg a2 (funext fun a => Fin.ext (by match a with | ⟨0, _⟩ => rfl))
private theorem column_131 (a2 : IVec S50000 32) :
    val_main_v131 (F := Ideal) a2 = (fun i => a2 (ix1 (i 0)) : IVec S50000x1 32) := by
  funext i
  rw [val_main_v131_apply]
  exact congrArg a2 (funext fun a => Fin.ext (by match a with | ⟨0, _⟩ => rfl))
private theorem column_134 (a2 : IVec S50000 32) :
    val_main_v134 (F := Ideal) a2 = (fun i => a2 (ix1 (i 0)) : IVec S50000x1 32) := by
  funext i
  rw [val_main_v134_apply]
  exact congrArg a2 (funext fun a => Fin.ext (by match a with | ⟨0, _⟩ => rfl))

/-- The reference's pooled and concatenated features are the pooling function of the graph numbers (as a column)
    and the three layers' outputs. -/
theorem ref_pool (a0 : IVec S50000 32) (a1 : IVec S2x800000 32) (a2 : IVec S50000 32) (a3 : S500x128.Idx → EReal) (a4 : S128x128.Idx → EReal) (a5 : S128.Idx → EReal) (a6 : S128.Idx → EReal) (a7 : S128.Idx → EReal) (a8 : S128.Idx → EReal) (a9 : S128.Idx → EReal) (a10 : S128x128.Idx → EReal) (a11 : S128.Idx → EReal) (a12 : S128x128.Idx → EReal) (a13 : S128.Idx → EReal) (a14 : S128.Idx → EReal) (a15 : S128.Idx → EReal) (a16 : S128.Idx → EReal) (a17 : S128.Idx → EReal) (a18 : S128x128.Idx → EReal) (a19 : S128.Idx → EReal) (a20 : S128x128.Idx → EReal) (a21 : S128.Idx → EReal) (a22 : S128.Idx → EReal) (a23 : S128.Idx → EReal) (a24 : S128.Idx → EReal) (a25 : S128.Idx → EReal) (a26 : S128x128.Idx → EReal) (a27 : S128.Idx → EReal) :
    val_main_v136 (F := Ideal) a0 a1 a2 a3 a4 a5 a6 a7 a8 a9 a10 a11 a12 a13 a14 a15 a16 a17 a18 a19 a20 a21 a22 a23 a24 a25 a26 a27
      = poolFn (fun i => a2 (ix1 (i 0))) (val_main_v46 (F := Ideal) a0 a1 a3 a4 a5 a6 a7 a8 a9 a10 a11) (val_main_v86 (F := Ideal) a0 a1 a3 a4 a5 a6 a7 a8 a9 a10 a11 a12 a13 a14 a15 a16 a17 a18 a19)
          (val_main_v126 (F := Ideal) a0 a1 a3 a4 a5 a6 a7 a8 a9 a10 a11 a12 a13 a14 a15 a16 a17 a18 a19 a20 a21 a22 a23 a24 a25 a26 a27) := by
  unfold val_main_v136 val_main_v129 val_main_v132 val_main_v135
  generalize val_main_v46 (F := Ideal) a0 a1 a3 a4 a5 a6 a7 a8 a9 a10 a11 = h1
  generalize val_main_v86 (F := Ideal) a0 a1 a3 a4 a5 a6 a7 a8 a9 a10 a11 a12 a13 a14 a15 a16 a17 a18 a19 = h2
  generalize val_main_v126 (F := Ideal) a0 a1 a3 a4 a5 a6 a7 a8 a9 a10 a11 a12 a13 a14 a15 a16 a17 a18 a19 a20 a21 a22 a23 a24 a25 a26 a27 = h3
  rw [column_128, column_131, column_134]
  exact pool_abstract _ _ _ zeros_127 zeros_130 zeros_133 _ h1 h2 h3

end Cert.Gin

end
-- ==== Proof.GluePool.lean ====
/-
  The pooling stage of the chain that joins the kernel program to the reference.

  The kernel program pools in its last region. That region reads four arrays: the graph numbers as a column and the
  three layers' outputs narrowed to bf16. None of the four is computed there: the column is a reshape of the
  graph-number vector the program was launched with, and each narrowed array is a copy (the identity on extended reals)
  of a layer's output array, which since the layer's own region has only been read (by the next layer's region, through
  an input window) or left alone (by every host operation in between and by the later regions that do not have it
  among their arrays). So the pooling region's output is the pooling function of the launch's graph numbers and the
  three layers' output arrays as their own regions left them, and the reference's pooled and concatenated stage is the
  same function of the same graph numbers and its own three layer stages.
-/
import proofs.«431365_j395136991277_1_alg».proof.Proof.Gen.KernelIdeal.Frame
import proofs.«431365_j395136991277_1_alg».proof.Proof.Gen.ReferenceIdeal.Read
import proofs.«431365_j395136991277_1_alg».proof.Proof.Spec
import proofs.«431365_j395136991277_1_alg».proof.Proof.PoolKernel
import proofs.«431365_j395136991277_1_alg».proof.Proof.PoolRef
import Idealize.ShloMosaic.Lib.StableHlo.Run
import Idealize.ShloMosaic.Lib.Pipeline.Value

set_option maxRecDepth 16384

noncomputable section

namespace Cert.Gin

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A buffer keeps its contents through a literal stretch of host operations none of which writes it: the stretch is
    spelt out, each operation's written buffer is read off, and each is a different reference. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The layers' arrays and the graph numbers reach the pooling region unchanged

A buffer keeps its contents through a stretch of host operations none of which writes it, through a region that does
not have it among its arrays, and through a region that only reads it (an input window's array leaves the region as it
entered). -/

/-- Layer 1's output, left by region 1, is still there at region 3's exit: the host operations between the regions do
    not write it, region 2 only reads it (its input window 0) and region 3 does not touch it. -/
private theorem v22_carried (c : Dev nD) : W8 m ρ c (Proc.devRef .tc main_v22) = W4 m ρ c (Proc.devRef .tc main_v22) :=
  calc W8 m ρ c (Proc.devRef .tc main_v22)
    _ = W7 m ρ c (Proc.devRef .tc main_v22) := W8_of_ne m ρ c main_v22 (by decide)
    _ = W6 m ρ c (Proc.devRef .tc main_v22) := by host_keeps hostOps3
    _ = W5 m ρ c (Proc.devRef .tc main_v22) :=
        (W6_arr m ρ c 0).trans (((dat2 (V5 m ρ) c).arrAt_in 0 rfl _).trans (A_eq2 (V5 m ρ) c 0))
    _ = W4 m ρ c (Proc.devRef .tc main_v22) := by host_keeps hostOps2

/-- Layer 2's output, left by region 2, is still there at region 3's exit: the host operations after region 2 do not
    write it and region 3 only reads it (its input window 0). -/
private theorem v39_carried (c : Dev nD) : W8 m ρ c (Proc.devRef .tc main_v39) = W6 m ρ c (Proc.devRef .tc main_v39) :=
  calc W8 m ρ c (Proc.devRef .tc main_v39)
    _ = W7 m ρ c (Proc.devRef .tc main_v39) :=
        (W8_arr m ρ c 0).trans (((dat3 (V7 m ρ) c).arrAt_in 0 rfl _).trans (A_eq3 (V7 m ρ) c 0))
    _ = W6 m ρ c (Proc.devRef .tc main_v39) := by host_keeps hostOps3

/-- The graph numbers at region 3's exit are the launch memory's: no host operation writes an argument and no region up
    to there has this one among its arrays. -/
private theorem arg2_carried (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-! ## What the pooling region finds in its four arrays -/

/-- The pooling region finds layer 1's output as a bf16 copy of what region 3's exit holds: the narrowing is the
    identity on extended reals. -/
private theorem V9_v57 (c : Dev nD) :
    (V9 m ρ c main_v57 : S50000x128.Idx → EReal) = (W8 m ρ c (Proc.devRef .tc main_v22) : S50000x128.Idx → EReal) := by
  show StableHlo.after hostOps4 (W8 m ρ c) (Proc.devRef .tc main_v57) = _
  after_results
  rfl

/-- Likewise layer 2's output. -/
private theorem V9_v58 (c : Dev nD) :
    (V9 m ρ c main_v58 : S50000x128.Idx → EReal) = (W8 m ρ c (Proc.devRef .tc main_v39) : S50000x128.Idx → EReal) := by
  show StableHlo.after hostOps4 (W8 m ρ c) (Proc.devRef .tc main_v58) = _
  after_results
  rfl

/-- Likewise layer 3's output, which region 3 has just left. -/
private theorem V9_v59 (c : Dev nD) :
    (V9 m ρ c main_v59 : S50000x128.Idx → EReal) = (W8 m ρ c (Proc.devRef .tc main_v56) : S50000x128.Idx → EReal) := by
  show StableHlo.after hostOps4 (W8 m ρ c) (Proc.devRef .tc main_v59) = _
  after_results
  rfl

/-- A vector of 50000 entries reshaped into a 50000 x 1 column reads, in row n, the vector's entry n: the two have the
    same row-major position. -/
private theorem column_apply {α : Type} (x : S50000.Idx → α) (i : S50000x1.Idx) :
    shapeCast S50000x1 x shapeCasts_S50000_S50000x1 i = x (ix1 (i 0)) := by
  refine shapeCast_apply x shapeCasts_S50000_S50000x1 i (ix1 (i 0)) ?_
  have h1 : (i 1).val < 1 := idx2_lt1 i
  rw [Shape.rowMajor_val_one, Shape.rowMajor_val_two]
  show (i 0).val = (i 0).val * 1 + (i 1).val
  omega

/-- The pooling region finds the launch's graph numbers, as a column. -/
private theorem V9_v60 (c : Dev nD) :
    (V9 m ρ c main_v60 : IVec S50000x1 32)
      = fun i => (m ((c.tc : Thread nD τ).loc main_arg2) : IVec S50000 32) (ix1 (i 0)) := by
  have e : (V9 m ρ c main_v60 : IVec S50000x1 32)
      = shapeCast S50000x1 (W8 m ρ c (Proc.devRef .tc main_arg2) : IVec S50000 32) shapeCasts_S50000_S50000x1 := by
    show StableHlo.after hostOps4 (W8 m ρ c) (Proc.devRef .tc main_v60) = _
    after_results
    rfl
  rw [e, arg2_carried]
  funext i
  exact column_apply _ i

/-- THE POOLING STAGE: if the three layers' output arrays, each at the exit of its own region, are the reference's
    three layer stages, then the pooled features at the pooling region's exit are the reference's concatenated stage:
    the layers' arrays reach the pooling region unchanged (as bf16 copies, the identity on extended reals), the graph
    numbers reach it as a column, and both sides are the pooling function of those. -/
theorem pool_stage (c : Dev nD)
    (h1 : (W4 m ρ c (Proc.devRef .tc main_v22) : S50000x128.Idx → EReal)
      = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h2 : (W6 m ρ c (Proc.devRef .tc main_v39) : S50000x128.Idx → EReal)
      = Cert.ReferenceIdeal.Read.val_main_v86 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
    (h3 : (W8 m ρ c (Proc.devRef .tc main_v56) : S50000x128.Idx → EReal)
      = Cert.ReferenceIdeal.Read.val_main_v126 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :
    (W10 m ρ c (Proc.devRef .tc main_v61) : S512x384.Idx → EReal)
      = Cert.ReferenceIdeal.Read.val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [ref_pool, ← h1, ← h2, ← h3]
  refine (W10_arr m ρ c 4).trans ((pool_arr (V9 m ρ) c).trans ?_)
  rw [V9_v60, V9_v57, V9_v58, V9_v59, v22_carried, v39_carried]
  rfl

end Cert.Gin

end
-- ==== Proof.GlueHead.lean ====
import proofs.«431365_j395136991277_1_alg».proof.Proof.Gen.KernelIdeal.Frame
import proofs.«431365_j395136991277_1_alg».proof.Proof.Gen.ReferenceIdeal.Read
import Idealize.ShloMosaic.Lib.StableHlo.Run
import Idealize.ShloMosaic.Lib.Pipeline.Value

set_option maxRecDepth 16384

noncomputable section

namespace Cert.Gin

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- THE CLASSIFIER HEAD as one function of the pooled features `p`, the two weights and the two biases:
    (max(p · w1 + b1, 0)) · w2 + b2, each bias laid along the rows. Both programs apply exactly these operations. -/
private def headOf (p : (⟨S512x384, .f32⟩ : BufTy).Contents (Elt Ideal)) (w1 : (⟨S384x384, .f32⟩ : BufTy).Contents (Elt Ideal))
    (b1 : (⟨S384, .f32⟩ : BufTy).Contents (Elt Ideal)) (w2 : (⟨S384x10, .f32⟩ : BufTy).Contents (Elt Ideal))
    (b2 : (⟨S10, .f32⟩ : BufTy).Contents (Elt Ideal)) : (⟨S512x10, .f32⟩ : BufTy).Contents (Elt Ideal) :=
  addf
    (Host.dotGeneral (F := Ideal) (φ₁ := .f32) (φ₂ := .f32) dot_S512x384_S384x10_S512x10_1_0_0_1_n_n none
      (maximumf
        (addf (Host.dotGeneral (F := Ideal) (φ₁ := .f32) (φ₂ := .f32) dot_S512x384_S384x384_S512x384_1_0_0_1_n_n none p w1)
          (broadcastInDim S512x384 ![0, 1] bcast_S1x384_S512x384_0_1 (broadcastInDim S1x384 ![1] bcast_S384_S1x384_1 b1)))
        (broadcastInDim S512x384 ![] bcast_S_S512x384 (constant (F := Ideal) S_ .f32 0x00000000#32)))
      w2)
    (broadcastInDim S512x10 ![0, 1] bcast_S1x10_S512x10_0_1 (broadcastInDim S1x10 ![1] bcast_S10_S1x10_1 b2))

/-- THE REFERENCE'S SIDE: its last stage is the head of its concatenated stage, by unfolding the nine head stages
    (the two programs' dimension-number and broadcast records have the same values). -/
private theorem ref_head (x0 : (⟨S50000, .i32⟩ : BufTy).Contents (Elt Ideal)) (x1 : (⟨S2x800000, .i32⟩ : BufTy).Contents (Elt Ideal)) (x2 : (⟨S50000, .i32⟩ : BufTy).Contents (Elt Ideal)) (x3 : (⟨S500x128, .f32⟩ : BufTy).Contents (Elt Ideal)) (x4 : (⟨S128x128, .f32⟩ : BufTy).Contents (Elt Ideal)) (x5 x6 x7 x8 x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 x14 x15 x16 x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 x22 x23 x24 x25 : (⟨S128, .f32⟩ : BufTy).Contents (Elt Ideal)) (x26 : (⟨S128x128, .f32⟩ : BufTy).Contents (Elt Ideal)) (x27 : (⟨S128, .f32⟩ : BufTy).Contents (Elt Ideal)) (x28 : (⟨S384x384, .f32⟩ : BufTy).Contents (Elt Ideal)) (x29 : (⟨S384, .f32⟩ : BufTy).Contents (Elt Ideal)) (x30 : (⟨S384x10, .f32⟩ : BufTy).Contents (Elt Ideal)) (x31 : (⟨S10, .f32⟩ : BufTy).Contents (Elt Ideal)) :
    Cert.ReferenceIdeal.Read.val_main_v145 (F := Ideal) x0 x1 x2 x3 x4 x5 x6 x7 x8 x9 x10 x11 x12 x13 x14 x15 x16 x17 x18 x19 x20 x21 x22 x23 x24 x25 x26 x27 x28 x29 x30 x31
      = headOf (Cert.ReferenceIdeal.Read.val_main_v136 (F := Ideal) x0 x1 x2 x3 x4 x5 x6 x7 x8 x9 x10 x11 x12 x13 x14 x15 x16 x17 x18 x19 x20 x21 x22 x23 x24 x25 x26 x27) x28 x29 x30 x31 := rfl

/-- After the first linear layer's stretch, its result: the product of the entry's pooled features with the entry's
    weight, plus the entry's bias laid along the rows. -/
private theorem W11_v65 (c : Dev nD) :
    (W11 m ρ c (Proc.devRef .tc main_v65) : S512x384.Idx → EReal)
      = addf (Host.dotGeneral (F := Ideal) (φ₁ := .f32) (φ₂ := .f32) dot_S512x384_S384x384_S512x384_1_0_0_1_n_n none
            (W10 m ρ c (Proc.devRef .tc main_v61) : S512x384.Idx → EReal) (W10 m ρ c (Proc.devRef .tc main_arg28) : S384x384.Idx → EReal))
          (broadcastInDim S512x384 ![0, 1] bcast_S1x384_S512x384_0_1
            (broadcastInDim S1x384 ![1] bcast_S384_S1x384_1 (W10 m ρ c (Proc.devRef .tc main_arg29) : S384.Idx → EReal))) := by
  show StableHlo.after hostOps5 _ (Proc.devRef .tc main_v65) = _
  after_results
  all_goals rfl

private theorem W12_v66 (c : Dev nD) :
    (W12 m ρ c (Proc.devRef .tc main_v66) : S512x384.Idx → EReal)
      = maximumf (W11 m ρ c (Proc.devRef .tc main_v65) : S512x384.Idx → EReal)
          (broadcastInDim S512x384 ![] bcast_S_S512x384 (constant (F := Ideal) S_ .f32 0x00000000#32)) := by
  show StableHlo.after hostOps5_1 _ (Proc.devRef .tc main_v66) = _
  after_results
  all_goals rfl

private theorem W13_v70 (c : Dev nD) :
    (W13 m ρ c (Proc.devRef .tc main_v70) : S512x10.Idx → EReal)
      = addf (Host.dotGeneral (F := Ideal) (φ₁ := .f32) (φ₂ := .f32) dot_S512x384_S384x10_S512x10_1_0_0_1_n_n none
            (W12 m ρ c (Proc.devRef .tc main_v66) : S512x384.Idx → EReal) (W12 m ρ c (Proc.devRef .tc main_arg30) : S384x10.Idx → EReal))
          (broadcastInDim S512x10 ![0, 1] bcast_S1x10_S512x10_0_1
            (broadcastInDim S1x10 ![1] bcast_S10_S1x10_1 (W12 m ρ c (Proc.devRef .tc main_arg31) : S10.Idx → EReal))) := by
  show StableHlo.after hostOps5_2 _ (Proc.devRef .tc main_v70) = _
  after_results
  all_goals rfl

/-- A buffer the first linear layer's stretch does not write passes through it. -/
private theorem skip5 (W : Valuation τ sig (Elt Ideal)) (b : Ref sig .tc) (hb : ∀ y ∈ [main_v62, main_v63, main_v64, main_v65], b ≠ y) :
    StableHlo.after hostOps5 W (Proc.devRef .tc b) = W (Proc.devRef .tc b) := by
  refine StableHlo.after_of_forall_not_mem _ _ (List.forall_iff_forall_mem.mp ?_)
  simp only [hostOps5, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by decide))

/-- A buffer the rectifier's stretch does not write passes through it. -/
private theorem skip5_1 (W : Valuation τ sig (Elt Ideal)) (b : Ref sig .tc) (hb : ∀ y ∈ [main_call0_cst, main_call0_v0, main_v66], b ≠ y) :
    StableHlo.after hostOps5_1 W (Proc.devRef .tc b) = W (Proc.devRef .tc b) := by
  refine StableHlo.after_of_forall_not_mem _ _ (List.forall_iff_forall_mem.mp ?_)
  simp only [hostOps5_1, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by decide))

/-- A buffer the second linear layer's stretch does not write passes through it. -/
private theorem skip5_2 (W : Valuation τ sig (Elt Ideal)) (b : Ref sig .tc) (hb : ∀ y ∈ [main_v67, main_v68, main_v69, main_v70], b ≠ y) :
    StableHlo.after hostOps5_2 W (Proc.devRef .tc b) = W (Proc.devRef .tc b) := by
  refine StableHlo.after_of_forall_not_mem _ _ (List.forall_iff_forall_mem.mp ?_)
  simp only [hostOps5_2, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by decide))

/-- The last four argument arrays at the boundaries where the head reads them are the launch memory's: nothing after
    those boundaries writes them, and at the end they are as launched. -/
private theorem W12_arg30 (c : Dev nD) : W12 m ρ c (Proc.devRef .tc main_arg30) = m ((c : Thread nD τ).loc main_arg30) :=
  (skip5_2 (W12 m ρ c) main_arg30 (by decide)).symm.trans (W13_main_arg30 m ρ c)
private theorem W12_arg31 (c : Dev nD) : W12 m ρ c (Proc.devRef .tc main_arg31) = m ((c : Thread nD τ).loc main_arg31) :=
  (skip5_2 (W12 m ρ c) main_arg31 (by decide)).symm.trans (W13_main_arg31 m ρ c)
private theorem W10_arg28 (c : Dev nD) : W10 m ρ c (Proc.devRef .tc main_arg28) = m ((c : Thread nD τ).loc main_arg28) :=
  (skip5 (W10 m ρ c) main_arg28 (by decide)).symm.trans ((skip5_1 (W11 m ρ c) main_arg28 (by decide)).symm.trans
    ((skip5_2 (W12 m ρ c) main_arg28 (by decide)).symm.trans (W13_main_arg28 m ρ c)))
private theorem W10_arg29 (c : Dev nD) : W10 m ρ c (Proc.devRef .tc main_arg29) = m ((c : Thread nD τ).loc main_arg29) :=
  (skip5 (W10 m ρ c) main_arg29 (by decide)).symm.trans ((skip5_1 (W11 m ρ c) main_arg29 (by decide)).symm.trans
    ((skip5_2 (W12 m ρ c) main_arg29 (by decide)).symm.trans (W13_main_arg29 m ρ c)))

/-- THE KERNEL'S SIDE: the last boundary's result buffer is the head of the pooled features at the pooling region's
    exit, over the launch memory's last four argument arrays. -/
private theorem kernel_head (c : Dev nD) :
    (W13 m ρ c (Proc.devRef .tc main_v70) : S512x10.Idx → EReal)
      = headOf (W10 m ρ c (Proc.devRef .tc main_v61)) (m ((c : Thread nD τ).loc main_arg28)) (m ((c : Thread nD τ).loc main_arg29))
          (m ((c : Thread nD τ).loc main_arg30)) (m ((c : Thread nD τ).loc main_arg31)) := by
  rw [W13_v70, W12_v66, W11_v65, W10_arg28, W10_arg29, W12_arg30, W12_arg31]
  rfl

/-- THE HEAD: after the pooling region, the kernel program applies to the pooled features the same two linear layers
    (with a rectifier between) as the reference, on the same last four argument arrays; so if the pooled features at
    the pooling region's exit are the reference's concatenated stage, the result is the reference's last stage. -/
theorem head_eq (c : Dev nD)
    (hg : (W10 m ρ c (Proc.devRef .tc main_v61) : S512x384.Idx → EReal)
      = Cert.ReferenceIdeal.Read.val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :
    (W13 m ρ c (Proc.devRef .tc main_v70) : S512x10.Idx → EReal)
      = Cert.ReferenceIdeal.Read.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) := by
  rw [kernel_head, hg]
  exact (ref_head _ _ _ _ _ _ _ _ _ _ _ _ _ _ _ _ _ _ _ _ _ _ _ _ _ _ _ _ _ _ _ _).symm

end Cert.Gin

end
-- ==== Proof.Glue.lean ====
import proofs.«431365_j395136991277_1_alg».proof.Proof.Gen.KernelIdeal.Frame
import proofs.«431365_j395136991277_1_alg».proof.Proof.Gen.ReferenceIdeal.Read
import proofs.«431365_j395136991277_1_alg».proof.Proof.Spec
import proofs.«431365_j395136991277_1_alg».proof.Proof.MlpSpec
import proofs.«431365_j395136991277_1_alg».proof.Proof.EmbValue
import proofs.«431365_j395136991277_1_alg».proof.Proof.MlpKernel1
import proofs.«431365_j395136991277_1_alg».proof.Proof.MlpKernel2
import proofs.«431365_j395136991277_1_alg».proof.Proof.MlpKernel3
import proofs.«431365_j395136991277_1_alg».proof.Proof.MlpRef
import proofs.«431365_j395136991277_1_alg».proof.Proof.PoolKernel
import proofs.«431365_j395136991277_1_alg».proof.Proof.PoolRef
import proofs.«431365_j395136991277_1_alg».proof.Proof.GluePool
import proofs.«431365_j395136991277_1_alg».proof.Proof.GlueHead
import Idealize.ShloMosaic.Lib.StableHlo.Run
import Idealize.ShloMosaic.Lib.Pipeline.Value
import Idealize.ShloMosaic.Lib.ValueLayout

/-!
  The chain that joins the five regions of the kernel program to the reference, stage by stage.

  The kernel program's buffer contents at the fourteen segment boundaries are a fold: a host stretch rewrites its
  operations' result buffers, a region rewrites its output array, and every other buffer is carried over. Reading the
  fold at one buffer therefore walks back through the segments that do not write it, and stops at the segment that does:
  at a host stretch the operations' term over the stretch's entry contents, at a region the region's value theorem.
  The stages: region 0's output is the reference's gathered embedding rows; for each of the three layers the host
  stretch before the region forms the neighbour sums of the layer input by exactly the operations the reference uses
  (carried as one function, never opened) and the six parameter rows, and the region's output is the layer function of
  those, which is the reference's layer; the pooling region and the classifier head close the chain.
-/

set_option maxRecDepth 16384

noncomputable section

open scoped BigOperators

namespace Cert.Gin

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Chain

/-! ## A buffer that a segment does not write passes through it

Each host stretch writes only its operations' result buffers, and a region only its own arrays; any other buffer holds
after the segment what it held before. The result buffers and the arrays are listed once per segment, so that "is not
one of them" is decided in one pass. -/

theorem skip0 (W : Valuation τ sig (Elt Ideal)) (b : Ref sig .tc)
    (hb : ∀ y ∈ [main_v0, main_v1, main_v2, main_v3, main_v4], b ≠ y) :
    StableHlo.after hostOps0 W (Proc.devRef .tc b) = W (Proc.devRef .tc b) := by
  refine StableHlo.after_of_forall_not_mem _ _ (List.forall_iff_forall_mem.mp ?_)
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

theorem skip1 (W : Valuation τ sig (Elt Ideal)) (b : Ref sig .tc)
    (hb : ∀ y ∈ [main_c, main_v6, main_v7, main_c_0, main_v8, main_v9, main_v10, main_v11, main_v12, main_cst, main_v13, main_v14, main_v15, main_v16, main_v17, main_v18, main_v19, main_v20, main_v21], b ≠ y) :
    StableHlo.after hostOps1 W (Proc.devRef .tc b) = W (Proc.devRef .tc b) := by
  refine StableHlo.after_of_forall_not_mem _ _ (List.forall_iff_forall_mem.mp ?_)
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

theorem skip2 (W : Valuation τ sig (Elt Ideal)) (b : Ref sig .tc)
    (hb : ∀ y ∈ [main_c_1, main_v23, main_v24, main_c_2, main_v25, main_v26, main_v27, main_v28, main_v29, main_cst_3, main_v30, main_v31, main_v32, main_v33, main_v34, main_v35, main_v36, main_v37, main_v38], b ≠ y) :
    StableHlo.after hostOps2 W (Proc.devRef .tc b) = W (Proc.devRef .tc b) := by
  refine StableHlo.after_of_forall_not_mem _ _ (List.forall_iff_forall_mem.mp ?_)
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

theorem skip3 (W : Valuation τ sig (Elt Ideal)) (b : Ref sig .tc)
    (hb : ∀ y ∈ [main_c_4, main_v40, main_v41, main_c_5, main_v42, main_v43, main_v44, main_v45, main_v46, main_cst_6, main_v47, main_v48, main_v49, main_v50, main_v51, main_v52, main_v53, main_v54, main_v55], b ≠ y) :
    StableHlo.after hostOps3 W (Proc.devRef .tc b) = W (Proc.devRef .tc b) := by
  refine StableHlo.after_of_forall_not_mem _ _ (List.forall_iff_forall_mem.mp ?_)
  simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

theorem skip4 (W : Valuation τ sig (Elt Ideal)) (b : Ref sig .tc)
    (hb : ∀ y ∈ [main_v57, main_v58, main_v59, main_v60], b ≠ y) :
    StableHlo.after hostOps4 W (Proc.devRef .tc b) = W (Proc.devRef .tc b) := by
  refine StableHlo.after_of_forall_not_mem _ _ (List.forall_iff_forall_mem.mp ?_)
  simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

theorem reg0 (c : Dev nD) (b : Ref sig .tc) (hb : b ∉ [main_v4, main_arg3, main_v5]) :
    W2 m ρ c (Proc.devRef .tc b) = W1 m ρ c (Proc.devRef .tc b) :=
  W2_of_ne m ρ c b (by intro w e; apply hb; subst e; revert w; decide)

theorem reg1 (c : Dev nD) (b : Ref sig .tc) (hb : b ∉ [main_v5, main_v15, main_arg4, main_v16, main_v17, main_v18, main_v19, main_v20, main_arg10, main_v21, main_v22]) :
    W4 m ρ c (Proc.devRef .tc b) = W3 m ρ c (Proc.devRef .tc b) :=
  W4_of_ne m ρ c b (by intro w e; apply hb; subst e; revert w; decide)

theorem reg2 (c : Dev nD) (b : Ref sig .tc) (hb : b ∉ [main_v22, main_v32, main_arg12, main_v33, main_v34, main_v35, main_v36, main_v37, main_arg18, main_v38, main_v39]) :
    W6 m ρ c (Proc.devRef .tc b) = W5 m ρ c (Proc.devRef .tc b) :=
  W6_of_ne m ρ c b (by intro w e; apply hb; subst e; revert w; decide)

theorem reg3 (c : Dev nD) (b : Ref sig .tc) (hb : b ∉ [main_v39, main_v49, main_arg20, main_v50, main_v51, main_v52, main_v53, main_v54, main_arg26, main_v55, main_v56]) :
    W8 m ρ c (Proc.devRef .tc b) = W7 m ρ c (Proc.devRef .tc b) :=
  W8_of_ne m ρ c b (by intro w e; apply hb; subst e; revert w; decide)
/-! ## A buffer no earlier segment writes is, at a boundary, as launched -/

theorem fwd1 (c : Dev nD) (b : Ref sig .tc) (h : (∀ y ∈ [main_v0, main_v1, main_v2, main_v3, main_v4], b ≠ y)) :
    W1 m ρ c (Proc.devRef .tc b) = m ((c.tc : Thread nD τ).loc b) :=
  skip0 (W0 m ρ c) b h

theorem fwd2 (c : Dev nD) (b : Ref sig .tc) (h : ((∀ y ∈ [main_v0, main_v1, main_v2, main_v3, main_v4], b ≠ y)) ∧ b ∉ [main_v4, main_arg3, main_v5]) :
    W2 m ρ c (Proc.devRef .tc b) = m ((c.tc : Thread nD τ).loc b) :=
  (reg0 m ρ c b h.2).trans (fwd1 m ρ c b h.1)

theorem fwd3 (c : Dev nD) (b : Ref sig .tc) (h : (((∀ y ∈ [main_v0, main_v1, main_v2, main_v3, main_v4], b ≠ y)) ∧ b ∉ [main_v4, main_arg3, main_v5]) ∧ (∀ y ∈ [main_c, main_v6, main_v7, main_c_0, main_v8, main_v9, main_v10, main_v11, main_v12, main_cst, main_v13, main_v14, main_v15, main_v16, main_v17, main_v18, main_v19, main_v20, main_v21], b ≠ y)) :
    W3 m ρ c (Proc.devRef .tc b) = m ((c.tc : Thread nD τ).loc b) :=
  (skip1 _ b h.2).trans (fwd2 m ρ c b h.1)

theorem fwd4 (c : Dev nD) (b : Ref sig .tc) (h : ((((∀ y ∈ [main_v0, main_v1, main_v2, main_v3, main_v4], b ≠ y)) ∧ b ∉ [main_v4, main_arg3, main_v5]) ∧ (∀ y ∈ [main_c, main_v6, main_v7, main_c_0, main_v8, main_v9, main_v10, main_v11, main_v12, main_cst, main_v13, main_v14, main_v15, main_v16, main_v17, main_v18, main_v19, main_v20, main_v21], b ≠ y)) ∧ b ∉ [main_v5, main_v15, main_arg4, main_v16, main_v17, main_v18, main_v19, main_v20, main_arg10, main_v21, main_v22]) :
    W4 m ρ c (Proc.devRef .tc b) = m ((c.tc : Thread nD τ).loc b) :=
  (reg1 m ρ c b h.2).trans (fwd3 m ρ c b h.1)

theorem fwd5 (c : Dev nD) (b : Ref sig .tc) (h : (((((∀ y ∈ [main_v0, main_v1, main_v2, main_v3, main_v4], b ≠ y)) ∧ b ∉ [main_v4, main_arg3, main_v5]) ∧ (∀ y ∈ [main_c, main_v6, main_v7, main_c_0, main_v8, main_v9, main_v10, main_v11, main_v12, main_cst, main_v13, main_v14, main_v15, main_v16, main_v17, main_v18, main_v19, main_v20, main_v21], b ≠ y)) ∧ b ∉ [main_v5, main_v15, main_arg4, main_v16, main_v17, main_v18, main_v19, main_v20, main_arg10, main_v21, main_v22]) ∧ (∀ y ∈ [main_c_1, main_v23, main_v24, main_c_2, main_v25, main_v26, main_v27, main_v28, main_v29, main_cst_3, main_v30, main_v31, main_v32, main_v33, main_v34, main_v35, main_v36, main_v37, main_v38], b ≠ y)) :
    W5 m ρ c (Proc.devRef .tc b) = m ((c.tc : Thread nD τ).loc b) :=
  (skip2 _ b h.2).trans (fwd4 m ρ c b h.1)

theorem fwd6 (c : Dev nD) (b : Ref sig .tc) (h : ((((((∀ y ∈ [main_v0, main_v1, main_v2, main_v3, main_v4], b ≠ y)) ∧ b ∉ [main_v4, main_arg3, main_v5]) ∧ (∀ y ∈ [main_c, main_v6, main_v7, main_c_0, main_v8, main_v9, main_v10, main_v11, main_v12, main_cst, main_v13, main_v14, main_v15, main_v16, main_v17, main_v18, main_v19, main_v20, main_v21], b ≠ y)) ∧ b ∉ [main_v5, main_v15, main_arg4, main_v16, main_v17, main_v18, main_v19, main_v20, main_arg10, main_v21, main_v22]) ∧ (∀ y ∈ [main_c_1, main_v23, main_v24, main_c_2, main_v25, main_v26, main_v27, main_v28, main_v29, main_cst_3, main_v30, main_v31, main_v32, main_v33, main_v34, main_v35, main_v36, main_v37, main_v38], b ≠ y)) ∧ b ∉ [main_v22, main_v32, main_arg12, main_v33, main_v34, main_v35, main_v36, main_v37, main_arg18, main_v38, main_v39]) :
    W6 m ρ c (Proc.devRef .tc b) = m ((c.tc : Thread nD τ).loc b) :=
  (reg2 m ρ c b h.2).trans (fwd5 m ρ c b h.1)

theorem fwd7 (c : Dev nD) (b : Ref sig .tc) (h : (((((((∀ y ∈ [main_v0, main_v1, main_v2, main_v3, main_v4], b ≠ y)) ∧ b ∉ [main_v4, main_arg3, main_v5]) ∧ (∀ y ∈ [main_c, main_v6, main_v7, main_c_0, main_v8, main_v9, main_v10, main_v11, main_v12, main_cst, main_v13, main_v14, main_v15, main_v16, main_v17, main_v18, main_v19, main_v20, main_v21], b ≠ y)) ∧ b ∉ [main_v5, main_v15, main_arg4, main_v16, main_v17, main_v18, main_v19, main_v20, main_arg10, main_v21, main_v22]) ∧ (∀ y ∈ [main_c_1, main_v23, main_v24, main_c_2, main_v25, main_v26, main_v27, main_v28, main_v29, main_cst_3, main_v30, main_v31, main_v32, main_v33, main_v34, main_v35, main_v36, main_v37, main_v38], b ≠ y)) ∧ b ∉ [main_v22, main_v32, main_arg12, main_v33, main_v34, main_v35, main_v36, main_v37, main_arg18, main_v38, main_v39]) ∧ (∀ y ∈ [main_c_4, main_v40, main_v41, main_c_5, main_v42, main_v43, main_v44, main_v45, main_v46, main_cst_6, main_v47, main_v48, main_v49, main_v50, main_v51, main_v52, main_v53, main_v54, main_v55], b ≠ y)) :
    W7 m ρ c (Proc.devRef .tc b) = m ((c.tc : Thread nD τ).loc b) :=
  (skip3 _ b h.2).trans (fwd6 m ρ c b h.1)

theorem fwd8 (c : Dev nD) (b : Ref sig .tc) (h : ((((((((∀ y ∈ [main_v0, main_v1, main_v2, main_v3, main_v4], b ≠ y)) ∧ b ∉ [main_v4, main_arg3, main_v5]) ∧ (∀ y ∈ [main_c, main_v6, main_v7, main_c_0, main_v8, main_v9, main_v10, main_v11, main_v12, main_cst, main_v13, main_v14, main_v15, main_v16, main_v17, main_v18, main_v19, main_v20, main_v21], b ≠ y)) ∧ b ∉ [main_v5, main_v15, main_arg4, main_v16, main_v17, main_v18, main_v19, main_v20, main_arg10, main_v21, main_v22]) ∧ (∀ y ∈ [main_c_1, main_v23, main_v24, main_c_2, main_v25, main_v26, main_v27, main_v28, main_v29, main_cst_3, main_v30, main_v31, main_v32, main_v33, main_v34, main_v35, main_v36, main_v37, main_v38], b ≠ y)) ∧ b ∉ [main_v22, main_v32, main_arg12, main_v33, main_v34, main_v35, main_v36, main_v37, main_arg18, main_v38, main_v39]) ∧ (∀ y ∈ [main_c_4, main_v40, main_v41, main_c_5, main_v42, main_v43, main_v44, main_v45, main_v46, main_cst_6, main_v47, main_v48, main_v49, main_v50, main_v51, main_v52, main_v53, main_v54, main_v55], b ≠ y)) ∧ b ∉ [main_v39, main_v49, main_arg20, main_v50, main_v51, main_v52, main_v53, main_v54, main_arg26, main_v55, main_v56]) :
    W8 m ρ c (Proc.devRef .tc b) = m ((c.tc : Thread nD τ).loc b) :=
  (reg3 m ρ c b h.2).trans (fwd7 m ρ c b h.1)

/-! ## The host operations the two programs share, each as one function

The edge list's two rows flattened; the neighbour sum of a feature array along the edges (negative source numbers
wrapped, rows gathered at the sources, scatter-added into zeros at the targets). Both programs apply exactly these operations, so each is carried as one function of its
inputs and never opened. -/

/-- The edge list's first row (the source of each edge) as a flat vector. -/
def srcOf (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edge list's second row (the target of each edge) as a flat vector. -/
def dstOf (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The neighbour sums of the node features `x` along the edges from `s` to `d`. -/
def aggOf (x : (⟨S50000x128, .f32⟩ : BufTy).Contents (Elt Ideal)) (s d : (⟨S800000, .i32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- A vector cast to a one-column matrix reads, at `(i, u)`, the vector at `i`. -/
theorem shapeCast_a_a1_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What the host stretches write, over the stretch's entry contents -/

theorem W1_v1 (c : Dev nD) : W1 m ρ c (Proc.devRef .tc main_v1) = srcOf (m ((c.tc : Thread nD τ).loc main_arg1)) := by
  show StableHlo.after hostOps0 _ (Proc.devRef .tc main_v1) = _
  after_results
  rfl

theorem W1_v3 (c : Dev nD) : W1 m ρ c (Proc.devRef .tc main_v3) = dstOf (m ((c.tc : Thread nD τ).loc main_arg1)) := by
  show StableHlo.after hostOps0 _ (Proc.devRef .tc main_v3) = _
  after_results
  rfl

/-- The id column region 0 reads is the id vector. -/
theorem W1_v4 (c : Dev nD) (n : Fin 50000) :
    (W1 m ρ c (Proc.devRef .tc main_v4) : S50000x1.Idx → BitVec 32) (ix2 n 0) = (m ((c.tc : Thread nD τ).loc main_arg0)) (ix1 n) := by
  have e : (W1 m ρ c (Proc.devRef .tc main_v4) : S50000x1.Idx → BitVec 32)
      = shapeCast S50000x1 (m ((c.tc : Thread nD τ).loc main_arg0)) shapeCasts_S50000_S50000x1 := by
    show StableHlo.after hostOps0 _ (Proc.devRef .tc main_v4) = _
    after_results
    rfl
  rw [e]
  exact shapeCast_a_a1_apply _ _ n 0

/-- The flattened edge rows are written once and never again. -/
theorem W2_v1 (c : Dev nD) : W2 m ρ c (Proc.devRef .tc main_v1) = srcOf (m ((c.tc : Thread nD τ).loc main_arg1)) :=
  (reg0 m ρ c main_v1 (by decide)).trans (W1_v1 m ρ c)
theorem W2_v3 (c : Dev nD) : W2 m ρ c (Proc.devRef .tc main_v3) = dstOf (m ((c.tc : Thread nD τ).loc main_arg1)) :=
  (reg0 m ρ c main_v3 (by decide)).trans (W1_v3 m ρ c)
theorem W4_v1 (c : Dev nD) : W4 m ρ c (Proc.devRef .tc main_v1) = srcOf (m ((c.tc : Thread nD τ).loc main_arg1)) :=
  (reg1 m ρ c main_v1 (by decide)).trans ((skip1 _ main_v1 (by decide)).trans (W2_v1 m ρ c))
theorem W4_v3 (c : Dev nD) : W4 m ρ c (Proc.devRef .tc main_v3) = dstOf (m ((c.tc : Thread nD τ).loc main_arg1)) :=
  (reg1 m ρ c main_v3 (by decide)).trans ((skip1 _ main_v3 (by decide)).trans (W2_v3 m ρ c))
theorem W6_v1 (c : Dev nD) : W6 m ρ c (Proc.devRef .tc main_v1) = srcOf (m ((c.tc : Thread nD τ).loc main_arg1)) :=
  (reg2 m ρ c main_v1 (by decide)).trans ((skip2 _ main_v1 (by decide)).trans (W4_v1 m ρ c))
theorem W6_v3 (c : Dev nD) : W6 m ρ c (Proc.devRef .tc main_v3) = dstOf (m ((c.tc : Thread nD τ).loc main_arg1)) :=
  (reg2 m ρ c main_v3 (by decide)).trans ((skip2 _ main_v3 (by decide)).trans (W4_v3 m ρ c))

/-- The neighbour sums host stretch 1 writes, of the layer input as the stretch finds it. -/
theorem W3_v15 (c : Dev nD) :
    W3 m ρ c (Proc.devRef .tc main_v15) = aggOf (W2 m ρ c (Proc.devRef .tc main_v5)) (srcOf (m ((c.tc : Thread nD τ).loc main_arg1))) (dstOf (m ((c.tc : Thread nD τ).loc main_arg1))) := by
  rw [← W2_v1 m ρ c, ← W2_v3 m ρ c]
  show StableHlo.after hostOps1 _ (Proc.devRef .tc main_v15) = _
  after_results
  rfl

/-- The six parameter rows region 1 reads (two biases and the four batch-norm vectors, each a 128-vector cast to one
    row) read, at column `k`, the argument vector at `k`. -/
theorem W3_v16 (c : Dev nD) (k : Fin 128) :
    (W3 m ρ c (Proc.devRef .tc main_v16) : S1x128.Idx → EReal) (ix2 0 k) = (m ((c.tc : Thread nD τ).loc main_arg5)) (ix1 k) := by
  have e : (W3 m ρ c (Proc.devRef .tc main_v16) : S1x128.Idx → EReal)
      = shapeCast S1x128 (W2 m ρ c (Proc.devRef .tc main_arg5)) shapeCasts_S128_S1x128 := by
    show StableHlo.after hostOps1 _ (Proc.devRef .tc main_v16) = _
    after_results
    rfl
  rw [e, fwd2 m ρ c main_arg5 (by decide)]
  exact shapeCast_a_1a_apply _ _ 0 k

theorem W3_v17 (c : Dev nD) (k : Fin 128) :
    (W3 m ρ c (Proc.devRef .tc main_v17) : S1x128.Idx → EReal) (ix2 0 k) = (m ((c.tc : Thread nD τ).loc main_arg6)) (ix1 k) := by
  have e : (W3 m ρ c (Proc.devRef .tc main_v17) : S1x128.Idx → EReal)
      = shapeCast S1x128 (W2 m ρ c (Proc.devRef .tc main_arg6)) shapeCasts_S128_S1x128 := by
    show StableHlo.after hostOps1 _ (Proc.devRef .tc main_v17) = _
    after_results
    rfl
  rw [e, fwd2 m ρ c main_arg6 (by decide)]
  exact shapeCast_a_1a_apply _ _ 0 k

theorem W3_v18 (c : Dev nD) (k : Fin 128) :
    (W3 m ρ c (Proc.devRef .tc main_v18) : S1x128.Idx → EReal) (ix2 0 k) = (m ((c.tc : Thread nD τ).loc main_arg7)) (ix1 k) := by
  have e : (W3 m ρ c (Proc.devRef .tc main_v18) : S1x128.Idx → EReal)
      = shapeCast S1x128 (W2 m ρ c (Proc.devRef .tc main_arg7)) shapeCasts_S128_S1x128 := by
    show StableHlo.after hostOps1 _ (Proc.devRef .tc main_v18) = _
    after_results
    rfl
  rw [e, fwd2 m ρ c main_arg7 (by decide)]
  exact shapeCast_a_1a_apply _ _ 0 k

theorem W3_v19 (c : Dev nD) (k : Fin 128) :
    (W3 m ρ c (Proc.devRef .tc main_v19) : S1x128.Idx → EReal) (ix2 0 k) = (m ((c.tc : Thread nD τ).loc main_arg8)) (ix1 k) := by
  have e : (W3 m ρ c (Proc.devRef .tc main_v19) : S1x128.Idx → EReal)
      = shapeCast S1x128 (W2 m ρ c (Proc.devRef .tc main_arg8)) shapeCasts_S128_S1x128 := by
    show StableHlo.after hostOps1 _ (Proc.devRef .tc main_v19) = _
    after_results
    rfl
  rw [e, fwd2 m ρ c main_arg8 (by decide)]
  exact shapeCast_a_1a_apply _ _ 0 k

theorem W3_v20 (c : Dev nD) (k : Fin 128) :
    (W3 m ρ c (Proc.devRef .tc main_v20) : S1x128.Idx → EReal) (ix2 0 k) = (m ((c.tc : Thread nD τ).loc main_arg9)) (ix1 k) := by
  have e : (W3 m ρ c (Proc.devRef .tc main_v20) : S1x128.Idx → EReal)
      = shapeCast S1x128 (W2 m ρ c (Proc.devRef .tc main_arg9)) shapeCasts_S128_S1x128 := by
    show StableHlo.after hostOps1 _ (Proc.devRef .tc main_v20) = _
    after_results
    rfl
  rw [e, fwd2 m ρ c main_arg9 (by decide)]
  exact shapeCast_a_1a_apply _ _ 0 k

theorem W3_v21 (c : Dev nD) (k : Fin 128) :
    (W3 m ρ c (Proc.devRef .tc main_v21) : S1x128.Idx → EReal) (ix2 0 k) = (m ((c.tc : Thread nD τ).loc main_arg11)) (ix1 k) := by
  have e : (W3 m ρ c (Proc.devRef .tc main_v21) : S1x128.Idx → EReal)
      = shapeCast S1x128 (W2 m ρ c (Proc.devRef .tc main_arg11)) shapeCasts_S128_S1x128 := by
    show StableHlo.after hostOps1 _ (Proc.devRef .tc main_v21) = _
    after_results
    rfl
  rw [e, fwd2 m ρ c main_arg11 (by decide)]
  exact shapeCast_a_1a_apply _ _ 0 k

/-- The neighbour sums host stretch 2 writes, of the layer input as the stretch finds it. -/
theorem W5_v32 (c : Dev nD) :
    W5 m ρ c (Proc.devRef .tc main_v32) = aggOf (W4 m ρ c (Proc.devRef .tc main_v22)) (srcOf (m ((c.tc : Thread nD τ).loc main_arg1))) (dstOf (m ((c.tc : Thread nD τ).loc main_arg1))) := by
  rw [← W4_v1 m ρ c, ← W4_v3 m ρ c]
  show StableHlo.after hostOps2 _ (Proc.devRef .tc main_v32) = _
  after_results
  rfl

/-- The six parameter rows region 2 reads (two biases and the four batch-norm vectors, each a 128-vector cast to one
    row) read, at column `k`, the argument vector at `k`. -/
theorem W5_v33 (c : Dev nD) (k : Fin 128) :
    (W5 m ρ c (Proc.devRef .tc main_v33) : S1x128.Idx → EReal) (ix2 0 k) = (m ((c.tc : Thread nD τ).loc main_arg13)) (ix1 k) := by
  have e : (W5 m ρ c (Proc.devRef .tc main_v33) : S1x128.Idx → EReal)
      = shapeCast S1x128 (W4 m ρ c (Proc.devRef .tc main_arg13)) shapeCasts_S128_S1x128 := by
    show StableHlo.after hostOps2 _ (Proc.devRef .tc main_v33) = _
    after_results
    rfl
  rw [e, fwd4 m ρ c main_arg13 (by decide)]
  exact shapeCast_a_1a_apply _ _ 0 k

theorem W5_v34 (c : Dev nD) (k : Fin 128) :
    (W5 m ρ c (Proc.devRef .tc main_v34) : S1x128.Idx → EReal) (ix2 0 k) = (m ((c.tc : Thread nD τ).loc main_arg14)) (ix1 k) := by
  have e : (W5 m ρ c (Proc.devRef .tc main_v34) : S1x128.Idx → EReal)
      = shapeCast S1x128 (W4 m ρ c (Proc.devRef .tc main_arg14)) shapeCasts_S128_S1x128 := by
    show StableHlo.after hostOps2 _ (Proc.devRef .tc main_v34) = _
    after_results
    rfl
  rw [e, fwd4 m ρ c main_arg14 (by decide)]
  exact shapeCast_a_1a_apply _ _ 0 k

theorem W5_v35 (c : Dev nD) (k : Fin 128) :
    (W5 m ρ c (Proc.devRef .tc main_v35) : S1x128.Idx → EReal) (ix2 0 k) = (m ((c.tc : Thread nD τ).loc main_arg15)) (ix1 k) := by
  have e : (W5 m ρ c (Proc.devRef .tc main_v35) : S1x128.Idx → EReal)
      = shapeCast S1x128 (W4 m ρ c (Proc.devRef .tc main_arg15)) shapeCasts_S128_S1x128 := by
    show StableHlo.after hostOps2 _ (Proc.devRef .tc main_v35) = _
    after_results
    rfl
  rw [e, fwd4 m ρ c main_arg15 (by decide)]
  exact shapeCast_a_1a_apply _ _ 0 k

theorem W5_v36 (c : Dev nD) (k : Fin 128) :
    (W5 m ρ c (Proc.devRef .tc main_v36) : S1x128.Idx → EReal) (ix2 0 k) = (m ((c.tc : Thread nD τ).loc main_arg16)) (ix1 k) := by
  have e : (W5 m ρ c (Proc.devRef .tc main_v36) : S1x128.Idx → EReal)
      = shapeCast S1x128 (W4 m ρ c (Proc.devRef .tc main_arg16)) shapeCasts_S128_S1x128 := by
    show StableHlo.after hostOps2 _ (Proc.devRef .tc main_v36) = _
    after_results
    rfl
  rw [e, fwd4 m ρ c main_arg16 (by decide)]
  exact shapeCast_a_1a_apply _ _ 0 k

theorem W5_v37 (c : Dev nD) (k : Fin 128) :
    (W5 m ρ c (Proc.devRef .tc main_v37) : S1x128.Idx → EReal) (ix2 0 k) = (m ((c.tc : Thread nD τ).loc main_arg17)) (ix1 k) := by
  have e : (W5 m ρ c (Proc.devRef .tc main_v37) : S1x128.Idx → EReal)
      = shapeCast S1x128 (W4 m ρ c (Proc.devRef .tc main_arg17)) shapeCasts_S128_S1x128 := by
    show StableHlo.after hostOps2 _ (Proc.devRef .tc main_v37) = _
    after_results
    rfl
  rw [e, fwd4 m ρ c main_arg17 (by decide)]
  exact shapeCast_a_1a_apply _ _ 0 k

theorem W5_v38 (c : Dev nD) (k : Fin 128) :
    (W5 m ρ c (Proc.devRef .tc main_v38) : S1x128.Idx → EReal) (ix2 0 k) = (m ((c.tc : Thread nD τ).loc main_arg19)) (ix1 k) := by
  have e : (W5 m ρ c (Proc.devRef .tc main_v38) : S1x128.Idx → EReal)
      = shapeCast S1x128 (W4 m ρ c (Proc.devRef .tc main_arg19)) shapeCasts_S128_S1x128 := by
    show StableHlo.after hostOps2 _ (Proc.devRef .tc main_v38) = _
    after_results
    rfl
  rw [e, fwd4 m ρ c main_arg19 (by decide)]
  exact shapeCast_a_1a_apply _ _ 0 k

/-- The neighbour sums host stretch 3 writes, of the layer input as the stretch finds it. -/
theorem W7_v49 (c : Dev nD) :
    W7 m ρ c (Proc.devRef .tc main_v49) = aggOf (W6 m ρ c (Proc.devRef .tc main_v39)) (srcOf (m ((c.tc : Thread nD τ).loc main_arg1))) (dstOf (m ((c.tc : Thread nD τ).loc main_arg1))) := by
  rw [← W6_v1 m ρ c, ← W6_v3 m ρ c]
  show StableHlo.after hostOps3 _ (Proc.devRef .tc main_v49) = _
  after_results
  rfl

/-- The six parameter rows region 3 reads (two biases and the four batch-norm vectors, each a 128-vector cast to one
    row) read, at column `k`, the argument vector at `k`. -/
theorem W7_v50 (c : Dev nD) (k : Fin 128) :
    (W7 m ρ c (Proc.devRef .tc main_v50) : S1x128.Idx → EReal) (ix2 0 k) = (m ((c.tc : Thread nD τ).loc main_arg21)) (ix1 k) := by
  have e : (W7 m ρ c (Proc.devRef .tc main_v50) : S1x128.Idx → EReal)
      = shapeCast S1x128 (W6 m ρ c (Proc.devRef .tc main_arg21)) shapeCasts_S128_S1x128 := by
    show StableHlo.after hostOps3 _ (Proc.devRef .tc main_v50) = _
    after_results
    rfl
  rw [e, fwd6 m ρ c main_arg21 (by decide)]
  exact shapeCast_a_1a_apply _ _ 0 k

theorem W7_v51 (c : Dev nD) (k : Fin 128) :
    (W7 m ρ c (Proc.devRef .tc main_v51) : S1x128.Idx → EReal) (ix2 0 k) = (m ((c.tc : Thread nD τ).loc main_arg22)) (ix1 k) := by
  have e : (W7 m ρ c (Proc.devRef .tc main_v51) : S1x128.Idx → EReal)
      = shapeCast S1x128 (W6 m ρ c (Proc.devRef .tc main_arg22)) shapeCasts_S128_S1x128 := by
    show StableHlo.after hostOps3 _ (Proc.devRef .tc main_v51) = _
    after_results
    rfl
  rw [e, fwd6 m ρ c main_arg22 (by decide)]
  exact shapeCast_a_1a_apply _ _ 0 k

theorem W7_v52 (c : Dev nD) (k : Fin 128) :
    (W7 m ρ c (Proc.devRef .tc main_v52) : S1x128.Idx → EReal) (ix2 0 k) = (m ((c.tc : Thread nD τ).loc main_arg23)) (ix1 k) := by
  have e : (W7 m ρ c (Proc.devRef .tc main_v52) : S1x128.Idx → EReal)
      = shapeCast S1x128 (W6 m ρ c (Proc.devRef .tc main_arg23)) shapeCasts_S128_S1x128 := by
    show StableHlo.after hostOps3 _ (Proc.devRef .tc main_v52) = _
    after_results
    rfl
  rw [e, fwd6 m ρ c main_arg23 (by decide)]
  exact shapeCast_a_1a_apply _ _ 0 k

theorem W7_v53 (c : Dev nD) (k : Fin 128) :
    (W7 m ρ c (Proc.devRef .tc main_v53) : S1x128.Idx → EReal) (ix2 0 k) = (m ((c.tc : Thread nD τ).loc main_arg24)) (ix1 k) := by
  have e : (W7 m ρ c (Proc.devRef .tc main_v53) : S1x128.Idx → EReal)
      = shapeCast S1x128 (W6 m ρ c (Proc.devRef .tc main_arg24)) shapeCasts_S128_S1x128 := by
    show StableHlo.after hostOps3 _ (Proc.devRef .tc main_v53) = _
    after_results
    rfl
  rw [e, fwd6 m ρ c main_arg24 (by decide)]
  exact shapeCast_a_1a_apply _ _ 0 k

theorem W7_v54 (c : Dev nD) (k : Fin 128) :
    (W7 m ρ c (Proc.devRef .tc main_v54) : S1x128.Idx → EReal) (ix2 0 k) = (m ((c.tc : Thread nD τ).loc main_arg25)) (ix1 k) := by
  have e : (W7 m ρ c (Proc.devRef .tc main_v54) : S1x128.Idx → EReal)
      = shapeCast S1x128 (W6 m ρ c (Proc.devRef .tc main_arg25)) shapeCasts_S128_S1x128 := by
    show StableHlo.after hostOps3 _ (Proc.devRef .tc main_v54) = _
    after_results
    rfl
  rw [e, fwd6 m ρ c main_arg25 (by decide)]
  exact shapeCast_a_1a_apply _ _ 0 k

theorem W7_v55 (c : Dev nD) (k : Fin 128) :
    (W7 m ρ c (Proc.devRef .tc main_v55) : S1x128.Idx → EReal) (ix2 0 k) = (m ((c.tc : Thread nD τ).loc main_arg27)) (ix1 k) := by
  have e : (W7 m ρ c (Proc.devRef .tc main_v55) : S1x128.Idx → EReal)
      = shapeCast S1x128 (W6 m ρ c (Proc.devRef .tc main_arg27)) shapeCasts_S128_S1x128 := by
    show StableHlo.after hostOps3 _ (Proc.devRef .tc main_v55) = _
    after_results
    rfl
  rw [e, fwd6 m ρ c main_arg27 (by decide)]
  exact shapeCast_a_1a_apply _ _ 0 k

/-! ## The reference's neighbour sums are the same function of its layer input -/

theorem ref_agg1 (a0 : IVec S50000 32) (a1 : IVec S2x800000 32) (a3 : S500x128.Idx → EReal) :
    Cert.ReferenceIdeal.Read.val_main_v20 (F := Ideal) a0 a1 a3 = aggOf (Cert.ReferenceIdeal.Read.val_main_v6 (F := Ideal) a0 a3) (srcOf a1) (dstOf a1) := rfl

theorem ref_agg2 (a0 : IVec S50000 32) (a1 : IVec S2x800000 32) (a3 : S500x128.Idx → EReal) (a4 : S128x128.Idx → EReal) (a5 : S128.Idx → EReal) (a6 : S128.Idx → EReal) (a7 : S128.Idx → EReal) (a8 : S128.Idx → EReal) (a9 : S128.Idx → EReal) (a10 : S128x128.Idx → EReal) (a11 : S128.Idx → EReal) :
    Cert.ReferenceIdeal.Read.val_main_v60 (F := Ideal) a0 a1 a3 a4 a5 a6 a7 a8 a9 a10 a11 = aggOf (Cert.ReferenceIdeal.Read.val_main_v46 (F := Ideal) a0 a1 a3 a4 a5 a6 a7 a8 a9 a10 a11) (srcOf a1) (dstOf a1) := rfl

theorem ref_agg3 (a0 : IVec S50000 32) (a1 : IVec S2x800000 32) (a3 : S500x128.Idx → EReal) (a4 : S128x128.Idx → EReal) (a5 : S128.Idx → EReal) (a6 : S128.Idx → EReal) (a7 : S128.Idx → EReal) (a8 : S128.Idx → EReal) (a9 : S128.Idx → EReal) (a10 : S128x128.Idx → EReal) (a11 : S128.Idx → EReal) (a12 : S128x128.Idx → EReal) (a13 : S128.Idx → EReal) (a14 : S128.Idx → EReal) (a15 : S128.Idx → EReal) (a16 : S128.Idx → EReal) (a17 : S128.Idx → EReal) (a18 : S128x128.Idx → EReal) (a19 : S128.Idx → EReal) :
    Cert.ReferenceIdeal.Read.val_main_v100 (F := Ideal) a0 a1 a3 a4 a5 a6 a7 a8 a9 a10 a11 a12 a13 a14 a15 a16 a17 a18 a19 = aggOf (Cert.ReferenceIdeal.Read.val_main_v86 (F := Ideal) a0 a1 a3 a4 a5 a6 a7 a8 a9 a10 a11 a12 a13 a14 a15 a16 a17 a18 a19) (srcOf a1) (dstOf a1) := rfl

/-! ## The chain, stage by stage -/

/-- The layer function respects equality of its four array arguments. -/
theorem mlpFn_congr {x x' agg agg' : (⟨2, ![50000, 128]⟩ : Shape).Idx → EReal} {w1 w1' w2 w2' : (⟨2, ![128, 128]⟩ : Shape).Idx → EReal}
    (b1 gamma beta mean var b2 : (⟨1, ![128]⟩ : Shape).Idx → EReal)
    (hx : x = x') (ha : agg = agg') (h1 : w1 = w1') (h2 : w2 = w2') :
    mlpFn x agg w1 b1 gamma beta mean var w2 b2 = mlpFn x' agg' w1' b1 gamma beta mean var w2' b2 := by
  subst hx ha h1 h2; rfl

/-- Region 0's output array is the reference's gathered embedding rows. -/
theorem stage0 (c : Dev nD) (hr : InRange (m ((c.tc : Thread nD τ).loc main_arg0))) :
    (W2 m ρ c (Proc.devRef .tc main_v5) : S50000x128.Idx → EReal) = Cert.ReferenceIdeal.Read.val_main_v6 (F := Ideal) (m ((c.tc : Thread nD τ).loc main_arg0)) (m ((c.tc : Thread nD τ).loc main_arg3)) := by
  have h := emb_arr (V1 m ρ) c (m ((c.tc : Thread nD τ).loc main_arg0)) (W1_v4 m ρ c) hr
  rw [show V1 m ρ c main_arg3 = (m ((c.tc : Thread nD τ).loc main_arg3)) from fwd1 m ρ c main_arg3 (by decide)] at h
  exact (W2_arr m ρ c 2).trans h

/-- Region 1's output array is the reference's layer 1: its layer input is the previous stage, its neighbour sums
    are the shared function of that input, and its eight parameter arrays are the arguments. -/
theorem stage1 (c : Dev nD) (hr : InRange (m ((c.tc : Thread nD τ).loc main_arg0))) :
    (W4 m ρ c (Proc.devRef .tc main_v22) : S50000x128.Idx → EReal) = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have ex : (V3 m ρ c main_v5 : S50000x128.Idx → EReal) = Cert.ReferenceIdeal.Read.val_main_v6 (F := Ideal) (m ((c.tc : Thread nD τ).loc main_arg0)) (m ((c.tc : Thread nD τ).loc main_arg3)) :=
    (skip1 _ main_v5 (by decide)).trans (stage0 m ρ c hr)
  have eagg : (V3 m ρ c main_v15 : S50000x128.Idx → EReal) = Cert.ReferenceIdeal.Read.val_main_v20 (F := Ideal) (m ((c.tc : Thread nD τ).loc main_arg0)) (m ((c.tc : Thread nD τ).loc main_arg1)) (m ((c.tc : Thread nD τ).loc main_arg3)) := by
    rw [ref_agg1]
    exact (W3_v15 m ρ c).trans (by rw [stage0 m ρ c hr])
  have ew1 : V3 m ρ c main_arg4 = (m ((c.tc : Thread nD τ).loc main_arg4)) := fwd3 m ρ c main_arg4 (by decide)
  have ew2 : V3 m ρ c main_arg10 = (m ((c.tc : Thread nD τ).loc main_arg10)) := fwd3 m ρ c main_arg10 (by decide)
  rw [ref_mlp1]
  refine (W4_arr m ρ c 10).trans ((mlp1_arr (V3 m ρ) c (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
    (W3_v16 m ρ c) (W3_v17 m ρ c) (W3_v18 m ρ c) (W3_v19 m ρ c) (W3_v20 m ρ c) (W3_v21 m ρ c)).trans ?_)
  exact mlpFn_congr _ _ _ _ _ _ ex eagg ew1 ew2

/-- Region 2's output array is the reference's layer 2: its layer input is the previous stage, its neighbour sums
    are the shared function of that input, and its eight parameter arrays are the arguments. -/
theorem stage2 (c : Dev nD) (hr : InRange (m ((c.tc : Thread nD τ).loc main_arg0))) :
    (W6 m ρ c (Proc.devRef .tc main_v39) : S50000x128.Idx → EReal) = Cert.ReferenceIdeal.Read.val_main_v86 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have ex : (V5 m ρ c main_v22 : S50000x128.Idx → EReal) = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (skip2 _ main_v22 (by decide)).trans (stage1 m ρ c hr)
  have eagg : (V5 m ρ c main_v32 : S50000x128.Idx → EReal) = Cert.ReferenceIdeal.Read.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    rw [ref_agg2]
    exact (W5_v32 m ρ c).trans (by rw [stage1 m ρ c hr])
  have ew1 : V5 m ρ c main_arg12 = (m ((c.tc : Thread nD τ).loc main_arg12)) := fwd5 m ρ c main_arg12 (by decide)
  have ew2 : V5 m ρ c main_arg18 = (m ((c.tc : Thread nD τ).loc main_arg18)) := fwd5 m ρ c main_arg18 (by decide)
  rw [ref_mlp2]
  refine (W6_arr m ρ c 10).trans ((mlp2_arr (V5 m ρ) c (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg19))
    (W5_v33 m ρ c) (W5_v34 m ρ c) (W5_v35 m ρ c) (W5_v36 m ρ c) (W5_v37 m ρ c) (W5_v38 m ρ c)).trans ?_)
  exact mlpFn_congr _ _ _ _ _ _ ex eagg ew1 ew2

/-- Region 3's output array is the reference's layer 3: its layer input is the previous stage, its neighbour sums
    are the shared function of that input, and its eight parameter arrays are the arguments. -/
theorem stage3 (c : Dev nD) (hr : InRange (m ((c.tc : Thread nD τ).loc main_arg0))) :
    (W8 m ρ c (Proc.devRef .tc main_v56) : S50000x128.Idx → EReal) = Cert.ReferenceIdeal.Read.val_main_v126 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  have ex : (V7 m ρ c main_v39 : S50000x128.Idx → EReal) = Cert.ReferenceIdeal.Read.val_main_v86 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
    (skip3 _ main_v39 (by decide)).trans (stage2 m ρ c hr)
  have eagg : (V7 m ρ c main_v49 : S50000x128.Idx → EReal) = Cert.ReferenceIdeal.Read.val_main_v100 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
    rw [ref_agg3]
    exact (W7_v49 m ρ c).trans (by rw [stage2 m ρ c hr])
  have ew1 : V7 m ρ c main_arg20 = (m ((c.tc : Thread nD τ).loc main_arg20)) := fwd7 m ρ c main_arg20 (by decide)
  have ew2 : V7 m ρ c main_arg26 = (m ((c.tc : Thread nD τ).loc main_arg26)) := fwd7 m ρ c main_arg26 (by decide)
  rw [ref_mlp3]
  refine (W8_arr m ρ c 10).trans ((mlp3_arr (V7 m ρ) c (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg27))
    (W7_v50 m ρ c) (W7_v51 m ρ c) (W7_v52 m ρ c) (W7_v53 m ρ c) (W7_v54 m ρ c) (W7_v55 m ρ c)).trans ?_)
  exact mlpFn_congr _ _ _ _ _ _ ex eagg ew1 ew2

end Chain

/-- THE KERNEL PROGRAM'S RESULT IS THE REFERENCE'S LAST STAGE of the same argument arrays, when the ids are row
    numbers of the embedding table: the chain of segment-boundary contents read stage by stage. -/
theorem out_eq (c : Dev nD) (hr : InRange (m ((c.tc : Thread nD τ).loc main_arg0))) :
    (W13 m ρ c (Proc.devRef .tc main_v70) : S512x10.Idx → EReal)
      = Cert.ReferenceIdeal.Read.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) :=
  head_eq m ρ c (pool_stage m ρ c (Chain.stage1 m ρ c hr) (Chain.stage2 m ρ c hr) (Chain.stage3 m ρ c hr))

end Cert.Gin

end
-- ==== Proof.PreRange.lean ====
import proofs.«431365_j395136991277_1_alg».proof.Proof.Spec
import proofs.«431365_j395136991277_1_alg».proof.Defs
import proofs.«431365_j395136991277_1_alg».proof.Proof.Gen.Pre_finite_inputs
import Idealize.ShloMosaic.Lib.ReduceAll
import Idealize.ShloMosaic.Lib.StableHlo.Predicate

/-
  The precondition, decoded at the integer argument.

  The printed predicate is one long conjunction: twenty-nine "every entry is finite" tests of the float arrays, then
  "every id is at least 0" and "every id is below 500" (both comparisons of signed 32-bit words against a constant
  laid over the whole vector), each "every" a reduction by `and` to one bit, the bits joined by `and`. Its last
  stretch ends in `(… and all(ids ≥ 0)) and all(ids < 500)`, so if the whole is 1 then both of those reductions are 1,
  and a reduction by `and` that is 1 met only 1s: at every position n, `ids n ≥ 0` and `ids n < 500` hold as signed
  comparisons. A word that is non-negative as a signed number has its top bit clear, so it reads the same signed and
  unsigned; below 500 signed is then below 500 as a natural number, and every word is the word of its own value.
-/

noncomputable section

namespace Cert.Gin

open Idealize.ShloMosaic Idealize.ShloMosaic.TcCoe Idealize.ShloMosaic.ValueIdx Idealize.SL.Sem

/-- The scalar shape has exactly one index (the empty tuple of coordinates). -/
private theorem scalarIdx_subsingleton : Subsingleton Cert.Pre_finite_inputs.S_.Idx :=
  ⟨fun a b => funext fun d => d.elim0⟩

/-- A word that is at least 0 as a signed number has its top bit clear: its value is below 2³¹. -/
private theorem toNat_lt_of_sge_zero (w : BitVec 32) (h0 : IntOp.cmpi .sge w 0#32 = 1#1) : w.toNat < 2 ^ 31 := by
  unfold IntOp.cmpi at h0
  rw [StableHlo.Predicate.ofBool_eq_one_iff] at h0
  simp only [BitVec.sle, decide_eq_true_eq] at h0
  -- h0 : the signed value of 0 is at most the signed value of w; the latter is w's value, less 2³² when the top bit is set
  have hz : (0#32 : BitVec 32).toInt = 0 := by decide
  rw [hz, BitVec.toInt_eq_toNat_cond] at h0
  have hw := w.isLt
  split at h0 <;> omega

/-- A word in [0, 500) as a signed number has a value below 500. -/
private theorem toNat_lt_500 (w : BitVec 32) (h0 : IntOp.cmpi .sge w 0#32 = 1#1)
    (h5 : IntOp.cmpi .slt w 500#32 = 1#1) : w.toNat < 500 :=
  (StableHlo.Predicate.slt_iff_toNat (toNat_lt_of_sge_zero w h0) (by decide)).1 h5

/-- A word is the word of its own value. -/
private theorem eq_ofNat_toNat (w : BitVec 32) : w = BitVec.ofNat 32 w.toNat := by
  apply BitVec.eq_of_toNat_eq
  rw [BitVec.toNat_ofNat]
  exact (Nat.mod_eq_of_lt w.isLt).symm

open Cert.Pre_finite_inputs in
/-- The last stretch of the printed predicate, read at one position: it is `(p and all(ids ≥ 0)) and all(ids < 500)`
    for some bit p, so when it is 1 both reductions are 1, and each then holds at every position `i`; a comparison
    against a constant laid over the vector is, at `i`, the comparison of `ids i` with that constant. -/
private theorem lastStretch_elem {F : FTy → Type} [FloatOps F] [Cert.Pre_finite_inputs.Facts]
    (a0 : IVec S50000 32) (a31 : FVec F S10 .f32) (v133 : IVec S_ 1) (v136 : IVec S384x10 1)
    (h : fn_part8 (F := F) a0 a31 v133 v136 ix0 = 1#1) (i : S50000.Idx) :
    IntOp.cmpi .sge (a0 i) 0#32 = 1#1 ∧ IntOp.cmpi .slt (a0 i) 500#32 = 1#1 := by
  haveI := scalarIdx_subsingleton
  obtain ⟨h1, h500⟩ := IntOp.andi_eq_one.1 h
  obtain ⟨_, h0⟩ := IntOp.andi_eq_one.1 h1
  exact ⟨Host.reduce_andi_all _ _ _ _ _ h0 i, Host.reduce_andi_all _ _ _ _ _ h500 i⟩

/-- The precondition's last two conjuncts (every id is at least 0 and below 500, as signed words) say that every id
    is the word of a row number below 500. -/
theorem inRange_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg0)) := by
  intro n
  -- the whole predicate unfolds, stretch by stretch, to its last stretch applied to the ids
  obtain ⟨h0, h5⟩ := lastStretch_elem _ _ _ _ (congrFun (h c) ix0) (ix1 n)
  exact ⟨⟨_, toNat_lt_500 _ h0 h5⟩, eq_ofNat_toNat _⟩

end Cert.Gin

end
-- ==== Proof.lean ====
/-
  A three-layer graph-isomorphism network with global add pooling and a two-layer head, computed two ways.

  The reference gathers embedding rows by the node ids, and per layer adds to each node the sum of its in-neighbours'
  features (a gather by edge source and a scatter-add by edge target), applies the node-wise network
  (linear, batch norm in evaluation mode, rectifier, linear, rectifier) to all 50000 nodes at once, pools each layer's
  features per graph by a scatter-add over the nodes' graph numbers, concatenates the three pooled blocks, and applies
  the head. The kernel program computes the embedding rows as a one-hot matrix times the table, tile by tile of 2000
  nodes; the node-wise network tile by tile; and the pooling as one-hot-transposed times features, accumulated over the
  25 tiles into one block; the neighbour sums and the head are the same host operations as the reference's.

  On the extended reals the two agree entry by entry whenever every id is a row number of the table (0 ≤ id < 500):
  a one-hot row times the table selects the row (0 · x = 0 and 1 · x = x for every extended real x); a product of
  2000-row tiles is the rows of the whole product; a sum over all nodes of indicator times feature is the sum over the
  nodes the indicator selects, in any order and any grouping, which is what a scatter-add into zero computes (a graph
  number outside 0..511 selects no row on either side). No step needs the inputs to be finite. Outside the id range
  the two programs differ (the reference clamps the row number, the one-hot row is zero), hence the precondition's
  range conjunct.

  The modules: KernelRun (the kernel program's run with its final memory named), EmbValue / MlpKernel1-3 / PoolKernel
  (what each tiled region leaves in its output array, as a whole-array function of the arrays it reads), MlpRef /
  PoolRef (the reference's stages as the same functions), Glue (the stages chained from the arguments to the result),
  PreRange (the id range read out of the precondition).
-/
import proofs.«431365_j395136991277_1_alg».proof.Defs
import proofs.«431365_j395136991277_1_alg».proof.Proof.Gen.Kernel
import proofs.«431365_j395136991277_1_alg».proof.Proof.Gen.Kernel.Skeleton
import proofs.«431365_j395136991277_1_alg».proof.Proof.Gen.Kernel.Launch
import proofs.«431365_j395136991277_1_alg».proof.Proof.Gen.Kernel.Points
import proofs.«431365_j395136991277_1_alg».proof.Proof.Gen.Kernel.Frame
import proofs.«431365_j395136991277_1_alg».proof.Proof.Gen.KernelIdeal
import proofs.«431365_j395136991277_1_alg».proof.Proof.Gen.KernelIdeal.Skeleton
import proofs.«431365_j395136991277_1_alg».proof.Proof.Gen.KernelIdeal.Launch
import proofs.«431365_j395136991277_1_alg».proof.Proof.Gen.KernelIdeal.Points
import proofs.«431365_j395136991277_1_alg».proof.Proof.Gen.KernelIdeal.Frame
import proofs.«431365_j395136991277_1_alg».proof.Proof.Gen.ReferenceIdeal
import proofs.«431365_j395136991277_1_alg».proof.Proof.Gen.ReferenceIdeal.Run
import proofs.«431365_j395136991277_1_alg».proof.Proof.Gen.ReferenceIdeal.Read
import proofs.«431365_j395136991277_1_alg».proof.Proof.Gen.Pre_finite_inputs
import proofs.«431365_j395136991277_1_alg».proof.Proof.KernelRun
import proofs.«431365_j395136991277_1_alg».proof.Proof.Glue
import proofs.«431365_j395136991277_1_alg».proof.Proof.PreRange
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts
  Cert.Pre_finite_inputs.Gen.facts

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result: the kernel program's last boundary contents at its result
    array is the reference's last stage of the kernel's arguments (the chain of stages, under the id range the
    precondition gives), and the reference's run ends at that stage of its own arguments, which agree. -/
theorem algebraic : Cert.algebraic_KernelIdeal_ReferenceIdeal := by
  intro m ρ m' ρ' hpre hagree
  refine ⟨fun c => Cert.KernelIdeal.Gen.W13 m ρ c (Proc.devRef .tc Cert.KernelIdeal.main_v70),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31⟩ := hagree c
  rw [Cert.ReferenceIdeal.Read.val_main_v145_eq, h0, h1, h2, h3, h4, h5, h6, h7, h8, h9, h10, h11, h12, h13, h14, h15, h16, h17, h18, h19, h20, h21, h22, h23, h24, h25, h26, h27, h28, h29, h30, h31]
  exact (Cert.Gin.out_eq m ρ c (Cert.Gin.inRange_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
